-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S512x8 .f32 .bf16
  ∧ IdealRules.truncf_extf.Statement Cert.KernelIdeal.S512x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S128x3x128 : Shape := ⟨3, ![128, 3, 128]⟩
abbrev S128x3x64 : Shape := ⟨3, ![128, 3, 64]⟩
abbrev S1x64 : Shape := ⟨2, ![1, 64]⟩
abbrev S8x512 : Shape := ⟨2, ![8, 512]⟩
abbrev S2x8x32768 : Shape := ⟨3, ![2, 8, 32768]⟩
abbrev S1x8x32768 : Shape := ⟨3, ![1, 8, 32768]⟩
abbrev S8x32768 : Shape := ⟨2, ![8, 32768]⟩
abbrev S8x512x64 : Shape := ⟨3, ![8, 512, 64]⟩
abbrev S512x8x64 : Shape := ⟨3, ![512, 8, 64]⟩
abbrev S4096x64 : Shape := ⟨2, ![4096, 64]⟩
abbrev S512x8 : Shape := ⟨2, ![512, 8]⟩
abbrev S512x8x1 : Shape := ⟨3, ![512, 8, 1]⟩
abbrev S1x64x128 : Shape := ⟨3, ![1, 64, 128]⟩
abbrev S64x128 : Shape := ⟨2, ![64, 128]⟩
abbrev S4096x128 : Shape := ⟨2, ![4096, 128]⟩
abbrev S512x8x128 : Shape := ⟨3, ![512, 8, 128]⟩
abbrev S1x1x128 : Shape := ⟨3, ![1, 1, 128]⟩
abbrev S1x64x64 : Shape := ⟨3, ![1, 64, 64]⟩
abbrev S64x64 : Shape := ⟨2, ![64, 64]⟩
abbrev S1x1x64 : Shape := ⟨3, ![1, 1, 64]⟩
abbrev S1x128 : Shape := ⟨2, ![1, 128]⟩

abbrev nBuf : Space → Nat
  | .hbm => 40
  | .vmem => 23
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S65x3x128, .bf16⟩
  | .hbm, ⟨15, _⟩ => ⟨S1x3x128, .bf16⟩
  | .hbm, ⟨16, _⟩ => ⟨S3x1x128, .bf16⟩
  | .hbm, ⟨17, _⟩ => ⟨S64x3x128, .bf16⟩
  | .hbm, ⟨18, _⟩ => ⟨S3x64x128, .bf16⟩
  | .hbm, ⟨19, _⟩ => ⟨S65x3x64, .f32⟩
  | .hbm, ⟨20, _⟩ => ⟨S65x3x64, .bf16⟩
  | .hbm, ⟨21, _⟩ => ⟨S1x3x64, .bf16⟩
  | .hbm, ⟨22, _⟩ => ⟨S3x1x64, .bf16⟩
  | .hbm, ⟨23, _⟩ => ⟨S64x3x64, .bf16⟩
  | .hbm, ⟨24, _⟩ => ⟨S3x64x64, .bf16⟩
  | .hbm, ⟨25, _⟩ => ⟨S128x3x128, .f32⟩
  | .hbm, ⟨26, _⟩ => ⟨S128x3x128, .bf16⟩
  | .hbm, ⟨27, _⟩ => ⟨S64x3x128, .bf16⟩
  | .hbm, ⟨28, _⟩ => ⟨S3x64x128, .bf16⟩
  | .hbm, ⟨29, _⟩ => ⟨S64x3x128, .bf16⟩
  | .hbm, ⟨30, _⟩ => ⟨S3x64x128, .bf16⟩
  | .hbm, ⟨31, _⟩ => ⟨S128x3x64, .f32⟩
  | .hbm, ⟨32, _⟩ => ⟨S128x3x64, .bf16⟩
  | .hbm, ⟨33, _⟩ => ⟨S64x3x64, .bf16⟩
  | .hbm, ⟨34, _⟩ => ⟨S3x64x64, .bf16⟩
  | .hbm, ⟨35, _⟩ => ⟨S64x3x64, .bf16⟩
  | .hbm, ⟨36, _⟩ => ⟨S3x64x64, .bf16⟩
  | .hbm, ⟨37, _⟩ => ⟨S1x64, .f32⟩
  | .hbm, ⟨38, _⟩ => ⟨S32x512, .f32⟩
  | .hbm, ⟨39, _⟩ => ⟨S2x32x32768, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S2x8x32768, .f32⟩
  | .local _ .vmem, ⟨4, _⟩ => ⟨S2x8x32768, .f32⟩
  | .local _ .vmem, ⟨5, _⟩ => ⟨S3x1x128, .bf16⟩
  | .local _ .vmem, ⟨6, _⟩ => ⟨S3x64x128, .bf16⟩
  | .local _ .vmem, ⟨7, _⟩ => ⟨S3x1x64, .bf16⟩
  | .local _ .vmem, ⟨8, _⟩ => ⟨S3x64x64, .bf16⟩
  | .local _ .vmem, ⟨9, _⟩ => ⟨S128, .f32⟩
  | .local _ .vmem, ⟨10, _⟩ => ⟨S64, .f32⟩
  | .local _ .vmem, ⟨11, _⟩ => ⟨S3x64x128, .bf16⟩
  | .local _ .vmem, ⟨12, _⟩ => ⟨S3x64x128, .bf16⟩
  | .local _ .vmem, ⟨13, _⟩ => ⟨S3x64x64, .bf16⟩
  | .local _ .vmem, ⟨14, _⟩ => ⟨S3x64x64, .bf16⟩
  | .local _ .vmem, ⟨15, _⟩ => ⟨S128, .f32⟩
  | .local _ .vmem, ⟨16, _⟩ => ⟨S64, .f32⟩
  | .local _ .vmem, ⟨17, _⟩ => ⟨S1x64, .f32⟩
  | .local _ .vmem, ⟨18, _⟩ => ⟨S1, .f32⟩
  | .local _ .vmem, ⟨19, _⟩ => ⟨S8x512, .f32⟩
  | .local _ .vmem, ⟨20, _⟩ => ⟨S8x512, .f32⟩
  | .local _ .vmem, ⟨21, _⟩ => ⟨S2x8x32768, .f32⟩
  | .local _ .vmem, ⟨22, _⟩ => ⟨S2x8x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x8x32768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S195x128_S65x3x128 : S195x128.ShapeCasts S65x3x128
  bitsLt_bf16_f32 : FTy.bits .bf16 < FTy.bits .f32
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x8x32768_S1x8x32768_0_0_0 : ∀ a, (![0, 0, 0] : Fin 3 → Nat) a + S1x8x32768.size a ≤ S2x8x32768.size a
  h_S1x8x32768 : 0 < S1x8x32768.numel
  shapeCasts_S1x8x32768_S8x32768 : S1x8x32768.ShapeCasts S8x32768
  shapeCasts_S8x32768_S8x512x64 : S8x32768.ShapeCasts S8x512x64
  transposes_S8x512x64_p1_0_2_S512x8x64 : S8x512x64.Transposes [1, 0, 2] S512x8x64
  shapeCasts_S512x8x64_S4096x64 : S512x8x64.ShapeCasts S4096x64
  inb_S8x512_S8x512_0_0 : ∀ a, (![0, 0] : Fin 2 → Nat) a + S8x512.size a ≤ S8x512.size a
  h_S8x512 : 0 < S8x512.numel
  transposes_S8x512_p1_0_S512x8 : S8x512.Transposes [1, 0] S512x8
  shapeCasts_S512x8_S512x8x1 : S512x8.ShapeCasts S512x8x1
  inb_S3x1x128_S3x1x128_0_0_0 : ∀ a, (![0, 0, 0] : Fin 3 → Nat) a + S3x1x128.size a ≤ S3x1x128.size a
  h_S3x1x128 : 0 < S3x1x128.numel
  shapeCasts_S3x1x128_S3x1x128 : S3x1x128.ShapeCasts S3x1x128
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128_S128_0 : ∀ a, (![0] : Fin 1 → Nat) a + S128.size a ≤ S128.size a
  h_S128 : 0 < S128.numel
  shapeCasts_S4096x64_S512x8x64 : S4096x64.ShapeCasts S512x8x64
  shapeCasts_S512x8x64_S512x512 : S512x8x64.ShapeCasts S512x512
  slices_S3x64x128_o0_0_0_S1x64x128 : S3x64x128.Slices ![0, 0, 0] S1x64x128
  shapeCasts_S1x64x128_S64x128 : S1x64x128.ShapeCasts S64x128
  shapeCasts_S512x512_S512x8x64 : S512x512.ShapeCasts S512x8x64
  slices_S3x64x128_o1_0_0_S1x64x128 : S3x64x128.Slices ![1, 0, 0] S1x64x128
  slices_S3x64x128_o2_0_0_S1x64x128 : S3x64x128.Slices ![2, 0, 0] S1x64x128
  shapeCasts_S4096x128_S512x8x128 : S4096x128.ShapeCasts S512x8x128
  shapeCasts_S128_S1x1x128 : S128.ShapeCasts S1x1x128
  broadcasts_S1x1x128_S512x8x128 : S1x1x128.Broadcasts S512x8x128
  slices_S3x1x128_o0_0_0_S1x1x128 : S3x1x128.Slices ![0, 0, 0] S1x1x128
  shapeCasts_S1x1x128_S128 : S1x1x128.ShapeCasts S128
  broadcasts_S512x8x1_S512x8x128 : S512x8x1.Broadcasts S512x8x128
  slices_S3x1x128_o1_0_0_S1x1x128 : S3x1x128.Slices ![1, 0, 0] S1x1x128
  slices_S3x1x128_o2_0_0_S1x1x128 : S3x1x128.Slices ![2, 0, 0] S1x1x128
  shapeCasts_S512x8x128_S4096x128 : S512x8x128.ShapeCasts S4096x128
  slices_S4096x128_o0_0_S4096x64 : S4096x128.Slices ![0, 0] S4096x64
  slices_S4096x128_o0_64_S4096x64 : S4096x128.Slices ![0, 64] S4096x64
  inb_S3x1x64_S3x1x64_0_0_0 : ∀ a, (![0, 0, 0] : Fin 3 → Nat) a + S3x1x64.size a ≤ S3x1x64.size a
  h_S3x1x64 : 0 < S3x1x64.numel
  shapeCasts_S3x1x64_S3x1x64 : S3x1x64.ShapeCasts S3x1x64
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  inb_S64_S64_0 : ∀ a, (![0] : Fin 1 → Nat) a + S64.size a ≤ S64.size a
  h_S64 : 0 < S64.numel
  slices_S3x64x64_o0_0_0_S1x64x64 : S3x64x64.Slices ![0, 0, 0] S1x64x64
  shapeCasts_S1x64x64_S64x64 : S1x64x64.ShapeCasts S64x64
  slices_S3x64x64_o1_0_0_S1x64x64 : S3x64x64.Slices ![1, 0, 0] S1x64x64
  slices_S3x64x64_o2_0_0_S1x64x64 : S3x64x64.Slices ![2, 0, 0] S1x64x64
  shapeCasts_S64_S1x1x64 : S64.ShapeCasts S1x1x64
  broadcasts_S1x1x64_S512x8x64 : S1x1x64.Broadcasts S512x8x64
  slices_S3x1x64_o0_0_0_S1x1x64 : S3x1x64.Slices ![0, 0, 0] S1x1x64
  shapeCasts_S1x1x64_S64 : S1x1x64.ShapeCasts S64
  broadcasts_S512x8x1_S512x8x64 : S512x8x1.Broadcasts S512x8x64
  slices_S3x1x64_o1_0_0_S1x1x64 : S3x1x64.Slices ![1, 0, 0] S1x1x64
  slices_S3x1x64_o2_0_0_S1x1x64 : S3x1x64.Slices ![2, 0, 0] S1x1x64
  inb_S2x8x32768_S1x8x32768_1_0_0 : ∀ a, (![1, 0, 0] : Fin 3 → Nat) a + S1x8x32768.size a ≤ S2x8x32768.size a
  shapeCasts_S128_S1x128 : S128.ShapeCasts S1x128
  broadcasts_S1x128_S4096x128 : S1x128.Broadcasts S4096x128
  shapeCasts_S64_S1x64 : S64.ShapeCasts S1x64
  broadcasts_S1x64_S4096x64 : S1x64.Broadcasts S4096x64
  transposes_S512x8x64_p1_0_2_S8x512x64 : S512x8x64.Transposes [1, 0, 2] S8x512x64
  shapeCasts_S8x512x64_S8x32768 : S8x512x64.ShapeCasts S8x32768
  shapeCasts_S8x32768_S1x8x32768 : S8x32768.ShapeCasts S1x8x32768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  reduces_S512x8x64_S512x8 : S512x8x64.Reduces [2] S512x8
  inb_S1_S1_0 : ∀ a, (![0] : Fin 1 → Nat) a + S1.size a ≤ S1.size a
  h_S1 : 0 < S1.numel
  inpos_S1_p0 : ∀ a, (![0] : Fin 1 → Nat) a < S1.size a
  transposes_S512x8_p1_0_S8x512 : S512x8.Transposes [1, 0] S8x512
  dot_S512x512_S512x8_S512x8_1_0_0_1_n_n_wf : DotDims.WF S512x512 S512x8 S512x8 [1] [0] [0] [1] [] []
  dot_S512x512_S512x512_S512x512_1_0_0_1_n_n_wf : DotDims.WF S512x512 S512x512 S512x512 [1] [0] [0] [1] [] []
  dot_S4096x64_S64x128_S4096x128_1_0_0_1_n_n_wf : DotDims.WF S4096x64 S64x128 S4096x128 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S32x512.size a
  hwx0_0 : ∀ i : grid0.Coords, EltTy.bits .f32 = 32 ∨ (Rect.block (s := S32x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x32768.size a ≤ S2x32x32768.size a
  hwx0_2 : ∀ i : grid0.Coords, EltTy.bits .f32 = 32 ∨ (Rect.block (s := S2x32x32768) S2x8x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x128.size a ≤ S3x1x128.size a
  hwx0_3 : ∀ i : grid0.Coords, EltTy.bits .bf16 = 32 ∨ (Rect.block (s := S3x1x128) S3x1x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x128.size a ≤ S3x64x128.size a
  hwx0_4 : ∀ i : grid0.Coords, EltTy.bits .bf16 = 32 ∨ (Rect.block (s := S3x64x128) S3x64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1x64.size a ≤ S3x1x64.size a
  hwx0_5 : ∀ i : grid0.Coords, EltTy.bits .bf16 = 32 ∨ (Rect.block (s := S3x1x64) S3x1x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x64.size a ≤ S3x64x64.size a
  hwx0_6 : ∀ i : grid0.Coords, EltTy.bits .bf16 = 32 ∨ (Rect.block (s := S3x64x64) S3x64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x128.size a ≤ S3x64x128.size a
  hwx0_9 : ∀ i : grid0.Coords, EltTy.bits .bf16 = 32 ∨ (Rect.block (s := S3x64x128) S3x64x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64x128.size a ≤ S3x64x128.size a
  hwx0_10 : ∀ i : grid0.Coords, EltTy.bits .bf16 = 32 ∨ (Rect.block (s := S3x64x128) S3x64x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x64x64.size a ≤ S3x64x64.size a
  hwx0_11 : ∀ i : grid0.Coords, EltTy.bits .bf16 = 32 ∨ (Rect.block (s := S3x64x64) S3x64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x64x64.size a ≤ S3x64x64.size a
  hwx0_12 : ∀ i : grid0.Coords, EltTy.bits .bf16 = 32 ∨ (Rect.block (s := S3x64x64) S3x64x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x512.size a ≤ S32x512.size a
  hwx0_17 : ∀ i : grid0.Coords, EltTy.bits .f32 = 32 ∨ (Rect.block (s := S32x512) S8x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x8x32768.size a ≤ S2x32x32768.size a
  hwx0_18 : ∀ i : grid0.Coords, EltTy.bits .f32 = 32 ∨ (Rect.block (s := S2x32x32768) S2x8x32768.size (cc0_transform_18 i) (hinb0_18 i)).WholeWords (EltTy.packing .f32)

variable [Facts₀]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S3x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S3x64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S3x64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S3x64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S3x64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v25_0) S8x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v25_1) S2x8x32768.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The mathematics of the claim, stated once over plain coordinates, importing no program.

  One cell of a diffusion-convolution GRU acts on ONE batch element: a signal `z : Fin 512 → EReal` over the graph's
  nodes is diffused by the adjacency `A` (`d1 A z = A z`, and the second Chebyshev tap `2 · A (A z) − z`), every
  feature's three taps are contracted against a weight matrix whose rows are ordered (feature, tap), a bias is added,
  and the gates `r, u = σ(…)`, the candidate `c = tanh(… r ⊙ h …)` and the update `u ⊙ h + (1 − u) ⊙ c` follow.
  Two spellings of that one function are defined here. The KERNEL-form (suffix `K`) diffuses the input feature(s) and the
  hidden features separately, scales the adjacency by two before the second product, and adds the per-tap partial sums
  one after the other. The REFERENCE-form (suffix `R`) concatenates the features, multiplies by two after the product,
  and contracts all (feature, tap) pairs in ONE sum. That they agree is the algebra module's business.
-/
import Idealize.ShloMosaic.PureOps.Ideal
import Idealize.ShloMosaic.Lib.ValueIdx

noncomputable section

open scoped BigOperators
open Idealize.ShloMosaic Idealize.ShloMosaic.ValueIdx

namespace Cert.Dcgru

/-- The two literals of both programs, kept as their words: the factor of the second diffusion tap and the one of `1 − u`
    (and of the reference's spelt-out logistic). -/
abbrev two : EReal := Ideal.ofBits .f32 0x40000000#32
abbrev one : EReal := Ideal.ofBits .f32 0x3F800000#32

/-! ## Coordinates -/

/-- Row `n · 8 + b` of a chunk's row form [512 · 8, c]: node `n`, chunk-local batch element `b`. -/
def rowIx (n : Fin 512) (b : Fin 8) : Fin 4096 := ⟨n.val * 8 + b.val, by omega⟩
/-- Column `b · 64 + u` of a chunk's node-major form [512, 8 · 64]. -/
def colIx (b : Fin 8) (u : Fin 64) : Fin 512 := ⟨b.val * 64 + u.val, by omega⟩
/-- Position `n · 64 + u` of a hidden state's flat last axis [512 · 64]. -/
def flatIx (n : Fin 512) (u : Fin 64) : Fin 32768 := ⟨n.val * 64 + u.val, by omega⟩
/-- Batch element `t · 8 + b`: element `b` of chunk `t`. -/
def gbat (t : Fin 4) (b : Fin 8) : Fin 32 := ⟨t.val * 8 + b.val, by omega⟩
/-- Row `B · 512 + n` of the reference's row form [32 · 512, c]. -/
def brow (B : Fin 32) (n : Fin 512) : Fin 16384 := ⟨B.val * 512 + n.val, by omega⟩
/-- The reset gate's and the update gate's columns among a gate block's 128. -/
def gLo (u : Fin 64) : Fin 128 := ⟨u.val, by omega⟩
def gHi (u : Fin 64) : Fin 128 := ⟨64 + u.val, by omega⟩

/-! ## Diffusion -/

def d1 (A : Fin 512 → Fin 512 → EReal) (z : Fin 512 → EReal) (n : Fin 512) : EReal := ∑ k : Fin 512, A n k * z k
/-- The second tap as the kernel computes it: the adjacency scaled first. -/
def d2K (A : Fin 512 → Fin 512 → EReal) (z : Fin 512 → EReal) (n : Fin 512) : EReal :=
  (∑ k : Fin 512, (A n k * two) * d1 A z k) - z n
/-- The second tap as the reference computes it: the product scaled. -/
def d2R (A : Fin 512 → Fin 512 → EReal) (z : Fin 512 → EReal) (n : Fin 512) : EReal :=
  two * (∑ k : Fin 512, A n k * d1 A z k) - z n
def tapR (A : Fin 512 → Fin 512 → EReal) (m : Fin 3) (z : Fin 512 → EReal) : Fin 512 → EReal :=
  if m.val = 0 then z else if m.val = 1 then d1 A z else d2R A z

/-! ## The weight rows: row `f · 3 + m` is (feature `f`, tap `m`) -/

/-- Layer 0 (one input feature, then 64 hidden): the input feature's tap rows and the hidden features'. -/
def wx0 {O : Nat} (W : Fin 195 → Fin O → EReal) (m : Fin 3) (o : Fin O) : EReal := W ⟨m.val, by omega⟩ o
def wh0 {O : Nat} (W : Fin 195 → Fin O → EReal) (m : Fin 3) (u : Fin 64) (o : Fin O) : EReal := W ⟨(1 + u.val) * 3 + m.val, by omega⟩ o
/-- Layer 1 (64 input features, then 64 hidden). -/
def wx1 {O : Nat} (W : Fin 384 → Fin O → EReal) (m : Fin 3) (u : Fin 64) (o : Fin O) : EReal := W ⟨u.val * 3 + m.val, by omega⟩ o
def wh1 {O : Nat} (W : Fin 384 → Fin O → EReal) (m : Fin 3) (u : Fin 64) (o : Fin O) : EReal := W ⟨(64 + u.val) * 3 + m.val, by omega⟩ o

/-! ## The graph convolution before its activation -/

/-- Kernel-form, layer 0: the hidden features' three tap products, the bias, then the input feature's three outer products. -/
def pre0K {O : Nat} (A : Fin 512 → Fin 512 → EReal) (x : Fin 512 → EReal) (s : Fin 512 → Fin 64 → EReal)
    (wx : Fin 3 → Fin O → EReal) (wh : Fin 3 → Fin 64 → Fin O → EReal) (bias : Fin O → EReal) (n : Fin 512) (o : Fin O) : EReal :=
  (((((∑ u : Fin 64, s n u * wh 0 u o) + (∑ u : Fin 64, d1 A (fun k => s k u) n * wh 1 u o))
      + (∑ u : Fin 64, d2K A (fun k => s k u) n * wh 2 u o)) + bias o
      + x n * wx 0 o) + d1 A x n * wx 1 o) + d2K A x n * wx 2 o

/-- Kernel-form, layer 1: hidden and input products alternate, tap by tap, then the bias. -/
def pre1K {O : Nat} (A : Fin 512 → Fin 512 → EReal) (xf : Fin 512 → Fin 64 → EReal) (s : Fin 512 → Fin 64 → EReal)
    (wx wh : Fin 3 → Fin 64 → Fin O → EReal) (bias : Fin O → EReal) (n : Fin 512) (o : Fin O) : EReal :=
  ((((((∑ u : Fin 64, s n u * wh 0 u o) + (∑ u : Fin 64, xf n u * wx 0 u o))
      + (∑ u : Fin 64, d1 A (fun k => s k u) n * wh 1 u o)) + (∑ u : Fin 64, d1 A (fun k => xf k u) n * wx 1 u o))
      + (∑ u : Fin 64, d2K A (fun k => s k u) n * wh 2 u o)) + (∑ u : Fin 64, d2K A (fun k => xf k u) n * wx 2 u o)) + bias o

/-- The reference's concatenated features: layer 0's one input feature then the 64 hidden; layer 1's 64 then 64. -/
def feat0 (x : Fin 512 → EReal) (s : Fin 512 → Fin 64 → EReal) (f : Fin 65) : Fin 512 → EReal :=
  if h : f.val = 0 then x else fun k => s k ⟨f.val - 1, by omega⟩
def feat1 (xf : Fin 512 → Fin 64 → EReal) (s : Fin 512 → Fin 64 → EReal) (f : Fin 128) : Fin 512 → EReal :=
  if h : f.val < 64 then fun k => xf k ⟨f.val, h⟩ else fun k => s k ⟨f.val - 64, by omega⟩

/-- Reference-form: ONE contraction over the (feature, tap) pairs, then the bias. -/
def preR0 {O : Nat} (A : Fin 512 → Fin 512 → EReal) (feat : Fin 65 → Fin 512 → EReal) (W : Fin 195 → Fin O → EReal)
    (bias : Fin O → EReal) (n : Fin 512) (o : Fin O) : EReal :=
  (∑ j : Fin 195, tapR A ⟨j.val % 3, Nat.mod_lt _ (by decide)⟩ (feat ⟨j.val / 3, by omega⟩) n * W j o) + bias o
def preR1 {O : Nat} (A : Fin 512 → Fin 512 → EReal) (feat : Fin 128 → Fin 512 → EReal) (W : Fin 384 → Fin O → EReal)
    (bias : Fin O → EReal) (n : Fin 512) (o : Fin O) : EReal :=
  (∑ j : Fin 384, tapR A ⟨j.val % 3, Nat.mod_lt _ (by decide)⟩ (feat ⟨j.val / 3, by omega⟩) n * W j o) + bias o

/-- The reference's logistic, spelt out over its literal one. -/
def sigR (p : EReal) : EReal := Ideal.div one (one + Ideal.exp (-p))

/-! ## One cell, on one batch element -/

/-- The GRU update from the gate block `g` (reset gate in its low half, update gate in its high half) and the
    candidate's pre-activation as a function of the reset hidden state. -/
def gru (g : Fin 512 → Fin 128 → EReal) (h : Fin 512 → Fin 64 → EReal)
    (cpre : (Fin 512 → Fin 64 → EReal) → Fin 512 → Fin 64 → EReal) (n : Fin 512) (u : Fin 64) : EReal :=
  g n (gHi u) * h n u + (one - g n (gHi u)) * Ideal.tanh (cpre (fun n' u' => g n' (gLo u') * h n' u') n u)

/-- The kernel-form cells over weights already split by tap (input rows `wx`, hidden rows `wh`), as the kernel's
    operands carry them. -/
def cell0S (A : Fin 512 → Fin 512 → EReal) (x : Fin 512 → EReal) (h : Fin 512 → Fin 64 → EReal)
    (wxg : Fin 3 → Fin 128 → EReal) (whg : Fin 3 → Fin 64 → Fin 128 → EReal) (bg : Fin 128 → EReal)
    (wxc : Fin 3 → Fin 64 → EReal) (whc : Fin 3 → Fin 64 → Fin 64 → EReal) (bc : Fin 64 → EReal) : Fin 512 → Fin 64 → EReal :=
  gru (fun n o => Ideal.logistic (pre0K A x h wxg whg bg n o)) h (fun s => pre0K A x s wxc whc bc)
def cell1S (A : Fin 512 → Fin 512 → EReal) (xf : Fin 512 → Fin 64 → EReal) (h : Fin 512 → Fin 64 → EReal)
    (wxg whg : Fin 3 → Fin 64 → Fin 128 → EReal) (bg : Fin 128 → EReal)
    (wxc whc : Fin 3 → Fin 64 → Fin 64 → EReal) (bc : Fin 64 → EReal) : Fin 512 → Fin 64 → EReal :=
  gru (fun n o => Ideal.logistic (pre1K A xf h wxg whg bg n o)) h (fun s => pre1K A xf s wxc whc bc)

def cell0K (A : Fin 512 → Fin 512 → EReal) (x : Fin 512 → EReal) (h : Fin 512 → Fin 64 → EReal)
    (Wg : Fin 195 → Fin 128 → EReal) (bg : Fin 128 → EReal) (Wc : Fin 195 → Fin 64 → EReal) (bc : Fin 64 → EReal) :
    Fin 512 → Fin 64 → EReal :=
  cell0S A x h (wx0 Wg) (wh0 Wg) bg (wx0 Wc) (wh0 Wc) bc
def cell0R (A : Fin 512 → Fin 512 → EReal) (x : Fin 512 → EReal) (h : Fin 512 → Fin 64 → EReal)
    (Wg : Fin 195 → Fin 128 → EReal) (bg : Fin 128 → EReal) (Wc : Fin 195 → Fin 64 → EReal) (bc : Fin 64 → EReal) :
    Fin 512 → Fin 64 → EReal :=
  gru (fun n o => sigR (preR0 A (feat0 x h) Wg bg n o)) h (fun s => preR0 A (feat0 x s) Wc bc)
def cell1K (A : Fin 512 → Fin 512 → EReal) (xf : Fin 512 → Fin 64 → EReal) (h : Fin 512 → Fin 64 → EReal)
    (Wg : Fin 384 → Fin 128 → EReal) (bg : Fin 128 → EReal) (Wc : Fin 384 → Fin 64 → EReal) (bc : Fin 64 → EReal) :
    Fin 512 → Fin 64 → EReal :=
  cell1S A xf h (wx1 Wg) (wh1 Wg) bg (wx1 Wc) (wh1 Wc) bc
def cell1R (A : Fin 512 → Fin 512 → EReal) (xf : Fin 512 → Fin 64 → EReal) (h : Fin 512 → Fin 64 → EReal)
    (Wg : Fin 384 → Fin 128 → EReal) (bg : Fin 128 → EReal) (Wc : Fin 384 → Fin 64 → EReal) (bc : Fin 64 → EReal) :
    Fin 512 → Fin 64 → EReal :=
  gru (fun n o => sigR (preR1 A (feat1 xf h) Wg bg n o)) h (fun s => preR1 A (feat1 xf s) Wc bc)

/-- The projection of the last layer's new hidden state onto the one output feature. -/
def proj (hn : Fin 512 → Fin 64 → EReal) (wp : Fin 64 → EReal) (bp : EReal) (n : Fin 512) : EReal :=
  (∑ u : Fin 64, hn n u * wp u) + bp

/-! ## The argument arrays read by coordinates -/

abbrev A32x512 := (⟨2, ![32, 512]⟩ : Shape).Idx → EReal
abbrev A512x512 := (⟨2, ![512, 512]⟩ : Shape).Idx → EReal
abbrev A2x32x32768 := (⟨3, ![2, 32, 32768]⟩ : Shape).Idx → EReal

def mat {a b : Nat} (W : (⟨2, ![a, b]⟩ : Shape).Idx → EReal) (i : Fin a) (j : Fin b) : EReal := W (ix2 i j)
def vec {a : Nat} (v : (⟨1, ![a]⟩ : Shape).Idx → EReal) (i : Fin a) : EReal := v (ix1 i)
/-- Batch element `B`'s input signal and layer `l`'s hidden state, node by node and unit by unit. -/
def xOf (X : A32x512) (B : Fin 32) (n : Fin 512) : EReal := X (ix2 B n)
def hOf (H : A2x32x32768) (l : Fin 2) (B : Fin 32) (n : Fin 512) (u : Fin 64) : EReal := H (ix3 l B (flatIx n u))

/-- The thirteen argument arrays. -/
structure Args where
  X : A32x512
  A : A512x512
  H : A2x32x32768
  Wg0 : (⟨2, ![195, 128]⟩ : Shape).Idx → EReal
  bg0 : (⟨1, ![128]⟩ : Shape).Idx → EReal
  Wc0 : (⟨2, ![195, 64]⟩ : Shape).Idx → EReal
  bc0 : (⟨1, ![64]⟩ : Shape).Idx → EReal
  Wg1 : (⟨2, ![384, 128]⟩ : Shape).Idx → EReal
  bg1 : (⟨1, ![128]⟩ : Shape).Idx → EReal
  Wc1 : (⟨2, ![384, 64]⟩ : Shape).Idx → EReal
  bc1 : (⟨1, ![64]⟩ : Shape).Idx → EReal
  Wp : (⟨2, ![64, 1]⟩ : Shape).Idx → EReal
  bp : (⟨1, ![1]⟩ : Shape).Idx → EReal

/-- Both layers' new hidden states of batch element `B`, in the kernel's form and in the reference's. -/
def h0K (a : Args) (B : Fin 32) : Fin 512 → Fin 64 → EReal :=
  cell0K (mat a.A) (xOf a.X B) (hOf a.H 0 B) (mat a.Wg0) (vec a.bg0) (mat a.Wc0) (vec a.bc0)
def h1K (a : Args) (B : Fin 32) : Fin 512 → Fin 64 → EReal :=
  cell1K (mat a.A) (h0K a B) (hOf a.H 1 B) (mat a.Wg1) (vec a.bg1) (mat a.Wc1) (vec a.bc1)
def h0R (a : Args) (B : Fin 32) : Fin 512 → Fin 64 → EReal :=
  cell0R (mat a.A) (xOf a.X B) (hOf a.H 0 B) (mat a.Wg0) (vec a.bg0) (mat a.Wc0) (vec a.bc0)
def h1R (a : Args) (B : Fin 32) : Fin 512 → Fin 64 → EReal :=
  cell1R (mat a.A) (h0R a B) (hOf a.H 1 B) (mat a.Wg1) (vec a.bg1) (mat a.Wc1) (vec a.bc1)

/-- The two results as whole arrays: the projected output [32, 512] and the stacked new hidden states [2, 32, 512 · 64]. -/
def outK (a : Args) : A32x512 := fun i => proj (h1K a (i 0)) (fun u => a.Wp (ix2 u 0)) (a.bp (ix1 0)) (i 1)
def outR (a : Args) : A32x512 := fun i => proj (h1R a (i 0)) (fun u => a.Wp (ix2 u 0)) (a.bp (ix1 0)) (i 1)
def hsK (a : Args) : A2x32x32768 := fun i =>
  if (i 0).val = 0 then h0K a (i 1) ⟨(i 2).val / 64, by have h2 : (i 2).val < 32768 := (i 2).isLt; omega⟩ ⟨(i 2).val % 64, Nat.mod_lt _ (by decide)⟩
  else h1K a (i 1) ⟨(i 2).val / 64, by have h2 : (i 2).val < 32768 := (i 2).isLt; omega⟩ ⟨(i 2).val % 64, Nat.mod_lt _ (by decide)⟩
def hsR (a : Args) : A2x32x32768 := fun i =>
  if (i 0).val = 0 then h0R a (i 1) ⟨(i 2).val / 64, by have h2 : (i 2).val < 32768 := (i 2).isLt; omega⟩ ⟨(i 2).val % 64, Nat.mod_lt _ (by decide)⟩
  else h1R a (i 1) ⟨(i 2).val / 64, by have h2 : (i 2).val < 32768 := (i 2).isLt; omega⟩ ⟨(i 2).val % 64, Nat.mod_lt _ (by decide)⟩

end Cert.Dcgru

end
-- ==== Proof.Algebra.lean ====
/-
  The two spellings of the model are one function.
  Three facts carry it. Scaling the adjacency before a product is scaling the product: on the extended reals a
  NONNEGATIVE real factor distributes over any sum, so `∑ k, (A n k · 2) · y k = 2 · ∑ k, A n k · y k` needs no finiteness.
  One contraction over the (feature, tap) pairs `j = f · 3 + m` is the sum, feature class by feature class and tap by tap,
  of the separate contractions (sums over an additive commutative monoid re-index and split freely). And the logistic
  is its spelt-out quotient, the literal one being the real one.
-/
import proofs.«103657_g44504451121623_cont_8to1_c_180_16_alg».proof.Proof.Spec
import Mathlib.Data.EReal.Operations
import Mathlib.Algebra.BigOperators.Fin
import Mathlib.Data.Fintype.BigOperators
import Mathlib.Logic.Equiv.Fin.Basic
import Mathlib.Tactic.Abel

noncomputable section

namespace Cert.Dcgru

open scoped BigOperators
open Idealize.ShloMosaic Idealize.ShloMosaic.ValueIdx

/-! ## The two literals -/

/-- The word `0x40000000` denotes the real two. -/
theorem two_eq : two = ((2 : ℝ) : EReal) := by
  show Ideal.ofBits .f32 0x40000000#32 = _
  simp [Ideal.ofBits, Ideal.ieee, -EReal.coe_mul]; norm_num

/-- The word `0x3F800000` denotes one. -/
theorem one_eq : one = (1 : EReal) := by
  show Ideal.ofBits .f32 0x3F800000#32 = _
  simp [Ideal.ofBits, Ideal.ieee, -EReal.coe_mul]; norm_num

/-! ## A nonnegative real factor distributes over any finite sum of extended reals -/

theorem coe_mul_sum {ι : Type} (c : ℝ) (hc : 0 ≤ c) (s : Finset ι) (f : ι → EReal) :
    (c : EReal) * ∑ i ∈ s, f i = ∑ i ∈ s, (c : EReal) * f i := by
  induction s using Finset.cons_induction with
  | empty => simp
  | cons a s ha ih =>
    rw [Finset.sum_cons, Finset.sum_cons,
      EReal.left_distrib_of_nonneg_of_ne_top (EReal.coe_nonneg.mpr hc) (EReal.coe_ne_top c), ih]

/-- Scaling the adjacency's row before the product is scaling the product. -/
theorem sum_scaled_row (A : Fin 512 → Fin 512 → EReal) (y : Fin 512 → EReal) (n : Fin 512) :
    (∑ k : Fin 512, (A n k * two) * y k) = two * ∑ k : Fin 512, A n k * y k := by
  rw [two_eq, coe_mul_sum 2 (by norm_num)]
  refine Finset.sum_congr rfl fun k _ => ?_
  rw [mul_comm (A n k), mul_assoc]

theorem d2K_eq_d2R (A : Fin 512 → Fin 512 → EReal) (z : Fin 512 → EReal) : d2K A z = d2R A z := by
  funext n
  unfold d2K d2R
  rw [sum_scaled_row]

/-! ## The taps at their literal indices -/

theorem tapR_zero (A : Fin 512 → Fin 512 → EReal) (z : Fin 512 → EReal) : tapR A 0 z = z := by
  simp [tapR]
theorem tapR_one (A : Fin 512 → Fin 512 → EReal) (z : Fin 512 → EReal) : tapR A 1 z = d1 A z := by
  simp [tapR]
theorem tapR_two (A : Fin 512 → Fin 512 → EReal) (z : Fin 512 → EReal) : tapR A 2 z = d2K A z := by
  rw [d2K_eq_d2R]; simp [tapR]

/-- The three taps of one feature against its three weight rows, in the kernel's spelling. -/
theorem sum_taps (A : Fin 512 → Fin 512 → EReal) (z : Fin 512 → EReal) (n : Fin 512) (w : Fin 3 → EReal) :
    (∑ m : Fin 3, tapR A m z n * w m) = z n * w 0 + d1 A z n * w 1 + d2K A z n * w 2 := by
  rw [Fin.sum_univ_three, tapR_zero, tapR_one, tapR_two]

/-! ## Re-indexing a contraction over (feature, tap) pairs: row `f · 3 + m` is the pair `(f, m)` -/

def pairEquiv {M N : Nat} (h : M = N * 3) : Fin N × Fin 3 ≃ Fin M where
  toFun p := ⟨p.1.val * 3 + p.2.val, by have h1 := p.1.isLt; have h2 := p.2.isLt; omega⟩
  invFun j := (⟨j.val / 3, by have hj := j.isLt; omega⟩, ⟨j.val % 3, Nat.mod_lt _ (by decide)⟩)
  left_inv p := by
    have h2 := p.2.isLt
    exact Prod.ext (Fin.ext (by show (p.1.val * 3 + p.2.val) / 3 = p.1.val; omega))
      (Fin.ext (by show (p.1.val * 3 + p.2.val) % 3 = p.2.val; omega))
  right_inv j := Fin.ext (by show j.val / 3 * 3 + j.val % 3 = j.val; omega)

theorem sum_pairs {M N : Nat} (h : M = N * 3) (G : Fin N → Fin 3 → Fin M → EReal) :
    (∑ j : Fin M, G ⟨j.val / 3, by have hj := j.isLt; omega⟩ ⟨j.val % 3, Nat.mod_lt _ (by decide)⟩ j)
      = ∑ f : Fin N, ∑ m : Fin 3, G f m ⟨f.val * 3 + m.val, by have h1 := f.isLt; have h2 := m.isLt; omega⟩ := by
  rw [← Equiv.sum_comp (pairEquiv h), Fintype.sum_prod_type]
  refine Finset.sum_congr rfl fun f _ => Finset.sum_congr rfl fun m _ => ?_
  have key : ∀ (a : Fin N) (b : Fin 3) (c : Fin M), a.val = f.val → b.val = m.val → G a b c = G f m c := by
    intro a b c ha hb; rw [Fin.ext ha, Fin.ext hb]
  have h2 := m.isLt
  exact key _ _ _ (by show (f.val * 3 + m.val) / 3 = f.val; omega) (by show (f.val * 3 + m.val) % 3 = m.val; omega)

/-- The reference's one contraction, feature by feature and tap by tap. -/
theorem preR0_pairs {O : Nat} (A : Fin 512 → Fin 512 → EReal) (feat : Fin 65 → Fin 512 → EReal) (W : Fin 195 → Fin O → EReal)
    (bias : Fin O → EReal) (n : Fin 512) (o : Fin O) :
    preR0 A feat W bias n o
      = (∑ f : Fin 65, ∑ m : Fin 3, tapR A m (feat f) n
          * W ⟨f.val * 3 + m.val, by have h1 := f.isLt; have h2 := m.isLt; omega⟩ o) + bias o := by
  unfold preR0
  exact congrArg (· + bias o) (sum_pairs (M := 195) (N := 65) rfl (fun f m j => tapR A m (feat f) n * W j o))

theorem preR1_pairs {O : Nat} (A : Fin 512 → Fin 512 → EReal) (feat : Fin 128 → Fin 512 → EReal) (W : Fin 384 → Fin O → EReal)
    (bias : Fin O → EReal) (n : Fin 512) (o : Fin O) :
    preR1 A feat W bias n o
      = (∑ f : Fin 128, ∑ m : Fin 3, tapR A m (feat f) n
          * W ⟨f.val * 3 + m.val, by have h1 := f.isLt; have h2 := m.isLt; omega⟩ o) + bias o := by
  unfold preR1
  exact congrArg (· + bias o) (sum_pairs (M := 384) (N := 128) rfl (fun f m j => tapR A m (feat f) n * W j o))

/-! ## Splitting the features into their classes -/

/-- 65 features: the input feature, then the 64 hidden ones. -/
theorem sum_one_add_64 (g : Fin 65 → EReal) :
    (∑ f : Fin 65, g f) = g ⟨0, by omega⟩ + ∑ u : Fin 64, g ⟨1 + u.val, by have hu := u.isLt; omega⟩ := by
  rw [Fin.sum_univ_succ]
  refine congrArg₂ (· + ·) rfl (Finset.sum_congr rfl fun u _ => congrArg g (Fin.ext ?_))
  show u.val + 1 = 1 + u.val
  omega

/-- 128 features: the 64 input ones, then the 64 hidden ones. -/
theorem sum_64_add_64 (g : Fin 128 → EReal) :
    (∑ f : Fin 128, g f) = (∑ u : Fin 64, g ⟨u.val, by have hu := u.isLt; omega⟩)
      + ∑ u : Fin 64, g ⟨64 + u.val, by have hu := u.isLt; omega⟩ := by
  have key := Fin.sum_univ_add (a := 64) (b := 64) g
  exact key

theorem feat0_zero (x : Fin 512 → EReal) (s : Fin 512 → Fin 64 → EReal) (h : 0 < 65) : feat0 x s ⟨0, h⟩ = x := by
  simp [feat0]
theorem feat0_succ (x : Fin 512 → EReal) (s : Fin 512 → Fin 64 → EReal) (u : Fin 64) (h : 1 + u.val < 65) :
    feat0 x s ⟨1 + u.val, h⟩ = fun k => s k u := by
  unfold feat0
  rw [dif_neg (by show ¬ (1 + u.val = 0); omega)]
  funext k
  exact congrArg (s k) (Fin.ext (by show 1 + u.val - 1 = u.val; omega))
theorem feat1_lo (xf s : Fin 512 → Fin 64 → EReal) (u : Fin 64) (h : u.val < 128) :
    feat1 xf s ⟨u.val, h⟩ = fun k => xf k u := by
  unfold feat1
  rw [dif_pos (by show u.val < 64; exact u.isLt)]
theorem feat1_hi (xf s : Fin 512 → Fin 64 → EReal) (u : Fin 64) (h : 64 + u.val < 128) :
    feat1 xf s ⟨64 + u.val, h⟩ = fun k => s k u := by
  unfold feat1
  rw [dif_neg (by show ¬ (64 + u.val < 64); omega)]
  funext k
  exact congrArg (s k) (Fin.ext (by show 64 + u.val - 64 = u.val; omega))

/-! ## The graph convolution: the kernel's partial sums are the reference's one contraction -/

theorem preR0_split {O : Nat} (A : Fin 512 → Fin 512 → EReal) (x : Fin 512 → EReal) (s : Fin 512 → Fin 64 → EReal)
    (W : Fin 195 → Fin O → EReal) (bias : Fin O → EReal) (n : Fin 512) (o : Fin O) :
    preR0 A (feat0 x s) W bias n o
      = ((∑ m : Fin 3, tapR A m x n * wx0 W m o)
          + ∑ u : Fin 64, ∑ m : Fin 3, tapR A m (fun k => s k u) n * wh0 W m u o) + bias o := by
  rw [preR0_pairs, sum_one_add_64]
  refine congrArg (· + bias o) (congrArg₂ (· + ·) ?_ ?_)
  · refine Finset.sum_congr rfl fun m _ => ?_
    rw [feat0_zero]
    refine congrArg (fun t => tapR A m x n * W t o) (Fin.ext ?_)
    show 0 * 3 + m.val = m.val
    omega
  · refine Finset.sum_congr rfl fun u _ => Finset.sum_congr rfl fun m _ => ?_
    rw [feat0_succ]
    rfl

theorem preR1_split {O : Nat} (A : Fin 512 → Fin 512 → EReal) (xf s : Fin 512 → Fin 64 → EReal)
    (W : Fin 384 → Fin O → EReal) (bias : Fin O → EReal) (n : Fin 512) (o : Fin O) :
    preR1 A (feat1 xf s) W bias n o
      = ((∑ u : Fin 64, ∑ m : Fin 3, tapR A m (fun k => xf k u) n * wx1 W m u o)
          + ∑ u : Fin 64, ∑ m : Fin 3, tapR A m (fun k => s k u) n * wh1 W m u o) + bias o := by
  rw [preR1_pairs, sum_64_add_64]
  refine congrArg (· + bias o) (congrArg₂ (· + ·) ?_ ?_)
  · refine Finset.sum_congr rfl fun u _ => Finset.sum_congr rfl fun m _ => ?_
    rw [feat1_lo]
    rfl
  · refine Finset.sum_congr rfl fun u _ => Finset.sum_congr rfl fun m _ => ?_
    rw [feat1_hi]
    rfl

theorem pre0K_eq {O : Nat} (A : Fin 512 → Fin 512 → EReal) (x : Fin 512 → EReal) (s : Fin 512 → Fin 64 → EReal)
    (W : Fin 195 → Fin O → EReal) (bias : Fin O → EReal) :
    pre0K A x s (wx0 W) (wh0 W) bias = preR0 A (feat0 x s) W bias := by
  funext n o
  rw [preR0_split]
  simp only [sum_taps, Finset.sum_add_distrib]
  unfold pre0K
  abel

theorem pre1K_eq {O : Nat} (A : Fin 512 → Fin 512 → EReal) (xf s : Fin 512 → Fin 64 → EReal)
    (W : Fin 384 → Fin O → EReal) (bias : Fin O → EReal) :
    pre1K A xf s (wx1 W) (wh1 W) bias = preR1 A (feat1 xf s) W bias := by
  funext n o
  rw [preR1_split]
  simp only [sum_taps, Finset.sum_add_distrib]
  unfold pre1K
  abel

/-! ## The logistic is its spelt-out quotient -/

theorem logistic_eq_sigR (p : EReal) : Ideal.logistic p = sigR p := by
  unfold sigR Ideal.logistic
  rw [one_eq]

/-! ## The cells, the layers, the results -/

theorem cell0K_eq_cell0R (A : Fin 512 → Fin 512 → EReal) (x : Fin 512 → EReal) (h : Fin 512 → Fin 64 → EReal)
    (Wg : Fin 195 → Fin 128 → EReal) (bg : Fin 128 → EReal) (Wc : Fin 195 → Fin 64 → EReal) (bc : Fin 64 → EReal) :
    cell0K A x h Wg bg Wc bc = cell0R A x h Wg bg Wc bc := by
  unfold cell0K cell0S cell0R
  simp only [pre0K_eq, logistic_eq_sigR]

theorem cell1K_eq_cell1R (A : Fin 512 → Fin 512 → EReal) (xf h : Fin 512 → Fin 64 → EReal)
    (Wg : Fin 384 → Fin 128 → EReal) (bg : Fin 128 → EReal) (Wc : Fin 384 → Fin 64 → EReal) (bc : Fin 64 → EReal) :
    cell1K A xf h Wg bg Wc bc = cell1R A xf h Wg bg Wc bc := by
  unfold cell1K cell1S cell1R
  simp only [pre1K_eq, logistic_eq_sigR]

theorem h0K_eq_h0R (a : Args) (B : Fin 32) : h0K a B = h0R a B := by
  unfold h0K h0R
  exact cell0K_eq_cell0R _ _ _ _ _ _ _

theorem h1K_eq_h1R (a : Args) (B : Fin 32) : h1K a B = h1R a B := by
  unfold h1K h1R
  rw [h0K_eq_h0R, cell1K_eq_cell1R]

theorem h0K_eq (a : Args) : h0K a = h0R a := funext (h0K_eq_h0R a)

theorem h1K_eq (a : Args) : h1K a = h1R a := funext (h1K_eq_h1R a)

theorem outK_eq_outR (a : Args) : outK a = outR a := by
  funext i
  simp only [outK, outR, h1K_eq]

theorem hsK_eq_hsR (a : Args) : hsK a = hsR a := by
  funext i
  simp only [hsK, hsR, h0K_eq, h1K_eq]

end Cert.Dcgru

end
-- ==== Proof.KTerms.lean ====
/-
  Names for what the kernel's body computes on ONE grid point's blocks, and the blocks read by coordinates.

  A grid point holds a chunk of 8 batch elements. Its input block `x0` is [8, 512] (element, node), its hidden-state
  block `x2` is [2, 8, 512 · 64] (layer, element, node · 64 + unit), the adjacency `x1` is whole, and the weights arrive
  split by tap: `x3`/`x5` the input feature's rows [3, 1, out], `x4`/`x6` the hidden features' rows [3, 64, out] of
  layer 0's gate and candidate convolutions, `x7`/`x8` their biases.
  The four terms named here are sub-terms of both outputs' payloads: layer 0's new hidden state in row form
  [512 · 8, 64] (row `n · 8 + b`), the same narrowed, and its first and second diffusion taps back in row form. They are
  what layer 1 consumes, so they are the seam between the two layers' value lemmas.
-/
import proofs.«103657_g44504451121623_cont_8to1_c_180_16_alg».proof.Proof.Gen.KernelIdeal.Frame
import proofs.«103657_g44504451121623_cont_8to1_c_180_16_alg».proof.Proof.Spec

noncomputable section

namespace Cert.KernelIdeal.KV

open Cert.KernelIdeal Cert.KernelIdeal.Gen Idealize.ShloMosaic Idealize.ShloMosaic.ValueIdx Cert.Dcgru

/-! ## A chunk's blocks by coordinates -/

/-- Chunk element `b`'s input signal over the nodes. -/
def bx (x0 : Vec Ideal S8x512 .f32) (b : Fin 8) (n : Fin 512) : EReal := x0 (ix2 b n)
/-- Chunk element `b`'s hidden state of layer `l`, node by node and unit by unit. -/
def bh (x2 : Vec Ideal S2x8x32768 .f32) (l : Fin 2) (b : Fin 8) (n : Fin 512) (u : Fin 64) : EReal := x2 (ix3 l b (flatIx n u))
/-- A tap-split weight stack's rows: the one input feature's [3, 1, out] and the 64 features' [3, 64, out]. -/
def t1 {O : Nat} (w : (⟨3, ![3, 1, O]⟩ : Shape).Idx → EReal) (m : Fin 3) (o : Fin O) : EReal := w (ix3 m 0 o)
def t3 {O : Nat} (w : (⟨3, ![3, 64, O]⟩ : Shape).Idx → EReal) (m : Fin 3) (u : Fin 64) (o : Fin O) : EReal := w (ix3 m u o)

/-- Layer 0's new hidden state of chunk element `b`, from the point's blocks. -/
def bkh0 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (b : Fin 8) : Fin 512 → Fin 64 → EReal :=
  cell0S (mat x1) (bx x0 b) (bh x2 0 b) (t1 x3) (t3 x4) (vec x7) (t1 x5) (t3 x6) (vec x8)
/-- Layer 1's, whose input features are layer 0's new hidden state. -/
def bkh1 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (b : Fin 8) : Fin 512 → Fin 64 → EReal :=
  cell1S (mat x1) (bkh0 x0 x1 x2 x3 x4 x5 x6 x7 x8 b) (bh x2 1 b) (t3 x9) (t3 x10) (vec x13) (t3 x11) (t3 x12) (vec x14)

/-! ## The seam between the layers: four sub-terms of the outputs' payloads -/

/-- Layer 0's new hidden state in row form. -/
def tH0n (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) : FVec Ideal S4096x64 .f32 :=
  k0_pay22 (k0_pay3 (View.ld x2 r0_1)) (k0_pay8 (View.ld x1 r0_0) (View.ld x0 r0_2)) (k0_pay9 (View.ld x1 r0_0) (View.ld x0 r0_2)) (k0_pay17 (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (k0_pay19 (View.ld x5 r0_6)) (k0_pay20 (k0_pay1 (View.ld x1 r0_0)) (k0_pay2 (View.ld x1 r0_0)) (k0_pay7 (View.ld x0 r0_2)) (k0_pay18 (k0_pay3 (View.ld x2 r0_1)) (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (View.ld x5 r0_6) (View.ld x6 r0_7) (View.ld x8 r0_8)) (k0_pay21 (View.ld x5 r0_6))
/-- The same, narrowed for the matrix unit. -/
def tH0nB (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) : FVec Ideal S4096x64 .bf16 :=
  k0_pay24 (k0_pay3 (View.ld x2 r0_1)) (k0_pay8 (View.ld x1 r0_0) (View.ld x0 r0_2)) (k0_pay9 (View.ld x1 r0_0) (View.ld x0 r0_2)) (k0_pay17 (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (k0_pay19 (View.ld x5 r0_6)) (k0_pay20 (k0_pay1 (View.ld x1 r0_0)) (k0_pay2 (View.ld x1 r0_0)) (k0_pay7 (View.ld x0 r0_2)) (k0_pay18 (k0_pay3 (View.ld x2 r0_1)) (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (View.ld x5 r0_6) (View.ld x6 r0_7) (View.ld x8 r0_8)) (k0_pay21 (View.ld x5 r0_6))
/-- Its first diffusion tap, back in row form. -/
def tH0n1 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) : FVec Ideal S4096x64 .bf16 :=
  k0_pay27 (k0_pay1 (View.ld x1 r0_0)) (k0_pay3 (View.ld x2 r0_1)) (k0_pay8 (View.ld x1 r0_0) (View.ld x0 r0_2)) (k0_pay9 (View.ld x1 r0_0) (View.ld x0 r0_2)) (k0_pay17 (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (k0_pay19 (View.ld x5 r0_6)) (k0_pay20 (k0_pay1 (View.ld x1 r0_0)) (k0_pay2 (View.ld x1 r0_0)) (k0_pay7 (View.ld x0 r0_2)) (k0_pay18 (k0_pay3 (View.ld x2 r0_1)) (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (View.ld x5 r0_6) (View.ld x6 r0_7) (View.ld x8 r0_8)) (k0_pay21 (View.ld x5 r0_6))
/-- Its second diffusion tap, back in row form. -/
def tH0n2 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) : FVec Ideal S4096x64 .bf16 :=
  k0_pay28 (k0_pay1 (View.ld x1 r0_0)) (k0_pay2 (View.ld x1 r0_0)) (k0_pay3 (View.ld x2 r0_1)) (k0_pay8 (View.ld x1 r0_0) (View.ld x0 r0_2)) (k0_pay9 (View.ld x1 r0_0) (View.ld x0 r0_2)) (k0_pay17 (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (k0_pay19 (View.ld x5 r0_6)) (k0_pay20 (k0_pay1 (View.ld x1 r0_0)) (k0_pay2 (View.ld x1 r0_0)) (k0_pay7 (View.ld x0 r0_2)) (k0_pay18 (k0_pay3 (View.ld x2 r0_1)) (k0_pay7 (View.ld x0 r0_2)) (k0_pay8 (View.ld x1 r0_0) (View.ld x0 r0_2)) (k0_pay9 (View.ld x1 r0_0) (View.ld x0 r0_2)) (k0_pay10 (View.ld x2 r0_1)) (k0_pay11 (View.ld x3 r0_3)) (k0_pay12 (View.ld x4 r0_4)) (View.ld x7 r0_5) (k0_pay14 (View.ld x1 r0_0) (View.ld x2 r0_1)) (k0_pay15 (View.ld x1 r0_0) (View.ld x2 r0_1))) (View.ld x5 r0_6) (View.ld x6 r0_7) (View.ld x8 r0_8)) (k0_pay21 (View.ld x5 r0_6))

end Cert.KernelIdeal.KV

end
-- ==== Proof.KLayer0.lean ====
/-
  Layer 0 of the kernel's body, read at an index: on a grid point's blocks, row `n · 8 + b` and unit `u` of the new
  hidden state's row form is the cell's value for chunk element `b` at node `n`, and its two diffusion taps in row form
  are the adjacency's products of that state's node signals.
-/
import proofs.«103657_g44504451121623_cont_8to1_c_180_16_alg».proof.Proof.KTerms
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.ValueIdx Cert.Dcgru Cert.KernelIdeal.KV
open scoped BigOperators

/-! The value lemmas behind the six statements at the end: each layout step, each matrix product and each payload read at
    an index, first over variable operands, then on a grid point's blocks. -/
namespace L0

/-! ## Whole-block loads -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S512x512 .f32) : View.ld x r0_0 = x := View.ld_unit_zero hz2 _ x
theorem ld2 (x : Vec Ideal S8x512 .f32) : View.ld x r0_2 = x := View.ld_unit_zero hz2 _ x
theorem ld3 (x : Vec Ideal S3x1x128 .bf16) : View.ld x r0_3 = x := View.ld_unit_zero hz3 _ x
theorem ld4 (x : Vec Ideal S3x64x128 .bf16) : View.ld x r0_4 = x := View.ld_unit_zero hz3 _ x
theorem ld5 (x : Vec Ideal S128 .f32) : View.ld x r0_5 = x := View.ld_unit_zero hz1 _ x
theorem ld6 (x : Vec Ideal S3x1x64 .bf16) : View.ld x r0_6 = x := View.ld_unit_zero hz3 _ x
theorem ld7 (x : Vec Ideal S3x64x64 .bf16) : View.ld x r0_7 = x := View.ld_unit_zero hz3 _ x
theorem ld8 (x : Vec Ideal S64 .f32) : View.ld x r0_8 = x := View.ld_unit_zero hz1 _ x

/-- Layer 0 of the hidden block. -/
theorem ld1 (x2 : Vec Ideal S2x8x32768 .f32) (b : Fin 8) (j : Fin 32768) :
    View.ld x2 r0_1 (ix3 0 b j) = x2 (ix3 0 b j) := by
  show x2 _ = x2 _
  refine congrArg x2 (funext fun a => Fin.ext ?_)
  match a with
  | ⟨0, _⟩ => show 0 + 1 * 0 = 0; rfl
  | ⟨1, _⟩ => show 0 + 1 * b.val = b.val; omega
  | ⟨2, _⟩ => show 0 + 1 * j.val = j.val; omega

/-! ## Row form [512 · 8, c] and node-major form [512, 8 · 64] through [512, 8, c] -/

section Casts
variable {α : Type}

theorem sc_rows_nbu (X : S512x8x64.Idx → α) (h : S512x8x64.ShapeCasts S4096x64) (n : Fin 512) (b : Fin 8) (u : Fin 64) :
    shapeCast S4096x64 X h (ix2 (rowIx n b) u) = X (ix3 n b u) :=
  shapeCast_apply X h _ _ (by
    rw [Shape.rowMajor_val_three, Shape.rowMajor_val_two]
    show (n.val * 8 + b.val) * 64 + u.val = (n.val * 8 + b.val) * 64 + u.val
    rfl)

theorem sc_nbu_rows (Y : S4096x64.Idx → α) (h : S4096x64.ShapeCasts S512x8x64) (n : Fin 512) (b : Fin 8) (u : Fin 64) :
    shapeCast S512x8x64 Y h (ix3 n b u) = Y (ix2 (rowIx n b) u) :=
  shapeCast_apply Y h _ _ (by
    rw [Shape.rowMajor_val_three, Shape.rowMajor_val_two]
    show (n.val * 8 + b.val) * 64 + u.val = (n.val * 8 + b.val) * 64 + u.val
    rfl)

theorem sc_nm_nbu (X : S512x8x64.Idx → α) (h : S512x8x64.ShapeCasts S512x512) (n : Fin 512) (b : Fin 8) (u : Fin 64) :
    shapeCast S512x512 X h (ix2 n (colIx b u)) = X (ix3 n b u) :=
  shapeCast_apply X h _ _ (by
    rw [Shape.rowMajor_val_three, Shape.rowMajor_val_two]
    show (n.val * 8 + b.val) * 64 + u.val = n.val * 512 + (b.val * 64 + u.val)
    omega)

theorem sc_nbu_nm (Z : S512x512.Idx → α) (h : S512x512.ShapeCasts S512x8x64) (n : Fin 512) (b : Fin 8) (u : Fin 64) :
    shapeCast S512x8x64 Z h (ix3 n b u) = Z (ix2 n (colIx b u)) :=
  shapeCast_apply Z h _ _ (by
    rw [Shape.rowMajor_val_three, Shape.rowMajor_val_two]
    show n.val * 512 + (b.val * 64 + u.val) = (n.val * 8 + b.val) * 64 + u.val
    omega)

theorem sc_rows_nbo (X : S512x8x128.Idx → α) (h : S512x8x128.ShapeCasts S4096x128) (n : Fin 512) (b : Fin 8) (o : Fin 128) :
    shapeCast S4096x128 X h (ix2 (rowIx n b) o) = X (ix3 n b o) :=
  shapeCast_apply X h _ _ (by
    rw [Shape.rowMajor_val_three, Shape.rowMajor_val_two]
    show (n.val * 8 + b.val) * 128 + o.val = (n.val * 8 + b.val) * 128 + o.val
    rfl)

theorem sc_nbo_rows (Y : S4096x128.Idx → α) (h : S4096x128.ShapeCasts S512x8x128) (n : Fin 512) (b : Fin 8) (o : Fin 128) :
    shapeCast S512x8x128 Y h (ix3 n b o) = Y (ix2 (rowIx n b) o) :=
  shapeCast_apply Y h _ _ (by
    rw [Shape.rowMajor_val_three, Shape.rowMajor_val_two]
    show (n.val * 8 + b.val) * 128 + o.val = (n.val * 8 + b.val) * 128 + o.val
    rfl)

end Casts

/-- The narrow format's zero word is zero. -/
theorem zero16 : (Scalar.ofBits .bf16 0x0000#16 : Ideal .bf16) = 0 := by
  show Ideal.ofBits .bf16 0x0000#16 = 0
  simp [Ideal.ofBits, Ideal.ieee]

/-- Row form to node-major form (the added zero splat is nothing). -/
theorem nm_apply (Y : FVec Ideal S4096x64 .bf16) (n : Fin 512) (b : Fin 8) (u : Fin 64) :
    shapeCast S512x512 (addf (shapeCast S512x8x64 Y shapeCasts_S4096x64_S512x8x64) (broadcast S512x8x64 (Scalar.ofBits .bf16 0x0000#16))) shapeCasts_S512x8x64_S512x512 (ix2 n (colIx b u)) = Y (ix2 (rowIx n b) u) := by
  rw [sc_nm_nbu, addf_apply, broadcast_apply, sc_nbu_rows, zero16, add_zero]

/-- Node-major form back to row form. -/
theorem rows_apply (Z : FVec Ideal S512x512 .bf16) (n : Fin 512) (b : Fin 8) (u : Fin 64) :
    shapeCast S4096x64 (addf (shapeCast S512x8x64 Z shapeCasts_S512x512_S512x8x64) (broadcast S512x8x64 (Scalar.ofBits .bf16 0x0000#16))) shapeCasts_S512x8x64_S4096x64 (ix2 (rowIx n b) u) = Z (ix2 n (colIx b u)) := by
  rw [sc_rows_nbu, addf_apply, broadcast_apply, sc_nbu_nm, zero16, add_zero]

/-! ## The four matrix products read at an index -/

theorem lhs_nn_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_nn_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_nn_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_nn_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A product into the zero splat, read at an index: the sum over the contracted coordinate. -/
theorem mm_nn {φ₁ φ₂ : FTy} (L : FVec Ideal S512x512 φ₁) (R : FVec Ideal S512x512 φ₂) (i : Fin 512) (j : Fin 512) :
    matmul dot_S512x512_S512x512_S512x512_1_0_0_1_n_n none L R (constant S512x512 .f32 0x00000000#32) (ix2 i j) = ∑ k : Fin 512, L (ix2 i k) * R (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i j) ((ValueIdx.contrEquiv1 dot_S512x512_S512x512_S512x512_1_0_0_1_n_n 512 rfl rfl).symm k) = ix2 i k := funext fun a => Fin.ext (by
    match a with
    | ⟨0, _⟩ => exact lhs_nn_0 _ _
    | ⟨1, _⟩ => exact (lhs_nn_1 _ _).trans hk)
  have er : dot_S512x512_S512x512_S512x512_1_0_0_1_n_n.rhsIdx (ix2 i j) ((ValueIdx.contrEquiv1 dot_S512x512_S512x512_S512x512_1_0_0_1_n_n 512 rfl rfl).symm k) = ix2 k j := funext fun a => Fin.ext (by
    match a with
    | ⟨0, _⟩ => exact (rhs_nn_0 _ _).trans hk
    | ⟨1, _⟩ => exact rhs_nn_1 _ _)
  rw [el, er]

theorem lhs_nb_0 (i : S512x8.Idx) (q : dot_S512x512_S512x8_S512x8_1_0_0_1_n_n.contr.Idx) :
    (dot_S512x512_S512x8_S512x8_1_0_0_1_n_n.lhsIdx i q 0).val = (i 0).val := by
  unfold DotDims.lhsIdx
  rw [dif_neg (show ¬(0 : Fin S512x512.rank) ∈ dot_S512x512_S512x8_S512x8_1_0_0_1_n_n.lhsBatch by decide), dif_pos (show (0 : Fin S512x512.rank) ∈ dot_S512x512_S512x8_S512x8_1_0_0_1_n_n.lhsNonContracting by decide)]
  rfl
theorem lhs_nb_1 (i : S512x8.Idx) (q : dot_S512x512_S512x8_S512x8_1_0_0_1_n_n.contr.Idx) :
    (dot_S512x512_S512x8_S512x8_1_0_0_1_n_n.lhsIdx i q 1).val = (q ⟨0, by decide⟩).val :=
  dot_S512x512_S512x8_S512x8_1_0_0_1_n_n.lhsIdx_val_of_single rfl i q
theorem rhs_nb_0 (i : S512x8.Idx) (q : dot_S512x512_S512x8_S512x8_1_0_0_1_n_n.contr.Idx) :
    (dot_S512x512_S512x8_S512x8_1_0_0_1_n_n.rhsIdx i q 0).val = (q ⟨0, by decide⟩).val :=
  dot_S512x512_S512x8_S512x8_1_0_0_1_n_n.rhsIdx_val_of_single rfl i q
theorem rhs_nb_1 (i : S512x8.Idx) (q : dot_S512x512_S512x8_S512x8_1_0_0_1_n_n.contr.Idx) :
    (dot_S512x512_S512x8_S512x8_1_0_0_1_n_n.rhsIdx i q 1).val = (i 1).val := by
  unfold DotDims.rhsIdx
  rw [dif_neg (show ¬(1 : Fin S512x8.rank) ∈ dot_S512x512_S512x8_S512x8_1_0_0_1_n_n.rhsBatch by decide), dif_pos (show (1 : Fin S512x8.rank) ∈ dot_S512x512_S512x8_S512x8_1_0_0_1_n_n.rhsNonContracting by decide)]
  rfl

/-- A product into the zero splat, read at an index: the sum over the contracted coordinate. -/
theorem mm_nb {φ₁ φ₂ : FTy} (L : FVec Ideal S512x512 φ₁) (R : FVec Ideal S512x8 φ₂) (i : Fin 512) (j : Fin 8) :
    matmul dot_S512x512_S512x8_S512x8_1_0_0_1_n_n none L R (constant S512x8 .f32 0x00000000#32) (ix2 i j) = ∑ k : Fin 512, L (ix2 i k) * R (ix2 k j) := by
  simp only [matmul]
  rw [Ideal.matmul_constant_zero_apply, ← Equiv.sum_comp (ValueIdx.contrEquiv1 dot_S512x512_S512x8_S512x8_1_0_0_1_n_n 512 rfl rfl).symm]
  refine Finset.sum_congr rfl fun k _ => ?_
  have hk := ValueIdx.contrEquiv1_symm_val dot_S512x512_S512x8_S512x8_1_0_0_1_n_n 512 rfl rfl k
  have el : dot_S512x512_S512x8_S512x8_1_0_0_1_n_n.lhsIdx (ix2 i j) ((ValueIdx.contrEquiv1 dot_S512x512_S512x8_S512x8_1_0_0_1_n_n 512 rfl rfl).symm k) = ix2 i k := funext fun a => Fin.ext (by
    match a with
    | ⟨0, _⟩ => exact lhs_nb_0 _ _
    | ⟨1, _⟩ => exact (lhs_nb_1 _ _).trans hk)
  have er : dot_S512x512_S512x8_S512x8_1_0_0_1_n_n.rhsIdx (ix2 i j) ((ValueIdx.contrEquiv1 dot_S512x512_S512x8_S512x8_1_0_0_1_n_n 512 rfl rfl).symm k) = ix2 k j := funext fun a => Fin.ext (by
    match a with
    | ⟨0, _⟩ => exact (rhs_nb_0 _ _).trans hk
    | ⟨1, _⟩ => exact rhs_nb_1 _ _)
  rw [el, er]

theorem lhs_g_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhs_g_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_g_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_g_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- A product into the zero splat, read at an index: the sum over the contracted coordinate. -/
theorem mm_g {φ₁ φ₂ : FTy} (L : FVec Ideal S4096x64 φ₁) (R : FVec Ideal S64x128 φ₂) (i : Fin 4096) (j : Fin 128) :
    matmul dot_S4096x64_S64x128_S4096x128_1_0_0_1_n_n none L R (constant S4096x128 .f32 0x00000000#32) (ix2 i j) = ∑ k : Fin 64, L (ix2 i k) * R (ix2 k j) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 i j) ((ValueIdx.contrEquiv1 dot_S4096x64_S64x128_S4096x128_1_0_0_1_n_n 64 rfl rfl).symm k) = ix2 i k := funext fun a => Fin.ext (by
    match a with
    | ⟨0, _⟩ => exact lhs_g_0 _ _
    | ⟨1, _⟩ => exact (lhs_g_1 _ _).trans hk)
  have er : dot_S4096x64_S64x128_S4096x128_1_0_0_1_n_n.rhsIdx (ix2 i j) ((ValueIdx.contrEquiv1 dot_S4096x64_S64x128_S4096x128_1_0_0_1_n_n 64 rfl rfl).symm k) = ix2 k j := funext fun a => Fin.ext (by
    match a with
    | ⟨0, _⟩ => exact (rhs_g_0 _ _).trans hk
    | ⟨1, _⟩ => exact rhs_g_1 _ _)
  rw [el, er]

theorem lhs_c_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_c_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_c_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_c_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A product into the zero splat, read at an index: the sum over the contracted coordinate. -/
theorem mm_c {φ₁ φ₂ : FTy} (L : FVec Ideal S4096x64 φ₁) (R : FVec Ideal S64x64 φ₂) (i : Fin 4096) (j : Fin 64) :
    matmul dot_S4096x64_S64x64_S4096x64_1_0_0_1_n_n none L R (constant S4096x64 .f32 0x00000000#32) (ix2 i j) = ∑ k : Fin 64, L (ix2 i k) * R (ix2 k j) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 i j) ((ValueIdx.contrEquiv1 dot_S4096x64_S64x64_S4096x64_1_0_0_1_n_n 64 rfl rfl).symm k) = ix2 i k := funext fun a => Fin.ext (by
    match a with
    | ⟨0, _⟩ => exact lhs_c_0 _ _
    | ⟨1, _⟩ => exact (lhs_c_1 _ _).trans hk)
  have er : dot_S4096x64_S64x64_S4096x64_1_0_0_1_n_n.rhsIdx (ix2 i j) ((ValueIdx.contrEquiv1 dot_S4096x64_S64x64_S4096x64_1_0_0_1_n_n 64 rfl rfl).symm k) = ix2 k j := funext fun a => Fin.ext (by
    match a with
    | ⟨0, _⟩ => exact (rhs_c_0 _ _).trans hk
    | ⟨1, _⟩ => exact rhs_c_1 _ _)
  rw [el, er]

/-! ## The smaller layout steps: broadcasts of a tap signal and of a row, unit axes, weight taps, gate halves -/

section Small
variable {α : Type}

theorem bcx128 (v : S512x8x1.Idx → α) (h : S512x8x1.Broadcasts S512x8x128) (n : Fin 512) (b : Fin 8) (o : Fin 128) :
    broadcastTo S512x8x128 v h (ix3 n b o) = v (ix3 n b 0) :=
  broadcastTo_apply v h _ _ fun a => by
    match a with
    | ⟨0, _⟩ => rfl
    | ⟨1, _⟩ => rfl
    | ⟨2, _⟩ => rfl

theorem bcb128 (v : S1x1x128.Idx → α) (h : S1x1x128.Broadcasts S512x8x128) (n : Fin 512) (b : Fin 8) (o : Fin 128) :
    broadcastTo S512x8x128 v h (ix3 n b o) = v (ix3 0 0 o) :=
  broadcastTo_apply v h _ _ fun a => by
    match a with
    | ⟨0, _⟩ => rfl
    | ⟨1, _⟩ => rfl
    | ⟨2, _⟩ => rfl

theorem sc_v3_128 (v : S128.Idx → α) (h : S128.ShapeCasts S1x1x128) (o : Fin 128) :
    shapeCast S1x1x128 v h (ix3 0 0 o) = v (ix1 o) :=
  shapeCast_apply v h _ _ (by
    rw [Shape.rowMajor_val_three, Shape.rowMajor_val_one]
    show o.val = (0 * 1 + 0) * 128 + o.val
    omega)

theorem sc_3v_128 (v : S1x1x128.Idx → α) (h : S1x1x128.ShapeCasts S128) (o : Fin 128) :
    shapeCast S128 v h (ix1 o) = v (ix3 0 0 o) :=
  shapeCast_apply v h _ _ (by
    rw [Shape.rowMajor_val_three, Shape.rowMajor_val_one]
    show (0 * 1 + 0) * 128 + o.val = o.val
    omega)

theorem slx128_0 (W : S3x1x128.Idx → α) (h : S3x1x128.Slices ![0, 0, 0] S1x1x128) (o : Fin 128) :
    extractStridedSlice S1x1x128 ![0, 0, 0] W h (ix3 0 0 o) = W (ix3 0 0 o) :=
  extractStridedSlice_apply _ W h _ _ fun a => by
    match a with
    | ⟨0, _⟩ => rfl
    | ⟨1, _⟩ => rfl
    | ⟨2, _⟩ => exact (Nat.zero_add _).symm

theorem slh128_0 (W : S3x64x128.Idx → α) (hs : S3x64x128.Slices ![0, 0, 0] S1x64x128) (hc : S1x64x128.ShapeCasts S64x128) (u : Fin 64) (o : Fin 128) :
    shapeCast S64x128 (extractStridedSlice S1x64x128 ![0, 0, 0] W hs) hc (ix2 u o) = W (ix3 0 u o) := by
  rw [shapeCast_1ab_ab_apply]
  exact extractStridedSlice_apply _ W hs _ _ fun a => by
    match a with
    | ⟨0, _⟩ => rfl
    | ⟨1, _⟩ => exact (Nat.zero_add _).symm
    | ⟨2, _⟩ => exact (Nat.zero_add _).symm

theorem slx128_1 (W : S3x1x128.Idx → α) (h : S3x1x128.Slices ![1, 0, 0] S1x1x128) (o : Fin 128) :
    extractStridedSlice S1x1x128 ![1, 0, 0] W h (ix3 0 0 o) = W (ix3 1 0 o) :=
  extractStridedSlice_apply _ W h _ _ fun a => by
    match a with
    | ⟨0, _⟩ => rfl
    | ⟨1, _⟩ => rfl
    | ⟨2, _⟩ => exact (Nat.zero_add _).symm

theorem slh128_1 (W : S3x64x128.Idx → α) (hs : S3x64x128.Slices ![1, 0, 0] S1x64x128) (hc : S1x64x128.ShapeCasts S64x128) (u : Fin 64) (o : Fin 128) :
    shapeCast S64x128 (extractStridedSlice S1x64x128 ![1, 0, 0] W hs) hc (ix2 u o) = W (ix3 1 u o) := by
  rw [shapeCast_1ab_ab_apply]
  exact extractStridedSlice_apply _ W hs _ _ fun a => by
    match a with
    | ⟨0, _⟩ => rfl
    | ⟨1, _⟩ => exact (Nat.zero_add _).symm
    | ⟨2, _⟩ => exact (Nat.zero_add _).symm

theorem slx128_2 (W : S3x1x128.Idx → α) (h : S3x1x128.Slices ![2, 0, 0] S1x1x128) (o : Fin 128) :
    extractStridedSlice S1x1x128 ![2, 0, 0] W h (ix3 0 0 o) = W (ix3 2 0 o) :=
  extractStridedSlice_apply _ W h _ _ fun a => by
    match a with
    | ⟨0, _⟩ => rfl
    | ⟨1, _⟩ => rfl
    | ⟨2, _⟩ => exact (Nat.zero_add _).symm

theorem slh128_2 (W : S3x64x128.Idx → α) (hs : S3x64x128.Slices ![2, 0, 0] S1x64x128) (hc : S1x64x128.ShapeCasts S64x128) (u : Fin 64) (o : Fin 128) :
    shapeCast S64x128 (extractStridedSlice S1x64x128 ![2, 0, 0] W hs) hc (ix2 u o) = W (ix3 2 u o) := by
  rw [shapeCast_1ab_ab_apply]
  exact extractStridedSlice_apply _ W hs _ _ fun a => by
    match a with
    | ⟨0, _⟩ => rfl
    | ⟨1, _⟩ => exact (Nat.zero_add _).symm
    | ⟨2, _⟩ => exact (Nat.zero_add _).symm

theorem bcx64 (v : S512x8x1.Idx → α) (h : S512x8x1.Broadcasts S512x8x64) (n : Fin 512) (b : Fin 8) (o : Fin 64) :
    broadcastTo S512x8x64 v h (ix3 n b o) = v (ix3 n b 0) :=
  broadcastTo_apply v h _ _ fun a => by
    match a with
    | ⟨0, _⟩ => rfl
    | ⟨1, _⟩ => rfl
    | ⟨2, _⟩ => rfl

theorem bcb64 (v : S1x1x64.Idx → α) (h : S1x1x64.Broadcasts S512x8x64) (n : Fin 512) (b : Fin 8) (o : Fin 64) :
    broadcastTo S512x8x64 v h (ix3 n b o) = v (ix3 0 0 o) :=
  broadcastTo_apply v h _ _ fun a => by
    match a with
    | ⟨0, _⟩ => rfl
    | ⟨1, _⟩ => rfl
    | ⟨2, _⟩ => rfl

theorem sc_v3_64 (v : S64.Idx → α) (h : S64.ShapeCasts S1x1x64) (o : Fin 64) :
    shapeCast S1x1x64 v h (ix3 0 0 o) = v (ix1 o) :=
  shapeCast_apply v h _ _ (by
    rw [Shape.rowMajor_val_three, Shape.rowMajor_val_one]
    show o.val = (0 * 1 + 0) * 64 + o.val
    omega)

theorem sc_3v_64 (v : S1x1x64.Idx → α) (h : S1x1x64.ShapeCasts S64) (o : Fin 64) :
    shapeCast S64 v h (ix1 o) = v (ix3 0 0 o) :=
  shapeCast_apply v h _ _ (by
    rw [Shape.rowMajor_val_three, Shape.rowMajor_val_one]
    show (0 * 1 + 0) * 64 + o.val = o.val
    omega)

theorem slx64_0 (W : S3x1x64.Idx → α) (h : S3x1x64.Slices ![0, 0, 0] S1x1x64) (o : Fin 64) :
    extractStridedSlice S1x1x64 ![0, 0, 0] W h (ix3 0 0 o) = W (ix3 0 0 o) :=
  extractStridedSlice_apply _ W h _ _ fun a => by
    match a with
    | ⟨0, _⟩ => rfl
    | ⟨1, _⟩ => rfl
    | ⟨2, _⟩ => exact (Nat.zero_add _).symm

theorem slh64_0 (W : S3x64x64.Idx → α) (hs : S3x64x64.Slices ![0, 0, 0] S1x64x64) (hc : S1x64x64.ShapeCasts S64x64) (u : Fin 64) (o : Fin 64) :
    shapeCast S64x64 (extractStridedSlice S1x64x64 ![0, 0, 0] W hs) hc (ix2 u o) = W (ix3 0 u o) := by
  rw [shapeCast_1ab_ab_apply]
  exact extractStridedSlice_apply _ W hs _ _ fun a => by
    match a with
    | ⟨0, _⟩ => rfl
    | ⟨1, _⟩ => exact (Nat.zero_add _).symm
    | ⟨2, _⟩ => exact (Nat.zero_add _).symm

theorem slx64_1 (W : S3x1x64.Idx → α) (h : S3x1x64.Slices ![1, 0, 0] S1x1x64) (o : Fin 64) :
    extractStridedSlice S1x1x64 ![1, 0, 0] W h (ix3 0 0 o) = W (ix3 1 0 o) :=
  extractStridedSlice_apply _ W h _ _ fun a => by
    match a with
    | ⟨0, _⟩ => rfl
    | ⟨1, _⟩ => rfl
    | ⟨2, _⟩ => exact (Nat.zero_add _).symm

theorem slh64_1 (W : S3x64x64.Idx → α) (hs : S3x64x64.Slices ![1, 0, 0] S1x64x64) (hc : S1x64x64.ShapeCasts S64x64) (u : Fin 64) (o : Fin 64) :
    shapeCast S64x64 (extractStridedSlice S1x64x64 ![1, 0, 0] W hs) hc (ix2 u o) = W (ix3 1 u o) := by
  rw [shapeCast_1ab_ab_apply]
  exact extractStridedSlice_apply _ W hs _ _ fun a => by
    match a with
    | ⟨0, _⟩ => rfl
    | ⟨1, _⟩ => exact (Nat.zero_add _).symm
    | ⟨2, _⟩ => exact (Nat.zero_add _).symm

theorem slx64_2 (W : S3x1x64.Idx → α) (h : S3x1x64.Slices ![2, 0, 0] S1x1x64) (o : Fin 64) :
    extractStridedSlice S1x1x64 ![2, 0, 0] W h (ix3 0 0 o) = W (ix3 2 0 o) :=
  extractStridedSlice_apply _ W h _ _ fun a => by
    match a with
    | ⟨0, _⟩ => rfl
    | ⟨1, _⟩ => rfl
    | ⟨2, _⟩ => exact (Nat.zero_add _).symm

theorem slh64_2 (W : S3x64x64.Idx → α) (hs : S3x64x64.Slices ![2, 0, 0] S1x64x64) (hc : S1x64x64.ShapeCasts S64x64) (u : Fin 64) (o : Fin 64) :
    shapeCast S64x64 (extractStridedSlice S1x64x64 ![2, 0, 0] W hs) hc (ix2 u o) = W (ix3 2 u o) := by
  rw [shapeCast_1ab_ab_apply]
  exact extractStridedSlice_apply _ W hs _ _ fun a => by
    match a with
    | ⟨0, _⟩ => rfl
    | ⟨1, _⟩ => exact (Nat.zero_add _).symm
    | ⟨2, _⟩ => exact (Nat.zero_add _).symm

theorem sc_nb1 (v : S512x8.Idx → α) (h : S512x8.ShapeCasts S512x8x1) (n : Fin 512) (b : Fin 8) :
    shapeCast S512x8x1 v h (ix3 n b 0) = v (ix2 n b) :=
  shapeCast_apply v h _ _ (by
    rw [Shape.rowMajor_val_three, Shape.rowMajor_val_two]
    show n.val * 8 + b.val = (n.val * 8 + b.val) * 1 + 0
    omega)

theorem gate_lo (G : S4096x128.Idx → α) (h : S4096x128.Slices ![0, 0] S4096x64) (r : Fin 4096) (u : Fin 64) :
    extractStridedSlice S4096x64 ![0, 0] G h (ix2 r u) = G (ix2 r (gLo u)) :=
  slice2_axis1_apply 0 G h r u (gLo u) (by show u.val = 0 + u.val; omega)

theorem gate_hi (G : S4096x128.Idx → α) (h : S4096x128.Slices ![0, 64] S4096x64) (r : Fin 4096) (u : Fin 64) :
    extractStridedSlice S4096x64 ![0, 64] G h (ix2 r u) = G (ix2 r (gHi u)) :=
  slice2_axis1_apply 64 G h r u (gHi u) rfl

end Small

/-- The activations at an index. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl
theorem ofBits_apply (φ : FTy) (b : BitVec φ.bits) : (Scalar.ofBits φ b : Ideal φ) = Ideal.ofBits φ b := rfl

/-! ## The input signal, the old hidden state and their taps, in the body's forms -/

section Perm
variable {α : Type}

theorem tr_nbu (X : S8x512x64.Idx → α) (h : S8x512x64.Transposes [1, 0, 2] S512x8x64) (n : Fin 512) (b : Fin 8) (u : Fin 64) :
    transpose S512x8x64 [1, 0, 2] X h (ix3 n b u) = X (ix3 b n u) :=
  transpose_apply _ X h _ _ fun c => match c with | ⟨0, _⟩ => rfl | ⟨1, _⟩ => rfl | ⟨2, _⟩ => rfl

theorem sc_bnu_flat (X : S8x32768.Idx → α) (h : S8x32768.ShapeCasts S8x512x64) (b : Fin 8) (n : Fin 512) (u : Fin 64) :
    shapeCast S8x512x64 X h (ix3 b n u) = X (ix2 b (flatIx n u)) :=
  shapeCast_apply X h _ _ (by
    rw [Shape.rowMajor_val_three, Shape.rowMajor_val_two]
    show b.val * 32768 + (n.val * 64 + u.val) = (b.val * 512 + n.val) * 64 + u.val
    omega)

end Perm

theorem p1_apply (v0 : Vec Ideal S512x512 .f32) (j : S512x512.Idx) : k0_pay1 (F := Ideal) v0 j = v0 j := rfl
theorem p2_apply (v0 : Vec Ideal S512x512 .f32) (j : S512x512.Idx) : k0_pay2 (F := Ideal) v0 j = v0 j * two := rfl

theorem p3_apply (v5 : Vec Ideal S1x8x32768 .f32) (n : Fin 512) (b : Fin 8) (u : Fin 64) :
    k0_pay3 (F := Ideal) v5 (ix2 (rowIx n b) u) = v5 (ix3 0 b (flatIx n u)) := by
  simp only [k0_pay3]
  rw [sc_rows_nbu, tr_nbu, sc_bnu_flat, shapeCast_1ab_ab_apply]

theorem p4_apply (v10 : Vec Ideal S8x512 .f32) (n : Fin 512) (b : Fin 8) :
    k0_pay4 (F := Ideal) v10 (ix2 n b) = v10 (ix2 b n) := by
  simp only [k0_pay4]
  rw [transpose_ix2_apply]

theorem p5_apply (v10 : Vec Ideal S8x512 .f32) (n : Fin 512) (b : Fin 8) :
    k0_pay5 (F := Ideal) v10 (ix2 n b) = v10 (ix2 b n) := by
  simp only [k0_pay5, truncf_apply, p4_apply]

theorem p6_apply (v0 : Vec Ideal S512x512 .f32) (v10 : Vec Ideal S8x512 .f32) (n : Fin 512) (b : Fin 8) :
    k0_pay6 (F := Ideal) v0 v10 (ix2 n b) = ∑ k : Fin 512, v0 (ix2 n k) * v10 (ix2 b k) := by
  simp only [k0_pay6, mm_nb, p1_apply, p5_apply]

theorem p7_apply (v10 : Vec Ideal S8x512 .f32) (n : Fin 512) (b : Fin 8) :
    k0_pay7 (F := Ideal) v10 (ix3 n b 0) = v10 (ix2 b n) := by
  simp only [k0_pay7, sc_nb1, p4_apply]

theorem p8_apply (v0 : Vec Ideal S512x512 .f32) (v10 : Vec Ideal S8x512 .f32) (n : Fin 512) (b : Fin 8) :
    k0_pay8 (F := Ideal) v0 v10 (ix3 n b 0) = ∑ k : Fin 512, v0 (ix2 n k) * v10 (ix2 b k) := by
  simp only [k0_pay8, sc_nb1, p6_apply]

theorem p9_apply (v0 : Vec Ideal S512x512 .f32) (v10 : Vec Ideal S8x512 .f32) (n : Fin 512) (b : Fin 8) :
    k0_pay9 (F := Ideal) v0 v10 (ix3 n b 0)
      = (∑ k : Fin 512, (v0 (ix2 n k) * two) * ∑ k' : Fin 512, v0 (ix2 k k') * v10 (ix2 b k')) - v10 (ix2 b n) := by
  simp only [k0_pay9, sc_nb1, extf_apply, subf_apply, truncf_apply, mm_nb, p2_apply, p6_apply, p5_apply]

theorem p10_apply (v5 : Vec Ideal S1x8x32768 .f32) (n : Fin 512) (b : Fin 8) (u : Fin 64) :
    k0_pay10 (F := Ideal) v5 (ix2 (rowIx n b) u) = v5 (ix3 0 b (flatIx n u)) := by
  simp only [k0_pay10, truncf_apply, p3_apply]

theorem p13_apply (v5 : Vec Ideal S1x8x32768 .f32) (n : Fin 512) (b : Fin 8) (u : Fin 64) :
    k0_pay13 (F := Ideal) v5 (ix2 n (colIx b u)) = v5 (ix3 0 b (flatIx n u)) := by
  simp only [k0_pay13, nm_apply, p10_apply]

theorem p14_apply (v0 : Vec Ideal S512x512 .f32) (v5 : Vec Ideal S1x8x32768 .f32) (n : Fin 512) (b : Fin 8) (u : Fin 64) :
    k0_pay14 (F := Ideal) v0 v5 (ix2 n (colIx b u)) = ∑ k : Fin 512, v0 (ix2 n k) * v5 (ix3 0 b (flatIx k u)) := by
  simp only [k0_pay14, truncf_apply, mm_nn, p1_apply, p13_apply]

theorem p15_apply (v0 : Vec Ideal S512x512 .f32) (v5 : Vec Ideal S1x8x32768 .f32) (n : Fin 512) (b : Fin 8) (u : Fin 64) :
    k0_pay15 (F := Ideal) v0 v5 (ix2 n (colIx b u))
      = (∑ k : Fin 512, (v0 (ix2 n k) * two) * ∑ k' : Fin 512, v0 (ix2 k k') * v5 (ix3 0 b (flatIx k' u))) - v5 (ix3 0 b (flatIx n u)) := by
  simp only [k0_pay15, subf_apply, truncf_apply, mm_nn, p2_apply, p14_apply, p13_apply]

/-- The identity casts of the weight stacks. -/
theorem p11_eq (v : Vec Ideal S3x1x128 .bf16) : k0_pay11 (F := Ideal) v = v :=
  funext fun j => shapeCast_apply v _ j j rfl
theorem p12_eq (v : Vec Ideal S3x64x128 .bf16) : k0_pay12 (F := Ideal) v = v :=
  funext fun j => shapeCast_apply v _ j j rfl
theorem p19_eq (v : Vec Ideal S3x1x64 .bf16) : k0_pay19 (F := Ideal) v = v :=
  funext fun j => shapeCast_apply v _ j j rfl

/-! ### On the point's blocks -/

theorem xt0 (x0 : Vec Ideal S8x512 .f32) (n : Fin 512) (b : Fin 8) :
    k0_pay7 (F := Ideal) x0 (ix3 n b 0) = bx x0 b n := by
  rw [p7_apply]; rfl

theorem xt1 (x0 : Vec Ideal S8x512 .f32) (x1 : Vec Ideal S512x512 .f32) (n : Fin 512) (b : Fin 8) :
    k0_pay8 (F := Ideal) x1 x0 (ix3 n b 0) = d1 (mat x1) (bx x0 b) n := by
  rw [p8_apply]; rfl

theorem xt2 (x0 : Vec Ideal S8x512 .f32) (x1 : Vec Ideal S512x512 .f32) (n : Fin 512) (b : Fin 8) :
    k0_pay9 (F := Ideal) x1 x0 (ix3 n b 0) = d2K (mat x1) (bx x0 b) n := by
  rw [p9_apply]; rfl

theorem hr0 (x2 : Vec Ideal S2x8x32768 .f32) (n : Fin 512) (b : Fin 8) (u : Fin 64) :
    k0_pay3 (F := Ideal) (View.ld x2 r0_1) (ix2 (rowIx n b) u) = bh x2 0 b n u := by
  rw [p3_apply, ld1]; rfl

theorem hs0 (x2 : Vec Ideal S2x8x32768 .f32) (n : Fin 512) (b : Fin 8) (u : Fin 64) :
    k0_pay10 (F := Ideal) (View.ld x2 r0_1) (ix2 (rowIx n b) u) = bh x2 0 b n u := by
  rw [p10_apply, ld1]; rfl

theorem hs1 (x1 : Vec Ideal S512x512 .f32) (x2 : Vec Ideal S2x8x32768 .f32) (n : Fin 512) (b : Fin 8) (u : Fin 64) :
    k0_pay14 (F := Ideal) x1 (View.ld x2 r0_1) (ix2 n (colIx b u)) = d1 (mat x1) (fun k => bh x2 0 b k u) n := by
  rw [p14_apply]; simp only [ld1 x2]; rfl

theorem hs2 (x1 : Vec Ideal S512x512 .f32) (x2 : Vec Ideal S2x8x32768 .f32) (n : Fin 512) (b : Fin 8) (u : Fin 64) :
    k0_pay15 (F := Ideal) x1 (View.ld x2 r0_1) (ix2 n (colIx b u)) = d2K (mat x1) (fun k => bh x2 0 b k u) n := by
  rw [p15_apply]; simp only [ld1 x2]; rfl

/-! ## The gate block, the candidate's pre-activation and the update, over their operands -/

theorem sc_id {α : Type} {S : Shape} (v : S.Idx → α) (h : S.ShapeCasts S) : shapeCast S v h = v :=
  funext fun j => shapeCast_apply v h j j rfl

theorem p16_apply (v19 v21 v23 : FVec Ideal S512x8x1 .f32) (v24 : FVec Ideal S4096x64 .bf16) (v26 : FVec Ideal S3x1x128 .bf16)
    (v28 : FVec Ideal S3x64x128 .bf16) (v29 : Vec Ideal S128 .f32) (v35 v38 : FVec Ideal S512x512 .bf16)
    (n : Fin 512) (b : Fin 8) (o : Fin 128) :
    k0_pay16 (F := Ideal) v19 v21 v23 v24 v26 v28 v29 v35 v38 (ix2 (rowIx n b) o)
      = Ideal.logistic ((((((∑ u : Fin 64, v24 (ix2 (rowIx n b) u) * v28 (ix3 0 u o))
          + (∑ u : Fin 64, v35 (ix2 n (colIx b u)) * v28 (ix3 1 u o)))
          + (∑ u : Fin 64, v38 (ix2 n (colIx b u)) * v28 (ix3 2 u o))) + v29 (ix1 o)
          + v19 (ix3 n b 0) * v26 (ix3 0 0 o)) + v21 (ix3 n b 0) * v26 (ix3 1 0 o)) + v23 (ix3 n b 0) * v26 (ix3 2 0 o)) := by
  simp only [k0_pay16, logistic_apply, sc_rows_nbo, addf_apply, mulf_apply, bcx128, bcb128, sc_v3_128, extf_apply, sc_3v_128,
    slx128_0, slx128_1, slx128_2, sc_nbo_rows, mm_g, slh128_0, slh128_1, slh128_2, rows_apply]

theorem p17_apply (v19 v21 v23 : FVec Ideal S512x8x1 .f32) (v24 : FVec Ideal S4096x64 .bf16) (v26 : FVec Ideal S3x1x128 .bf16)
    (v28 : FVec Ideal S3x64x128 .bf16) (v29 : Vec Ideal S128 .f32) (v35 v38 : FVec Ideal S512x512 .bf16)
    (r : Fin 4096) (u : Fin 64) :
    k0_pay17 (F := Ideal) v19 v21 v23 v24 v26 v28 v29 v35 v38 (ix2 r u)
      = k0_pay16 (F := Ideal) v19 v21 v23 v24 v26 v28 v29 v35 v38 (ix2 r (gHi u)) := by
  simp only [k0_pay17]
  rw [gate_hi]

theorem p18_apply (v9 : FVec Ideal S4096x64 .f32) (v19 v21 v23 : FVec Ideal S512x8x1 .f32) (v24 : FVec Ideal S4096x64 .bf16) (v26 : FVec Ideal S3x1x128 .bf16)
    (v28 : FVec Ideal S3x64x128 .bf16) (v29 : Vec Ideal S128 .f32) (v35 v38 : FVec Ideal S512x512 .bf16)
    (r : Fin 4096) (u : Fin 64) :
    k0_pay18 (F := Ideal) v9 v19 v21 v23 v24 v26 v28 v29 v35 v38 (ix2 r u)
      = k0_pay16 (F := Ideal) v19 v21 v23 v24 v26 v28 v29 v35 v38 (ix2 r (gLo u)) * v9 (ix2 r u) := by
  simp only [k0_pay18, truncf_apply, mulf_apply]
  rw [gate_lo]

theorem p20_apply (v1 v4 : FVec Ideal S512x512 .bf16) (v19 : FVec Ideal S512x8x1 .f32) (v91 : FVec Ideal S4096x64 .bf16)
    (v92 : Vec Ideal S3x1x64 .bf16) (v94 : Vec Ideal S3x64x64 .bf16) (v96 : Vec Ideal S64 .f32)
    (n : Fin 512) (b : Fin 8) (o : Fin 64) :
    k0_pay20 (F := Ideal) v1 v4 v19 v91 v92 v94 v96 (ix3 n b o)
      = ((((∑ u : Fin 64, v91 (ix2 (rowIx n b) u) * v94 (ix3 0 u o))
          + (∑ u : Fin 64, (∑ k : Fin 512, v1 (ix2 n k) * v91 (ix2 (rowIx k b) u)) * v94 (ix3 1 u o)))
          + (∑ u : Fin 64, ((∑ k : Fin 512, v4 (ix2 n k) * ∑ k' : Fin 512, v1 (ix2 k k') * v91 (ix2 (rowIx k' b) u))
              - v91 (ix2 (rowIx n b) u)) * v94 (ix3 2 u o)))
          + v96 (ix1 o)) + v19 (ix3 n b 0) * v92 (ix3 0 0 o) := by
  simp only [k0_pay20, addf_apply, mulf_apply, subf_apply, truncf_apply, extf_apply, bcx64, bcb64, sc_v3_64, sc_3v_64,
    slx64_0, p19_eq, sc_id, sc_nbu_rows, mm_c, slh64_0, slh64_1, slh64_2, rows_apply, mm_nn, nm_apply]

theorem p21_apply (v92 : Vec Ideal S3x1x64 .bf16) (o : Fin 64) :
    k0_pay21 (F := Ideal) v92 (ix1 o) = v92 (ix3 1 0 o) := by
  simp only [k0_pay21, sc_3v_64, slx64_1, p19_eq]

theorem p22_apply (v9 : FVec Ideal S4096x64 .f32) (v21 v23 : FVec Ideal S512x8x1 .f32) (v89 : FVec Ideal S4096x64 .f32)
    (v93 : FVec Ideal S3x1x64 .bf16) (v136 : FVec Ideal S512x8x64 .f32) (v138 : FVec Ideal S64 .bf16)
    (n : Fin 512) (b : Fin 8) (u : Fin 64) :
    k0_pay22 (F := Ideal) v9 v21 v23 v89 v93 v136 v138 (ix2 (rowIx n b) u)
      = v89 (ix2 (rowIx n b) u) * v9 (ix2 (rowIx n b) u)
        + (one - v89 (ix2 (rowIx n b) u))
          * Ideal.tanh ((v136 (ix3 n b u) + v21 (ix3 n b 0) * v138 (ix1 u)) + v23 (ix3 n b 0) * v93 (ix3 2 0 u)) := by
  simp only [k0_pay22, addf_apply, mulf_apply, subf_apply, extf_apply, broadcast_apply, tanh_apply, sc_rows_nbu, bcx64, bcb64,
    sc_v3_64, sc_3v_64, slx64_2, ofBits_apply]

/-! ## Layer 0 on the point's blocks -/

/-- The gate block: the logistic of the gate convolution. -/
theorem gate_apply (x0 : Vec Ideal S8x512 .f32) (x1 : Vec Ideal S512x512 .f32) (x2 : Vec Ideal S2x8x32768 .f32) (x3 : Vec Ideal S3x1x128 .bf16) (x4 : Vec Ideal S3x64x128 .bf16) (x7 : Vec Ideal S128 .f32) (n : Fin 512) (b : Fin 8) (o : Fin 128) :
    k0_pay16 (F := Ideal) (k0_pay7 x0) (k0_pay8 x1 x0) (k0_pay9 x1 x0) (k0_pay10 (View.ld x2 r0_1)) (k0_pay11 x3) (k0_pay12 x4) x7 (k0_pay14 x1 (View.ld x2 r0_1)) (k0_pay15 x1 (View.ld x2 r0_1)) (ix2 (rowIx n b) o)
      = Ideal.logistic (pre0K (mat x1) (bx x0 b) (bh x2 0 b) (t1 x3) (t3 x4) (vec x7) n o) := by
  rw [p16_apply]
  simp only [xt0, xt1, xt2, hs0, hs1, hs2, p11_eq, p12_eq]
  rfl

/-- The update over the blocks themselves: the cell's value. -/
theorem core_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (n : Fin 512) (b : Fin 8) (u : Fin 64) :
    k0_pay22 (F := Ideal) (k0_pay3 (View.ld x2 r0_1)) (k0_pay8 x1 x0) (k0_pay9 x1 x0) (k0_pay17 (k0_pay7 x0) (k0_pay8 x1 x0) (k0_pay9 x1 x0) (k0_pay10 (View.ld x2 r0_1)) (k0_pay11 x3) (k0_pay12 x4) x7 (k0_pay14 x1 (View.ld x2 r0_1)) (k0_pay15 x1 (View.ld x2 r0_1))) (k0_pay19 x5) (k0_pay20 (k0_pay1 x1) (k0_pay2 x1) (k0_pay7 x0) (k0_pay18 (k0_pay3 (View.ld x2 r0_1)) (k0_pay7 x0) (k0_pay8 x1 x0) (k0_pay9 x1 x0) (k0_pay10 (View.ld x2 r0_1)) (k0_pay11 x3) (k0_pay12 x4) x7 (k0_pay14 x1 (View.ld x2 r0_1)) (k0_pay15 x1 (View.ld x2 r0_1))) x5 x6 x8) (k0_pay21 x5) (ix2 (rowIx n b) u) = bkh0 x0 x1 x2 x3 x4 x5 x6 x7 x8 b n u := by
  rw [p22_apply, p17_apply, gate_apply, hr0, p20_apply]
  simp only [p18_apply, gate_apply, hr0, xt0, xt1, xt2, p21_apply, p19_eq, p1_apply, p2_apply]
  rfl

/-! ### The narrowed state and its two taps -/

theorem p24_apply (v9 : FVec Ideal S4096x64 .f32) (v21 v23 : FVec Ideal S512x8x1 .f32) (v89 : FVec Ideal S4096x64 .f32) (v93 : FVec Ideal S3x1x64 .bf16) (v136 : FVec Ideal S512x8x64 .f32) (v138 : FVec Ideal S64 .bf16) (j : S4096x64.Idx) :
    k0_pay24 (F := Ideal) v9 v21 v23 v89 v93 v136 v138 j = k0_pay22 (F := Ideal) v9 v21 v23 v89 v93 v136 v138 j := rfl

theorem p25_apply (v9 : FVec Ideal S4096x64 .f32) (v21 v23 : FVec Ideal S512x8x1 .f32) (v89 : FVec Ideal S4096x64 .f32) (v93 : FVec Ideal S3x1x64 .bf16) (v136 : FVec Ideal S512x8x64 .f32) (v138 : FVec Ideal S64 .bf16) (n : Fin 512) (b : Fin 8) (u : Fin 64) :
    k0_pay25 (F := Ideal) v9 v21 v23 v89 v93 v136 v138 (ix2 n (colIx b u)) = k0_pay22 (F := Ideal) v9 v21 v23 v89 v93 v136 v138 (ix2 (rowIx n b) u) := by
  simp only [k0_pay25, nm_apply, p24_apply]

theorem p26_apply (v1 : FVec Ideal S512x512 .bf16) (v9 : FVec Ideal S4096x64 .f32) (v21 v23 : FVec Ideal S512x8x1 .f32) (v89 : FVec Ideal S4096x64 .f32) (v93 : FVec Ideal S3x1x64 .bf16) (v136 : FVec Ideal S512x8x64 .f32) (v138 : FVec Ideal S64 .bf16) (n : Fin 512) (b : Fin 8) (u : Fin 64) :
    k0_pay26 (F := Ideal) v1 v9 v21 v23 v89 v93 v136 v138 (ix2 n (colIx b u))
      = ∑ k : Fin 512, v1 (ix2 n k) * k0_pay22 (F := Ideal) v9 v21 v23 v89 v93 v136 v138 (ix2 (rowIx k b) u) := by
  simp only [k0_pay26, truncf_apply, mm_nn, p25_apply]

theorem p27_apply (v1 : FVec Ideal S512x512 .bf16) (v9 : FVec Ideal S4096x64 .f32) (v21 v23 : FVec Ideal S512x8x1 .f32) (v89 : FVec Ideal S4096x64 .f32) (v93 : FVec Ideal S3x1x64 .bf16) (v136 : FVec Ideal S512x8x64 .f32) (v138 : FVec Ideal S64 .bf16) (n : Fin 512) (b : Fin 8) (u : Fin 64) :
    k0_pay27 (F := Ideal) v1 v9 v21 v23 v89 v93 v136 v138 (ix2 (rowIx n b) u)
      = ∑ k : Fin 512, v1 (ix2 n k) * k0_pay22 (F := Ideal) v9 v21 v23 v89 v93 v136 v138 (ix2 (rowIx k b) u) := by
  simp only [k0_pay27, rows_apply, p26_apply]

theorem p28_apply (v1 v4 : FVec Ideal S512x512 .bf16) (v9 : FVec Ideal S4096x64 .f32) (v21 v23 : FVec Ideal S512x8x1 .f32) (v89 : FVec Ideal S4096x64 .f32) (v93 : FVec Ideal S3x1x64 .bf16) (v136 : FVec Ideal S512x8x64 .f32) (v138 : FVec Ideal S64 .bf16) (n : Fin 512) (b : Fin 8) (u : Fin 64) :
    k0_pay28 (F := Ideal) v1 v4 v9 v21 v23 v89 v93 v136 v138 (ix2 (rowIx n b) u)
      = (∑ k : Fin 512, v4 (ix2 n k) * ∑ k' : Fin 512, v1 (ix2 k k') * k0_pay22 (F := Ideal) v9 v21 v23 v89 v93 v136 v138 (ix2 (rowIx k' b) u))
        - k0_pay22 (F := Ideal) v9 v21 v23 v89 v93 v136 v138 (ix2 (rowIx n b) u) := by
  simp only [k0_pay28, rows_apply, subf_apply, truncf_apply, mm_nn, p26_apply, p25_apply]

end L0

open L0

/-! ## The six statements -/

/-- The narrowed adjacency reads the adjacency. -/
theorem tA_apply (x1 : Vec Ideal S512x512 .f32) (i k : Fin 512) :
    k0_pay1 (F := Ideal) (View.ld x1 r0_0) (ix2 i k) = x1 (ix2 i k) := by
  rw [ld0]; rfl

/-- The adjacency scaled for the second tap. -/
theorem tA2_apply (x1 : Vec Ideal S512x512 .f32) (i k : Fin 512) :
    k0_pay2 (F := Ideal) (View.ld x1 r0_0) (ix2 i k) = x1 (ix2 i k) * two := by
  rw [ld0]; rfl

/-- Layer 0's new hidden state, row `n · 8 + b`, unit `u`. -/
theorem tH0n_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (n : Fin 512) (b : Fin 8) (u : Fin 64) :
    tH0n x0 x1 x2 x3 x4 x5 x6 x7 x8 (ix2 (rowIx n b) u) = bkh0 x0 x1 x2 x3 x4 x5 x6 x7 x8 b n u := by
  unfold tH0n
  simp only [ld0, ld2, ld3, ld4, ld5, ld6, ld7, ld8]
  exact core_apply x0 x1 x2 x3 x4 x5 x6 x7 x8 n b u

theorem tH0nB_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (n : Fin 512) (b : Fin 8) (u : Fin 64) :
    tH0nB x0 x1 x2 x3 x4 x5 x6 x7 x8 (ix2 (rowIx n b) u) = bkh0 x0 x1 x2 x3 x4 x5 x6 x7 x8 b n u := by
  unfold tH0nB
  simp only [ld0, ld2, ld3, ld4, ld5, ld6, ld7, ld8]
  rw [p24_apply]
  exact core_apply x0 x1 x2 x3 x4 x5 x6 x7 x8 n b u

/-- Its first tap: the adjacency applied to unit `u`'s node signal. -/
theorem tH0n1_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (n : Fin 512) (b : Fin 8) (u : Fin 64) :
    tH0n1 x0 x1 x2 x3 x4 x5 x6 x7 x8 (ix2 (rowIx n b) u) = d1 (mat x1) (fun k => bkh0 x0 x1 x2 x3 x4 x5 x6 x7 x8 b k u) n := by
  unfold tH0n1
  simp only [ld0, ld2, ld3, ld4, ld5, ld6, ld7, ld8]
  rw [p27_apply]
  simp only [core_apply, p1_apply]
  rfl

/-- Its second tap, in the kernel's form (the adjacency scaled first). -/
theorem tH0n2_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (n : Fin 512) (b : Fin 8) (u : Fin 64) :
    tH0n2 x0 x1 x2 x3 x4 x5 x6 x7 x8 (ix2 (rowIx n b) u) = d2K (mat x1) (fun k => bkh0 x0 x1 x2 x3 x4 x5 x6 x7 x8 b k u) n := by
  unfold tH0n2
  simp only [ld0, ld2, ld3, ld4, ld5, ld6, ld7, ld8]
  rw [p28_apply]
  simp only [core_apply, p1_apply, p2_apply]
  rfl

end Cert.KernelIdeal.KV

end
-- ==== Proof.KLayer1.lean ====
/-
  Layer 1 and the outputs of the kernel's body, read at an index: what a grid point leaves in its two output blocks.
  The projected output block [8, 512] holds, at (b, n), the projection of chunk element `b`'s new layer-1 state at node
  `n`; the hidden-state block [2, 8, 512 · 64] holds layer `l`'s new state at (l, b, n · 64 + u).
-/
import proofs.«103657_g44504451121623_cont_8to1_c_180_16_alg».proof.Proof.KLayer0
import Idealize.ShloMosaic.Lib.ValueLayout

noncomputable section

namespace Cert.KernelIdeal.KV

open Cert.KernelIdeal Cert.KernelIdeal.Gen Idealize.ShloMosaic Idealize.ShloMosaic.ValueIdx Cert.Dcgru Cert.KernelIdeal.KV
open scoped BigOperators

/-! ## The three matrix products read at an index -/

theorem l1_lhs_512_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem l1_lhs_512_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem l1_rhs_512_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem l1_rhs_512_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A product of two [512, 512] matrices into the zero matrix, read at (i, j): the row of the left against the column of the right. -/
theorem l1_mm512_apply (L : FVec Ideal S512x512 .bf16) (R : FVec Ideal S512x512 .bf16) (i : Fin 512) (j : Fin 512) :
    matmul dot_S512x512_S512x512_S512x512_1_0_0_1_n_n none L R (constant (F := Ideal) S512x512 .f32 0x00000000#32) (ix2 i j)
      = ∑ k : Fin 512, L (ix2 i k) * R (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i j) ((ValueIdx.contrEquiv1 dot_S512x512_S512x512_S512x512_1_0_0_1_n_n 512 rfl rfl).symm k) = ix2 i k := funext fun a => Fin.ext (by
    match a with
    | ⟨0, _⟩ => exact l1_lhs_512_0 _ _
    | ⟨1, _⟩ => exact (l1_lhs_512_1 _ _).trans hk)
  have er : dot_S512x512_S512x512_S512x512_1_0_0_1_n_n.rhsIdx (ix2 i j) ((ValueIdx.contrEquiv1 dot_S512x512_S512x512_S512x512_1_0_0_1_n_n 512 rfl rfl).symm k) = ix2 k j := funext fun a => Fin.ext (by
    match a with
    | ⟨0, _⟩ => exact (l1_rhs_512_0 _ _).trans hk
    | ⟨1, _⟩ => exact l1_rhs_512_1 _ _)
  rw [el, er]

theorem l1_lhs_128_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem l1_lhs_128_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem l1_rhs_128_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem l1_rhs_128_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- A [4096, 64] row form against a [64, 128] weight tap into the zero matrix, read at (i, j). -/
theorem l1_mm128_apply (L : FVec Ideal S4096x64 .bf16) (R : FVec Ideal S64x128 .bf16) (i : Fin 4096) (j : Fin 128) :
    matmul dot_S4096x64_S64x128_S4096x128_1_0_0_1_n_n none L R (constant (F := Ideal) S4096x128 .f32 0x00000000#32) (ix2 i j)
      = ∑ k : Fin 64, L (ix2 i k) * R (ix2 k j) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 i j) ((ValueIdx.contrEquiv1 dot_S4096x64_S64x128_S4096x128_1_0_0_1_n_n 64 rfl rfl).symm k) = ix2 i k := funext fun a => Fin.ext (by
    match a with
    | ⟨0, _⟩ => exact l1_lhs_128_0 _ _
    | ⟨1, _⟩ => exact (l1_lhs_128_1 _ _).trans hk)
  have er : dot_S4096x64_S64x128_S4096x128_1_0_0_1_n_n.rhsIdx (ix2 i j) ((ValueIdx.contrEquiv1 dot_S4096x64_S64x128_S4096x128_1_0_0_1_n_n 64 rfl rfl).symm k) = ix2 k j := funext fun a => Fin.ext (by
    match a with
    | ⟨0, _⟩ => exact (l1_rhs_128_0 _ _).trans hk
    | ⟨1, _⟩ => exact l1_rhs_128_1 _ _)
  rw [el, er]

theorem l1_lhs_64_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem l1_lhs_64_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem l1_rhs_64_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem l1_rhs_64_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A [4096, 64] row form against a [64, 64] weight tap into the zero matrix, read at (i, j). -/
theorem l1_mm64_apply (L : FVec Ideal S4096x64 .bf16) (R : FVec Ideal S64x64 .bf16) (i : Fin 4096) (j : Fin 64) :
    matmul dot_S4096x64_S64x64_S4096x64_1_0_0_1_n_n none L R (constant (F := Ideal) S4096x64 .f32 0x00000000#32) (ix2 i j)
      = ∑ k : Fin 64, L (ix2 i k) * R (ix2 k j) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 i j) ((ValueIdx.contrEquiv1 dot_S4096x64_S64x64_S4096x64_1_0_0_1_n_n 64 rfl rfl).symm k) = ix2 i k := funext fun a => Fin.ext (by
    match a with
    | ⟨0, _⟩ => exact l1_lhs_64_0 _ _
    | ⟨1, _⟩ => exact (l1_lhs_64_1 _ _).trans hk)
  have er : dot_S4096x64_S64x64_S4096x64_1_0_0_1_n_n.rhsIdx (ix2 i j) ((ValueIdx.contrEquiv1 dot_S4096x64_S64x64_S4096x64_1_0_0_1_n_n 64 rfl rfl).symm k) = ix2 k j := funext fun a => Fin.ext (by
    match a with
    | ⟨0, _⟩ => exact (l1_rhs_64_0 _ _).trans hk
    | ⟨1, _⟩ => exact l1_rhs_64_1 _ _)
  rw [el, er]

/-! ## Row form and node-major form -/

/-- The narrow zero the re-layouts add is the extended real zero. -/
theorem l1_zero_bf16 : (Scalar.ofBits .bf16 0x0000#16 : Ideal .bf16) = 0 := by
  simp [Scalar.ofBits, Ideal.ofBits, Ideal.ieee]

/-- Row form [512 · 8, 64] to node-major form [512, 8 · 64]: column `b · 64 + u` of node `n` is unit `u` of row `n · 8 + b`. -/
theorem l1_nm_apply (Y : FVec Ideal S4096x64 .bf16) (n : Fin 512) (b : Fin 8) (u : Fin 64) :
    shapeCast S512x512 (addf (shapeCast S512x8x64 Y shapeCasts_S4096x64_S512x8x64) (broadcast S512x8x64 (Scalar.ofBits .bf16 0x0000#16))) shapeCasts_S512x8x64_S512x512 (ix2 n (colIx b u))
      = Y (ix2 (rowIx n b) u) := by
  refine (shapeCast_apply _ _ _ (ix3 n b u) ?_).trans ?_
  · rw [Shape.rowMajor_val_three, Shape.rowMajor_val_two]
    show (n.val * 8 + b.val) * 64 + u.val = n.val * 512 + (b.val * 64 + u.val)
    omega
  · rw [addf_apply, broadcast_apply, l1_zero_bf16, add_zero]
    refine shapeCast_apply _ _ _ (ix2 (rowIx n b) u) ?_
    rw [Shape.rowMajor_val_three, Shape.rowMajor_val_two]
    show (n.val * 8 + b.val) * 64 + u.val = (n.val * 8 + b.val) * 64 + u.val
    rfl

/-- Node-major form back to row form. -/
theorem l1_rows_apply (Z : FVec Ideal S512x512 .bf16) (n : Fin 512) (b : Fin 8) (u : Fin 64) :
    shapeCast S4096x64 (addf (shapeCast S512x8x64 Z shapeCasts_S512x512_S512x8x64) (broadcast S512x8x64 (Scalar.ofBits .bf16 0x0000#16))) shapeCasts_S512x8x64_S4096x64 (ix2 (rowIx n b) u)
      = Z (ix2 n (colIx b u)) := by
  refine (shapeCast_apply _ _ _ (ix3 n b u) ?_).trans ?_
  · rw [Shape.rowMajor_val_three, Shape.rowMajor_val_two]
    show (n.val * 8 + b.val) * 64 + u.val = (n.val * 8 + b.val) * 64 + u.val
    rfl
  · rw [addf_apply, broadcast_apply, l1_zero_bf16, add_zero]
    refine shapeCast_apply _ _ _ (ix2 n (colIx b u)) ?_
    rw [Shape.rowMajor_val_three, Shape.rowMajor_val_two]
    show n.val * 512 + (b.val * 64 + u.val) = (n.val * 8 + b.val) * 64 + u.val
    omega

/-! ## Weight taps, biases and the gate's halves -/
/- Tap `m` of a tap-split weight stack [3, 64, out], as the [64, out] matrix a product takes. -/

theorem l1_tap128_0 (W : FVec Ideal S3x64x128 .bf16) (u : Fin 64) (o : Fin 128) :
    shapeCast S64x128 (extractStridedSlice S1x64x128 ![0, 0, 0] W slices_S3x64x128_o0_0_0_S1x64x128) shapeCasts_S1x64x128_S64x128 (ix2 u o)
      = W (ix3 0 u o) := by
  refine (shapeCast_1ab_ab_apply _ _ u o).trans ?_
  refine extractStridedSlice_apply _ _ _ _ (ix3 0 u o) fun a => ?_
  match a with
  | ⟨0, _⟩ => rfl
  | ⟨1, _⟩ => exact (Nat.zero_add _).symm
  | ⟨2, _⟩ => exact (Nat.zero_add _).symm

theorem l1_tap128_1 (W : FVec Ideal S3x64x128 .bf16) (u : Fin 64) (o : Fin 128) :
    shapeCast S64x128 (extractStridedSlice S1x64x128 ![1, 0, 0] W slices_S3x64x128_o1_0_0_S1x64x128) shapeCasts_S1x64x128_S64x128 (ix2 u o)
      = W (ix3 1 u o) := by
  refine (shapeCast_1ab_ab_apply _ _ u o).trans ?_
  refine extractStridedSlice_apply _ _ _ _ (ix3 1 u o) fun a => ?_
  match a with
  | ⟨0, _⟩ => rfl
  | ⟨1, _⟩ => exact (Nat.zero_add _).symm
  | ⟨2, _⟩ => exact (Nat.zero_add _).symm

theorem l1_tap128_2 (W : FVec Ideal S3x64x128 .bf16) (u : Fin 64) (o : Fin 128) :
    shapeCast S64x128 (extractStridedSlice S1x64x128 ![2, 0, 0] W slices_S3x64x128_o2_0_0_S1x64x128) shapeCasts_S1x64x128_S64x128 (ix2 u o)
      = W (ix3 2 u o) := by
  refine (shapeCast_1ab_ab_apply _ _ u o).trans ?_
  refine extractStridedSlice_apply _ _ _ _ (ix3 2 u o) fun a => ?_
  match a with
  | ⟨0, _⟩ => rfl
  | ⟨1, _⟩ => exact (Nat.zero_add _).symm
  | ⟨2, _⟩ => exact (Nat.zero_add _).symm

theorem l1_tap64_0 (W : FVec Ideal S3x64x64 .bf16) (u : Fin 64) (o : Fin 64) :
    shapeCast S64x64 (extractStridedSlice S1x64x64 ![0, 0, 0] W slices_S3x64x64_o0_0_0_S1x64x64) shapeCasts_S1x64x64_S64x64 (ix2 u o)
      = W (ix3 0 u o) := by
  refine (shapeCast_1ab_ab_apply _ _ u o).trans ?_
  refine extractStridedSlice_apply _ _ _ _ (ix3 0 u o) fun a => ?_
  match a with
  | ⟨0, _⟩ => rfl
  | ⟨1, _⟩ => exact (Nat.zero_add _).symm
  | ⟨2, _⟩ => exact (Nat.zero_add _).symm

theorem l1_tap64_1 (W : FVec Ideal S3x64x64 .bf16) (u : Fin 64) (o : Fin 64) :
    shapeCast S64x64 (extractStridedSlice S1x64x64 ![1, 0, 0] W slices_S3x64x64_o1_0_0_S1x64x64) shapeCasts_S1x64x64_S64x64 (ix2 u o)
      = W (ix3 1 u o) := by
  refine (shapeCast_1ab_ab_apply _ _ u o).trans ?_
  refine extractStridedSlice_apply _ _ _ _ (ix3 1 u o) fun a => ?_
  match a with
  | ⟨0, _⟩ => rfl
  | ⟨1, _⟩ => exact (Nat.zero_add _).symm
  | ⟨2, _⟩ => exact (Nat.zero_add _).symm

theorem l1_tap64_2 (W : FVec Ideal S3x64x64 .bf16) (u : Fin 64) (o : Fin 64) :
    shapeCast S64x64 (extractStridedSlice S1x64x64 ![2, 0, 0] W slices_S3x64x64_o2_0_0_S1x64x64) shapeCasts_S1x64x64_S64x64 (ix2 u o)
      = W (ix3 2 u o) := by
  refine (shapeCast_1ab_ab_apply _ _ u o).trans ?_
  refine extractStridedSlice_apply _ _ _ _ (ix3 2 u o) fun a => ?_
  match a with
  | ⟨0, _⟩ => rfl
  | ⟨1, _⟩ => exact (Nat.zero_add _).symm
  | ⟨2, _⟩ => exact (Nat.zero_add _).symm

/-- A bias broadcast over the rows. -/
theorem l1_bias128 (v : FVec Ideal S128 .f32) (r : Fin 4096) (o : Fin 128) :
    broadcastTo S4096x128 (shapeCast S1x128 v shapeCasts_S128_S1x128) broadcasts_S1x128_S4096x128 (ix2 r o) = v (ix1 o) :=
  (broadcastTo_1b_ab_apply _ _ r o).trans (shapeCast_a_1a_apply _ _ 0 o)
theorem l1_bias64 (v : FVec Ideal S64 .f32) (r : Fin 4096) (o : Fin 64) :
    broadcastTo S4096x64 (shapeCast S1x64 v shapeCasts_S64_S1x64) broadcasts_S1x64_S4096x64 (ix2 r o) = v (ix1 o) :=
  (broadcastTo_1b_ab_apply _ _ r o).trans (shapeCast_a_1a_apply _ _ 0 o)

/-- The reset gate's columns are the low half of a gate block, the update gate's the high half. -/
theorem l1_lo_apply (X : FVec Ideal S4096x128 .f32) (r : Fin 4096) (u : Fin 64) :
    extractStridedSlice S4096x64 ![0, 0] X slices_S4096x128_o0_0_S4096x64 (ix2 r u) = X (ix2 r (gLo u)) :=
  slice2_axis1_apply 0 X _ r u (gLo u) (Nat.zero_add _).symm
theorem l1_hi_apply (X : FVec Ideal S4096x128 .f32) (r : Fin 4096) (u : Fin 64) :
    extractStridedSlice S4096x64 ![0, 64] X slices_S4096x128_o0_64_S4096x64 (ix2 r u) = X (ix2 r (gHi u)) :=
  slice2_axis1_apply 64 X _ r u (gHi u) rfl

/-! ## The hidden state's block layout [1, 8, 512 · 64] and the row form -/

/-- A hidden-state block into row form: row `n · 8 + b`, unit `u` is the block at (0, b, n · 64 + u). -/
theorem l1_pay23_apply (v : Vec Ideal S1x8x32768 .f32) (n : Fin 512) (b : Fin 8) (u : Fin 64) :
    k0_pay23 (F := Ideal) v (ix2 (rowIx n b) u) = v (ix3 0 b (flatIx n u)) := by
  unfold k0_pay23
  refine (shapeCast_apply _ _ _ (ix3 n b u) ?_).trans ?_
  · rw [Shape.rowMajor_val_three, Shape.rowMajor_val_two]
    show (n.val * 8 + b.val) * 64 + u.val = (n.val * 8 + b.val) * 64 + u.val
    rfl
  refine (transpose_apply _ _ _ _ (ix3 b n u) fun c => ?_).trans ?_
  · match c with
    | ⟨0, _⟩ => rfl
    | ⟨1, _⟩ => rfl
    | ⟨2, _⟩ => rfl
  refine (shapeCast_apply _ _ _ (ix2 b (flatIx n u)) ?_).trans ?_
  · rw [Shape.rowMajor_val_three, Shape.rowMajor_val_two]
    show b.val * 32768 + (n.val * 64 + u.val) = (b.val * 512 + n.val) * 64 + u.val
    omega
  exact shapeCast_1ab_ab_apply _ _ b (flatIx n u)

/-- The same, narrowed. -/
theorem l1_pay29_apply (v : Vec Ideal S1x8x32768 .f32) (n : Fin 512) (b : Fin 8) (u : Fin 64) :
    k0_pay29 (F := Ideal) v (ix2 (rowIx n b) u) = v (ix3 0 b (flatIx n u)) := by
  unfold k0_pay29
  rw [truncf_apply]
  exact l1_pay23_apply v n b u

/-- A row form back into a hidden-state block. -/
theorem l1_pay43_apply (Y : FVec Ideal S4096x64 .f32) (n : Fin 512) (b : Fin 8) (u : Fin 64) :
    k0_pay43 (F := Ideal) Y (ix3 0 b (flatIx n u)) = Y (ix2 (rowIx n b) u) := by
  unfold k0_pay43
  refine (shapeCast_ab_1ab_apply _ _ 0 b (flatIx n u)).trans ?_
  refine (shapeCast_apply _ _ _ (ix3 b n u) ?_).trans ?_
  · rw [Shape.rowMajor_val_three, Shape.rowMajor_val_two]
    show (b.val * 512 + n.val) * 64 + u.val = b.val * 32768 + (n.val * 64 + u.val)
    omega
  refine (transpose_apply _ _ _ _ (ix3 n b u) fun c => ?_).trans ?_
  · match c with
    | ⟨0, _⟩ => rfl
    | ⟨1, _⟩ => rfl
    | ⟨2, _⟩ => rfl
  refine shapeCast_apply _ _ _ (ix2 (rowIx n b) u) ?_
  rw [Shape.rowMajor_val_three, Shape.rowMajor_val_two]
  show (n.val * 8 + b.val) * 64 + u.val = (n.val * 8 + b.val) * 64 + u.val
  rfl

/-! ## Loads through the blocks' rectangles -/

/-- A shape cast to the same shape reads its operand. -/
theorem l1_cast_id {α : Type} {s : Shape} (x : s.Idx → α) (h : s.ShapeCasts s) : shapeCast s x h = x :=
  funext fun j => shapeCast_apply x h j j rfl

theorem l1_ld0 (x : Vec Ideal S512x512 .f32) : View.ld x r0_0 = x :=
  View.ld_unit_zero (funext fun a => by match a with | ⟨0, _⟩ => rfl | ⟨1, _⟩ => rfl) _ x
theorem l1_ld4 (x : Vec Ideal S3x64x128 .bf16) : View.ld x r0_4 = x :=
  View.ld_unit_zero (funext fun a => by match a with | ⟨0, _⟩ => rfl | ⟨1, _⟩ => rfl | ⟨2, _⟩ => rfl) _ x
theorem l1_ld5 (x : Vec Ideal S128 .f32) : View.ld x r0_5 = x :=
  View.ld_unit_zero (funext fun a => by match a with | ⟨0, _⟩ => rfl) _ x
theorem l1_ld7 (x : Vec Ideal S3x64x64 .bf16) : View.ld x r0_7 = x :=
  View.ld_unit_zero (funext fun a => by match a with | ⟨0, _⟩ => rfl | ⟨1, _⟩ => rfl | ⟨2, _⟩ => rfl) _ x
theorem l1_ld8 (x : Vec Ideal S64 .f32) : View.ld x r0_8 = x :=
  View.ld_unit_zero (funext fun a => by match a with | ⟨0, _⟩ => rfl) _ x
theorem l1_ld10 (x : Vec Ideal S1x64 .f32) : View.ld x r0_10 = x :=
  View.ld_unit_zero (funext fun a => by match a with | ⟨0, _⟩ => rfl | ⟨1, _⟩ => rfl) _ x
theorem l1_ld11 (x : Vec Ideal S1 .f32) : View.ld x r0_11 = x :=
  View.ld_unit_zero (funext fun a => by match a with | ⟨0, _⟩ => rfl) _ x

/-- Layer 1's half of the hidden-state block, read through its rectangle. -/
theorem l1_ld9_apply (x2 : Vec Ideal S2x8x32768 .f32) (b : Fin 8) (f : Fin 32768) :
    View.ld x2 r0_9 (ix3 0 b f) = x2 (ix3 1 b f) := by
  show x2 (r0_9.idx (ix3 0 b f)) = x2 (ix3 1 b f)
  refine congrArg x2 (funext fun a => Fin.ext ?_)
  match a with
  | ⟨0, _⟩ => rfl
  | ⟨1, _⟩ => show 0 + 1 * b.val = b.val; omega
  | ⟨2, _⟩ => show 0 + 1 * f.val = f.val; omega

/-! ## Layer 1's graph convolutions in row form -/

/-- The gate convolution of layer 1 over operands that read, on chunk element `b`'s rows, the adjacency `A`, its
    double, the input features `xf` with their two taps and the hidden state `s`: the kernel-form pre-activation. -/
theorem l1_pay31_apply (v1 v4 : FVec Ideal S512x512 .bf16) (v165 v178 v182 v183 : FVec Ideal S4096x64 .bf16)
    (v185 : FVec Ideal S3x64x128 .bf16) (v186 : Vec Ideal S3x64x128 .bf16) (v188 : Vec Ideal S128 .f32)
    (A : Fin 512 → Fin 512 → EReal) (xf s : Fin 512 → Fin 64 → EReal) (b : Fin 8)
    (h1 : ∀ i k, v1 (ix2 i k) = A i k) (h4 : ∀ i k, v4 (ix2 i k) = A i k * two)
    (h165 : ∀ n u, v165 (ix2 (rowIx n b) u) = xf n u)
    (h178 : ∀ n u, v178 (ix2 (rowIx n b) u) = d1 A (fun k => xf k u) n)
    (h182 : ∀ n u, v182 (ix2 (rowIx n b) u) = d2K A (fun k => xf k u) n)
    (h183 : ∀ n u, v183 (ix2 (rowIx n b) u) = s n u)
    (n : Fin 512) (o : Fin 128) :
    k0_pay31 (F := Ideal) v1 v4 v165 v178 v182 v183 v185 v186 v188 (ix2 (rowIx n b) o)
      = pre1K A xf s (t3 v185) (t3 v186) (vec v188) n o := by
  unfold k0_pay31
  simp only [addf_apply, subf_apply, truncf_apply, l1_mm128_apply, l1_mm512_apply, l1_tap128_0, l1_tap128_1, l1_tap128_2,
    l1_cast_id, l1_bias128, l1_rows_apply, l1_nm_apply, h1, h4, h165, h178, h182, h183]
  rfl

/-- The transcendental operations read at an index. -/
theorem l1_logistic_apply {s : Shape} {φ : FTy} (x : FVec Ideal s φ) (i : s.Idx) : logistic x i = Ideal.logistic (x i) := rfl
theorem l1_tanh_apply {s : Shape} {φ : FTy} (x : FVec Ideal s φ) (i : s.Idx) : tanh x i = Ideal.tanh (x i) := rfl

/-- Layer 1's new hidden state in row form, over operands that read, on chunk element `b`'s rows, the adjacency, its
    double, the input features with their two taps, the old hidden state `h` and the gate pre-activation `g`: the GRU
    update with the kernel-form candidate. -/
theorem l1_pay42_apply (v1 v4 : FVec Ideal S512x512 .bf16) (v164 : FVec Ideal S4096x64 .f32)
    (v165 v178 v182 : FVec Ideal S4096x64 .bf16) (v231 : FVec Ideal S4096x128 .f32)
    (v237 v239 : Vec Ideal S3x64x64 .bf16) (v241 : Vec Ideal S64 .f32)
    (A : Fin 512 → Fin 512 → EReal) (xf h : Fin 512 → Fin 64 → EReal) (g : Fin 512 → Fin 128 → EReal) (b : Fin 8)
    (h1 : ∀ i k, v1 (ix2 i k) = A i k) (h4 : ∀ i k, v4 (ix2 i k) = A i k * two)
    (h165 : ∀ n u, v165 (ix2 (rowIx n b) u) = xf n u)
    (h178 : ∀ n u, v178 (ix2 (rowIx n b) u) = d1 A (fun k => xf k u) n)
    (h182 : ∀ n u, v182 (ix2 (rowIx n b) u) = d2K A (fun k => xf k u) n)
    (h164 : ∀ n u, v164 (ix2 (rowIx n b) u) = h n u)
    (h231 : ∀ n o, v231 (ix2 (rowIx n b) o) = g n o)
    (n : Fin 512) (u : Fin 64) :
    k0_pay42 (F := Ideal) v164 v182 (k0_pay33 v231) (k0_pay35 v237) v241 (k0_pay39 v1 v164 v165 v178 v231 v237 v239)
        (k0_pay40 v1 v4 v164 v231) (k0_pay41 v239) (ix2 (rowIx n b) u)
      = gru (fun n o => Ideal.logistic (g n o)) h (fun s => pre1K A xf s (t3 v237) (t3 v239) (vec v241)) n u := by
  unfold k0_pay42 k0_pay41 k0_pay40 k0_pay39 k0_pay38 k0_pay37 k0_pay36 k0_pay35 k0_pay34 k0_pay33 k0_pay32
  simp only [addf_apply, subf_apply, mulf_apply, truncf_apply, broadcast_apply, l1_logistic_apply, l1_tanh_apply,
    l1_mm64_apply, l1_mm512_apply, l1_tap64_0, l1_tap64_1, l1_tap64_2, l1_cast_id, l1_bias64, l1_rows_apply, l1_nm_apply,
    l1_lo_apply, l1_hi_apply, h1, h4, h165, h178, h182, h164, h231]
  rfl

/-! ## The projection -/

/-- The reduced index (n, b) with unit `k` put back is (n, b, k). -/
theorem l1_lift3 (h : S512x8x64.Reduces [2] S512x8) (n : Fin 512) (b : Fin 8) (k : Fin (S512x8x64.size 2)) :
    h.lift (ix2 n b) k = ix3 n b (⟨k.val, k.isLt⟩ : Fin 64) := by
  funext c; apply Fin.ext
  match c with
  | ⟨0, _⟩ => rfl
  | ⟨1, _⟩ => rfl
  | ⟨2, _⟩ => rfl

/-- The projected output block at (b, n): the new hidden state's row `n · 8 + b` against the projection's one row,
    plus its bias. -/
theorem l1_pay45_apply (v164 : FVec Ideal S4096x64 .f32) (v182 : FVec Ideal S4096x64 .bf16) (v234 : FVec Ideal S4096x64 .f32)
    (v238 : FVec Ideal S3x64x64 .bf16) (v241 : Vec Ideal S64 .f32) (v269 : FVec Ideal S4096x64 .f32)
    (v273 : FVec Ideal S4096x64 .bf16) (v275 : FVec Ideal S64x64 .bf16) (v304 : Vec Ideal S1x64 .f32) (v310 : Vec Ideal S1 .f32)
    (b : Fin 8) (n : Fin 512) :
    k0_pay45 (F := Ideal) v164 v182 v234 v238 v241 v269 v273 v275 v304 v310 (ix2 b n)
      = (∑ u : Fin 64, k0_pay42 (F := Ideal) v164 v182 v234 v238 v241 v269 v273 v275 (ix2 (rowIx n b) u) * v304 (ix2 0 u))
        + v310 (ix1 0) := by
  unfold k0_pay45
  refine (transpose_ix2_apply _ _ b n).trans ?_
  rw [addf_apply, broadcast_apply]
  refine congr (congrArg _ ?_) ?_
  · refine (Ideal.multiReduction_add_single _ _ _ _ _ _).trans ?_
    refine Finset.sum_congr rfl fun k _ => ?_
    rw [l1_lift3, mulf_apply]
    refine congr (congrArg _ ?_) ?_
    · refine shapeCast_apply _ _ _ (ix2 (rowIx n b) k) ?_
      rw [Shape.rowMajor_val_three, Shape.rowMajor_val_two]
      show (n.val * 8 + b.val) * 64 + k.val = (n.val * 8 + b.val) * 64 + k.val
      rfl
    · refine (broadcastTo_apply _ _ _ (ix3 (0 : Fin 1) (0 : Fin 1) k) fun a => ?_).trans ?_
      · match a with
        | ⟨0, _⟩ => rfl
        | ⟨1, _⟩ => rfl
        | ⟨2, _⟩ => rfl
      refine (shapeCast_ab_1ab_apply _ _ 0 0 _).trans ?_
      rw [l1_cast_id]
  · exact congrArg v310 (funext fun a => by match a with | ⟨0, _⟩ => rfl)

/-! ## Layer 1 on a grid point's blocks -/

/-- Layer 1's old hidden state in row form. -/
def tH1 (x2 : Vec Ideal S2x8x32768 .f32) : FVec Ideal S4096x64 .f32 := k0_pay23 (View.ld x2 r0_9)
/-- Layer 1's gate pre-activation in row form. -/
def tG1 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x13 : Vec Ideal S128 .f32) : FVec Ideal S4096x128 .f32 :=
  k0_pay31 (k0_pay1 (View.ld x1 r0_0)) (k0_pay2 (View.ld x1 r0_0)) (tH0nB x0 x1 x2 x3 x4 x5 x6 x7 x8) (tH0n1 x0 x1 x2 x3 x4 x5 x6 x7 x8) (tH0n2 x0 x1 x2 x3 x4 x5 x6 x7 x8) (k0_pay29 (View.ld x2 r0_9)) (k0_pay30 (View.ld x9 r0_4)) (View.ld x10 r0_4) (View.ld x13 r0_5)
/-- Layer 1's new hidden state in row form. -/
def tH1n (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) : FVec Ideal S4096x64 .f32 :=
  k0_pay42 (tH1 x2) (tH0n2 x0 x1 x2 x3 x4 x5 x6 x7 x8) (k0_pay33 (tG1 x0 x1 x2 x3 x4 x5 x6 x7 x8 x9 x10 x13)) (k0_pay35 (View.ld x11 r0_7)) (View.ld x14 r0_8) (k0_pay39 (k0_pay1 (View.ld x1 r0_0)) (tH1 x2) (tH0nB x0 x1 x2 x3 x4 x5 x6 x7 x8) (tH0n1 x0 x1 x2 x3 x4 x5 x6 x7 x8) (tG1 x0 x1 x2 x3 x4 x5 x6 x7 x8 x9 x10 x13) (View.ld x11 r0_7) (View.ld x12 r0_7)) (k0_pay40 (k0_pay1 (View.ld x1 r0_0)) (k0_pay2 (View.ld x1 r0_0)) (tH1 x2) (tG1 x0 x1 x2 x3 x4 x5 x6 x7 x8 x9 x10 x13)) (k0_pay41 (View.ld x12 r0_7))

theorem tH1_apply (x2 : Vec Ideal S2x8x32768 .f32) (n : Fin 512) (b : Fin 8) (u : Fin 64) :
    tH1 x2 (ix2 (rowIx n b) u) = bh x2 1 b n u :=
  (l1_pay23_apply _ n b u).trans (l1_ld9_apply x2 b _)

/-- The gate pre-activation at row `n · 8 + b` is the kernel-form convolution of chunk element `b`. -/
theorem tG1_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x13 : Vec Ideal S128 .f32) (n : Fin 512) (b : Fin 8) (o : Fin 128) :
    tG1 x0 x1 x2 x3 x4 x5 x6 x7 x8 x9 x10 x13 (ix2 (rowIx n b) o)
      = pre1K (mat x1) (bkh0 x0 x1 x2 x3 x4 x5 x6 x7 x8 b) (bh x2 1 b) (t3 x9) (t3 x10) (vec x13) n o := by
  unfold tG1 k0_pay30
  rw [l1_ld4 x9, l1_ld4 x10, l1_ld5 x13, l1_cast_id]
  exact l1_pay31_apply _ _ _ _ _ _ _ _ _ (mat x1) (bkh0 x0 x1 x2 x3 x4 x5 x6 x7 x8 b) (bh x2 1 b) b
    (fun i k => tA_apply x1 i k) (fun i k => tA2_apply x1 i k)
    (fun n u => tH0nB_apply x0 x1 x2 x3 x4 x5 x6 x7 x8 n b u) (fun n u => tH0n1_apply x0 x1 x2 x3 x4 x5 x6 x7 x8 n b u) (fun n u => tH0n2_apply x0 x1 x2 x3 x4 x5 x6 x7 x8 n b u)
    (fun n u => (l1_pay29_apply _ n b u).trans (l1_ld9_apply x2 b _)) n o

/-- The new hidden state at row `n · 8 + b`, unit `u` is layer 1's cell on chunk element `b`. -/
theorem tH1n_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (n : Fin 512) (b : Fin 8) (u : Fin 64) :
    tH1n x0 x1 x2 x3 x4 x5 x6 x7 x8 x9 x10 x11 x12 x13 x14 (ix2 (rowIx n b) u) = bkh1 x0 x1 x2 x3 x4 x5 x6 x7 x8 x9 x10 x11 x12 x13 x14 b n u := by
  unfold tH1n bkh1 cell1S
  rw [l1_ld7 x11, l1_ld7 x12, l1_ld8 x14]
  exact l1_pay42_apply _ _ _ _ _ _ _ _ _ _ (mat x1) (bkh0 x0 x1 x2 x3 x4 x5 x6 x7 x8 b) (bh x2 1 b)
    (pre1K (mat x1) (bkh0 x0 x1 x2 x3 x4 x5 x6 x7 x8 b) (bh x2 1 b) (t3 x9) (t3 x10) (vec x13)) b
    (fun i k => tA_apply x1 i k) (fun i k => tA2_apply x1 i k)
    (fun n u => tH0nB_apply x0 x1 x2 x3 x4 x5 x6 x7 x8 n b u) (fun n u => tH0n1_apply x0 x1 x2 x3 x4 x5 x6 x7 x8 n b u) (fun n u => tH0n2_apply x0 x1 x2 x3 x4 x5 x6 x7 x8 n b u)
    (fun n u => tH1_apply x2 n b u) (fun n o => tG1_apply x0 x1 x2 x3 x4 x5 x6 x7 x8 x9 x10 x13 n b o) n u

/-! ## The two output blocks -/

/-- Layer 1's half of the hidden-state output: the new hidden state re-laid from row form. -/
theorem l1_pay44_apply (v164 : FVec Ideal S4096x64 .f32) (v182 : FVec Ideal S4096x64 .bf16) (v234 : FVec Ideal S4096x64 .f32)
    (v238 : FVec Ideal S3x64x64 .bf16) (v241 : Vec Ideal S64 .f32) (v269 : FVec Ideal S4096x64 .f32)
    (v273 : FVec Ideal S4096x64 .bf16) (v275 : FVec Ideal S64x64 .bf16) (n : Fin 512) (b : Fin 8) (u : Fin 64) :
    k0_pay44 (F := Ideal) v164 v182 v234 v238 v241 v269 v273 v275 (ix3 0 b (flatIx n u))
      = k0_pay42 (F := Ideal) v164 v182 v234 v238 v241 v269 v273 v275 (ix2 (rowIx n b) u) :=
  l1_pay43_apply (k0_pay42 (F := Ideal) v164 v182 v234 v238 v241 v269 v273 v275) n b u

/-- The projected output's buffer: one store of the whole block. -/
theorem out0_17_fold (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (x15 : Vec Ideal S1x64 .f32) (x16 : Vec Ideal S1 .f32) :
    out0_17 (F := Ideal) x0 x1 x2 x3 x4 x5 x6 x7 x8 x9 x10 x11 x12 x13 x14 x15 x16
      = View.canon [⟨r0_2, k0_pay45 (tH1 x2) (tH0n2 x0 x1 x2 x3 x4 x5 x6 x7 x8) (k0_pay33 (tG1 x0 x1 x2 x3 x4 x5 x6 x7 x8 x9 x10 x13)) (k0_pay35 (View.ld x11 r0_7)) (View.ld x14 r0_8) (k0_pay39 (k0_pay1 (View.ld x1 r0_0)) (tH1 x2) (tH0nB x0 x1 x2 x3 x4 x5 x6 x7 x8) (tH0n1 x0 x1 x2 x3 x4 x5 x6 x7 x8) (tG1 x0 x1 x2 x3 x4 x5 x6 x7 x8 x9 x10 x13) (View.ld x11 r0_7) (View.ld x12 r0_7)) (k0_pay40 (k0_pay1 (View.ld x1 r0_0)) (k0_pay2 (View.ld x1 r0_0)) (tH1 x2) (tG1 x0 x1 x2 x3 x4 x5 x6 x7 x8 x9 x10 x13)) (k0_pay41 (View.ld x12 r0_7)) (View.ld x15 r0_10) (View.ld x16 r0_11)⟩] := rfl

/-- The hidden-state output's buffer: layer 1's half stored last, layer 0's half first. -/
theorem out0_18_fold (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (x15 : Vec Ideal S1x64 .f32) (x16 : Vec Ideal S1 .f32) :
    out0_18 (F := Ideal) x0 x1 x2 x3 x4 x5 x6 x7 x8 x9 x10 x11 x12 x13 x14 x15 x16
      = View.canon [⟨r0_9, k0_pay44 (tH1 x2) (tH0n2 x0 x1 x2 x3 x4 x5 x6 x7 x8) (k0_pay33 (tG1 x0 x1 x2 x3 x4 x5 x6 x7 x8 x9 x10 x13)) (k0_pay35 (View.ld x11 r0_7)) (View.ld x14 r0_8) (k0_pay39 (k0_pay1 (View.ld x1 r0_0)) (tH1 x2) (tH0nB x0 x1 x2 x3 x4 x5 x6 x7 x8) (tH0n1 x0 x1 x2 x3 x4 x5 x6 x7 x8) (tG1 x0 x1 x2 x3 x4 x5 x6 x7 x8 x9 x10 x13) (View.ld x11 r0_7) (View.ld x12 r0_7)) (k0_pay40 (k0_pay1 (View.ld x1 r0_0)) (k0_pay2 (View.ld x1 r0_0)) (tH1 x2) (tG1 x0 x1 x2 x3 x4 x5 x6 x7 x8 x9 x10 x13)) (k0_pay41 (View.ld x12 r0_7))⟩, ⟨r0_1, k0_pay43 (tH0n x0 x1 x2 x3 x4 x5 x6 x7 x8)⟩] := rfl

/-! ## The outputs read at an index -/

theorem out17_apply (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (x15 : Vec Ideal S1x64 .f32) (x16 : Vec Ideal S1 .f32) (b : Fin 8) (n : Fin 512) :
    out0_17 (F := Ideal) x0 x1 x2 x3 x4 x5 x6 x7 x8 x9 x10 x11 x12 x13 x14 x15 x16 (ix2 b n)
      = proj (bkh1 x0 x1 x2 x3 x4 x5 x6 x7 x8 x9 x10 x11 x12 x13 x14 b) (fun u => x15 (ix2 0 u)) (x16 (ix1 0)) n := by
  rw [out0_17_fold, View.canon_unit_zero (funext fun a => by match a with | ⟨0, _⟩ => rfl | ⟨1, _⟩ => rfl), l1_pay45_apply,
    l1_ld10 x15, l1_ld11 x16]
  show (∑ u : Fin 64, tH1n x0 x1 x2 x3 x4 x5 x6 x7 x8 x9 x10 x11 x12 x13 x14 (ix2 (rowIx n b) u) * x15 (ix2 0 u)) + x16 (ix1 0) = _
  simp only [tH1n_apply]
  rfl

theorem out18_apply0 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (x15 : Vec Ideal S1x64 .f32) (x16 : Vec Ideal S1 .f32) (b : Fin 8) (n : Fin 512) (u : Fin 64) :
    out0_18 (F := Ideal) x0 x1 x2 x3 x4 x5 x6 x7 x8 x9 x10 x11 x12 x13 x14 x15 x16 (ix3 0 b (flatIx n u)) = bkh0 x0 x1 x2 x3 x4 x5 x6 x7 x8 b n u := by
  have hm : (ix3 0 b (flatIx n u) : S2x8x32768.Idx) ∉ r0_9.set := fun h =>
    absurd (Rect.mem_set_unit.mp h 0).1 (by show ¬((1 : Nat) ≤ 0); omega)
  have e : (ix3 0 b (flatIx n u) : S2x8x32768.Idx) = r0_1.emb (ix3 0 b (flatIx n u)) := funext fun a => Fin.ext (by
    match a with
    | ⟨0, _⟩ => rfl
    | ⟨1, _⟩ => show b.val = 0 + 1 * b.val; omega
    | ⟨2, _⟩ => show (flatIx n u).val = 0 + 1 * (flatIx n u).val; omega)
  rw [out0_18_fold, View.canon_cons_of_not_mem (p := ⟨r0_9, _⟩) (h := hm), e, View.canon_cons_emb, l1_pay43_apply]
  exact tH0n_apply x0 x1 x2 x3 x4 x5 x6 x7 x8 n b u

theorem out18_apply1 (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (x15 : Vec Ideal S1x64 .f32) (x16 : Vec Ideal S1 .f32) (b : Fin 8) (n : Fin 512) (u : Fin 64) :
    out0_18 (F := Ideal) x0 x1 x2 x3 x4 x5 x6 x7 x8 x9 x10 x11 x12 x13 x14 x15 x16 (ix3 1 b (flatIx n u)) = bkh1 x0 x1 x2 x3 x4 x5 x6 x7 x8 x9 x10 x11 x12 x13 x14 b n u := by
  have e : (ix3 1 b (flatIx n u) : S2x8x32768.Idx) = r0_9.emb (ix3 0 b (flatIx n u)) := funext fun a => Fin.ext (by
    match a with
    | ⟨0, _⟩ => rfl
    | ⟨1, _⟩ => show b.val = 0 + 1 * b.val; omega
    | ⟨2, _⟩ => show (flatIx n u).val = 0 + 1 * (flatIx n u).val; omega)
  rw [out0_18_fold, e, View.canon_cons_emb, l1_pay44_apply]
  exact tH1n_apply x0 x1 x2 x3 x4 x5 x6 x7 x8 x9 x10 x11 x12 x13 x14 n b u

end Cert.KernelIdeal.KV

end
-- ==== Proof.KFinal.lean ====
/-
  From the grid points' blocks to the whole result arrays: the idealized kernel's run ends with the projected output and
  the stacked hidden states at the kernel-form model of its argument arrays, the arguments unchanged.
  Grid point `t` holds batch elements `8 t … 8 t + 7`; the weight windows are whole arrays that @main's host operations
  cut out of the weight matrices (row `f · 3 + m` of a matrix is feature `f`'s tap `m`).
-/
import proofs.«103657_g44504451121623_cont_8to1_c_180_16_alg».proof.Proof.KLayer1
import proofs.«103657_g44504451121623_cont_8to1_c_180_16_alg».proof.Proof.Gen.KernelIdeal.Value

noncomputable section

namespace Cert.KernelIdeal.KV

open Cert.KernelIdeal Cert.KernelIdeal.Gen Idealize.ShloMosaic Idealize.ShloMosaic.ValueIdx Cert.Dcgru Cert.KernelIdeal.KV
open Idealize.ShloMosaic.TcCoe Idealize.SL.Sem
open Idealize.ShloMosaic.Pipeline (Dat)

/-- The model's arguments read off a memory of the idealized kernel's program. -/
def argsOf (m : (ℓ : Loc nD τ sig) → Buf (Elt Ideal) ℓ) (c : Dev nD) : Cert.Dcgru.Args where
  X := m ((c : Thread nD τ).loc main_arg0)
  A := m ((c : Thread nD τ).loc main_arg1)
  H := m ((c : Thread nD τ).loc main_arg2)
  Wg0 := m ((c : Thread nD τ).loc main_arg3)
  bg0 := m ((c : Thread nD τ).loc main_arg4)
  Wc0 := m ((c : Thread nD τ).loc main_arg5)
  bc0 := m ((c : Thread nD τ).loc main_arg6)
  Wg1 := m ((c : Thread nD τ).loc main_arg7)
  bg1 := m ((c : Thread nD τ).loc main_arg8)
  Wc1 := m ((c : Thread nD τ).loc main_arg9)
  bc1 := m ((c : Thread nD τ).loc main_arg10)
  Wp := m ((c : Thread nD τ).loc main_arg11)
  bp := m ((c : Thread nD τ).loc main_arg12)

namespace Final

/-- A grid point as a number below four. -/
def pt (t : Fin cfg0.N) : Fin 4 := Fin.cast N_0 t

/-- The index maps of the four moving windows, decided over the grid. -/
theorem idx_facts : ∀ t : Fin cfg0.N,
    win0_0.index t (0 : Fin 2) = t.val ∧ win0_0.index t (1 : Fin 2) = 0
    ∧ win0_2.index t (0 : Fin 3) = 0 ∧ win0_2.index t (1 : Fin 3) = t.val ∧ win0_2.index t (2 : Fin 3) = 0
    ∧ win0_17.index t (0 : Fin 2) = t.val ∧ win0_17.index t (1 : Fin 2) = 0
    ∧ win0_18.index t (0 : Fin 3) = 0 ∧ win0_18.index t (1 : Fin 3) = t.val ∧ win0_18.index t (2 : Fin 3) = 0 :=
  (by decide +kernel : ∀ t : Fin grid0.N, _)

variable (m : (ℓ : Loc nD τ sig) → Buf (Elt Ideal) ℓ)

theorem iblk0_apply (c : Dev nD) (t : Fin cfg0.N) (b : Fin 8) (n : Fin 512) :
    (iblk m c 0 t : Vec Ideal S8x512 .f32) (ix2 b n)
      = (m ((c : Thread nD τ).loc main_arg0) : S32x512.Idx → EReal) (ix2 (gbat (pt t) b) n) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * b.val = t.val * 8 + b.val; rw [e0]; omega
  | ⟨1, _⟩ => show win0_0.index t 1 * 512 + 1 * n.val = n.val; rw [e1]; omega

theorem iblk2_apply (c : Dev nD) (t : Fin cfg0.N) (l : Fin 2) (b : Fin 8) (f : Fin 32768) :
    (iblk m c 2 t : Vec Ideal S2x8x32768 .f32) (ix3 l b f)
      = (m ((c : Thread nD τ).loc main_arg2) : S2x32x32768.Idx → EReal) (ix3 l (gbat (pt t) b) f) := by
  obtain ⟨-, -, e0, e1, e2, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 2 + 1 * l.val = l.val; rw [e0]; omega
  | ⟨1, _⟩ => show win0_2.index t 1 * 8 + 1 * b.val = t.val * 8 + b.val; rw [e1]; omega
  | ⟨2, _⟩ => show win0_2.index t 2 * 32768 + 1 * f.val = f.val; rw [e2]; omega

/-- Row `(off + u) · 3 + mm` of a weight matrix, read through the host's reshape to (feature, tap, out), the narrowing,
    the slice of `K` features from feature `off` and the exchange of the feature and tap axes. -/
theorem tapRows_apply {R Fe O K : Nat} (off : Nat) (W : (⟨2, ![R, O]⟩ : Shape).Idx → EReal)
    (hc : (⟨2, ![R, O]⟩ : Shape).ShapeCasts ⟨3, ![Fe, 3, O]⟩)
    (hb : FTy.bits .bf16 < FTy.bits .f32)
    (hs : (⟨3, ![Fe, 3, O]⟩ : Shape).Slices ![off, 0, 0] ⟨3, ![K, 3, O]⟩)
    (ht : (⟨3, ![K, 3, O]⟩ : Shape).Transposes [1, 0, 2] ⟨3, ![3, K, O]⟩)
    (mm : Fin 3) (u : Fin K) (o : Fin O) (f : Fin Fe) (hf : f.val = off + u.val) (r : Fin R) (hr : r.val = (off + u.val) * 3 + mm.val) :
    transpose (⟨3, ![3, K, O]⟩ : Shape) [1, 0, 2]
      (extractStridedSlice (⟨3, ![K, 3, O]⟩ : Shape) ![off, 0, 0]
        (truncf (F := Ideal) .bf16 (shapeCast (⟨3, ![Fe, 3, O]⟩ : Shape) (W : FVec Ideal (⟨2, ![R, O]⟩ : Shape) .f32) hc) hb) hs) ht (ix3 mm u o)
      = W (ix2 r o) := by
  refine (transpose_apply _ _ ht (ix3 mm u o) (ix3 u mm o) (fun b => ?_)).trans ?_
  · match b with
    | ⟨0, _⟩ => rfl
    | ⟨1, _⟩ => rfl
    | ⟨2, _⟩ => rfl
  refine (extractStridedSlice_apply _ _ hs (ix3 u mm o) (ix3 f mm o) (fun a => ?_)).trans ?_
  · match a with
    | ⟨0, _⟩ => show f.val = off + u.val; exact hf
    | ⟨1, _⟩ => show mm.val = 0 + mm.val; omega
    | ⟨2, _⟩ => show o.val = 0 + o.val; omega
  show shapeCast (⟨3, ![Fe, 3, O]⟩ : Shape) W hc (ix3 f mm o) = _
  refine shapeCast_apply W hc _ (ix2 r o) ?_
  rw [Shape.rowMajor_val_two, Shape.rowMajor_val_three]
  show r.val * O + o.val = (f.val * 3 + mm.val) * O + o.val
  rw [hr, hf]

/-- The array of `main_v3` at region entry: the host's reshape, narrowing, slice and transpose of argument 3. -/
theorem V3_eq (c : Dev nD) :
    (V m c main_v3 : S3x1x128.Idx → EReal)
      = transpose S3x1x128 [1, 0, 2] (extractStridedSlice S1x3x128 ![0, 0, 0] (truncf (F := Ideal) .bf16 (shapeCast S65x3x128 (m ((c : Thread nD τ).loc main_arg3) : S195x128.Idx → EReal) shapeCasts_S195x128_S65x3x128) bitsLt_bf16_f32) slices_S65x3x128_S1x3x128_0_0_0) transposes_S1x3x128_S3x1x128_1_0_2 := by
  dsimp only [Gen.V, Gen.hostOps0]
  after_results
  rfl

theorem t1_V3 (c : Dev nD) : t1 (V m c main_v3 : S3x1x128.Idx → EReal) = wx0 (mat (m ((c : Thread nD τ).loc main_arg3) : S195x128.Idx → EReal)) := by
  funext mm o
  unfold t1 wx0 mat
  rw [V3_eq]
  exact tapRows_apply 0 _ _ _ _ _ mm 0 o ⟨0, by omega⟩ (by simp) ⟨mm.val, by omega⟩ (by simp)

/-- The array of `main_v5` at region entry: the host's reshape, narrowing, slice and transpose of argument 3. -/
theorem V5_eq (c : Dev nD) :
    (V m c main_v5 : S3x64x128.Idx → EReal)
      = transpose S3x64x128 [1, 0, 2] (extractStridedSlice S64x3x128 ![1, 0, 0] (truncf (F := Ideal) .bf16 (shapeCast S65x3x128 (m ((c : Thread nD τ).loc main_arg3) : S195x128.Idx → EReal) shapeCasts_S195x128_S65x3x128) bitsLt_bf16_f32) slices_S65x3x128_S64x3x128_1_0_0) transposes_S64x3x128_S3x64x128_1_0_2 := by
  dsimp only [Gen.V, Gen.hostOps0]
  after_results
  rfl

theorem t3_V5 (c : Dev nD) : t3 (V m c main_v5 : S3x64x128.Idx → EReal) = wh0 (mat (m ((c : Thread nD τ).loc main_arg3) : S195x128.Idx → EReal)) := by
  funext mm u o
  unfold t3 wh0 mat
  rw [V5_eq]
  exact tapRows_apply 1 _ _ _ _ _ mm u o ⟨1 + u.val, by omega⟩ rfl ⟨(1 + u.val) * 3 + mm.val, by omega⟩ (by show (1 + u.val) * 3 + mm.val = (1 + u.val) * 3 + mm.val; omega)

/-- The array of `main_v9` at region entry: the host's reshape, narrowing, slice and transpose of argument 5. -/
theorem V9_eq (c : Dev nD) :
    (V m c main_v9 : S3x1x64.Idx → EReal)
      = transpose S3x1x64 [1, 0, 2] (extractStridedSlice S1x3x64 ![0, 0, 0] (truncf (F := Ideal) .bf16 (shapeCast S65x3x64 (m ((c : Thread nD τ).loc main_arg5) : S195x64.Idx → EReal) shapeCasts_S195x64_S65x3x64) bitsLt_bf16_f32) slices_S65x3x64_S1x3x64_0_0_0) transposes_S1x3x64_S3x1x64_1_0_2 := by
  dsimp only [Gen.V, Gen.hostOps0]
  after_results
  rfl

theorem t1_V9 (c : Dev nD) : t1 (V m c main_v9 : S3x1x64.Idx → EReal) = wx0 (mat (m ((c : Thread nD τ).loc main_arg5) : S195x64.Idx → EReal)) := by
  funext mm o
  unfold t1 wx0 mat
  rw [V9_eq]
  exact tapRows_apply 0 _ _ _ _ _ mm 0 o ⟨0, by omega⟩ (by simp) ⟨mm.val, by omega⟩ (by simp)

/-- The array of `main_v11` at region entry: the host's reshape, narrowing, slice and transpose of argument 5. -/
theorem V11_eq (c : Dev nD) :
    (V m c main_v11 : S3x64x64.Idx → EReal)
      = transpose S3x64x64 [1, 0, 2] (extractStridedSlice S64x3x64 ![1, 0, 0] (truncf (F := Ideal) .bf16 (shapeCast S65x3x64 (m ((c : Thread nD τ).loc main_arg5) : S195x64.Idx → EReal) shapeCasts_S195x64_S65x3x64) bitsLt_bf16_f32) slices_S65x3x64_S64x3x64_1_0_0) transposes_S64x3x64_S3x64x64_1_0_2 := by
  dsimp only [Gen.V, Gen.hostOps0]
  after_results
  rfl

theorem t3_V11 (c : Dev nD) : t3 (V m c main_v11 : S3x64x64.Idx → EReal) = wh0 (mat (m ((c : Thread nD τ).loc main_arg5) : S195x64.Idx → EReal)) := by
  funext mm u o
  unfold t3 wh0 mat
  rw [V11_eq]
  exact tapRows_apply 1 _ _ _ _ _ mm u o ⟨1 + u.val, by omega⟩ rfl ⟨(1 + u.val) * 3 + mm.val, by omega⟩ (by show (1 + u.val) * 3 + mm.val = (1 + u.val) * 3 + mm.val; omega)

/-- The array of `main_v15` at region entry: the host's reshape, narrowing, slice and transpose of argument 7. -/
theorem V15_eq (c : Dev nD) :
    (V m c main_v15 : S3x64x128.Idx → EReal)
      = transpose S3x64x128 [1, 0, 2] (extractStridedSlice S64x3x128 ![0, 0, 0] (truncf (F := Ideal) .bf16 (shapeCast S128x3x128 (m ((c : Thread nD τ).loc main_arg7) : S384x128.Idx → EReal) shapeCasts_S384x128_S128x3x128) bitsLt_bf16_f32) slices_S128x3x128_S64x3x128_0_0_0) transposes_S64x3x128_S3x64x128_1_0_2 := by
  dsimp only [Gen.V, Gen.hostOps0]
  after_results
  rfl

theorem t3_V15 (c : Dev nD) : t3 (V m c main_v15 : S3x64x128.Idx → EReal) = wx1 (mat (m ((c : Thread nD τ).loc main_arg7) : S384x128.Idx → EReal)) := by
  funext mm u o
  unfold t3 wx1 mat
  rw [V15_eq]
  exact tapRows_apply 0 _ _ _ _ _ mm u o ⟨0 + u.val, by omega⟩ rfl ⟨u.val * 3 + mm.val, by omega⟩ (by show u.val * 3 + mm.val = (0 + u.val) * 3 + mm.val; omega)

/-- The array of `main_v17` at region entry: the host's reshape, narrowing, slice and transpose of argument 7. -/
theorem V17_eq (c : Dev nD) :
    (V m c main_v17 : S3x64x128.Idx → EReal)
      = transpose S3x64x128 [1, 0, 2] (extractStridedSlice S64x3x128 ![64, 0, 0] (truncf (F := Ideal) .bf16 (shapeCast S128x3x128 (m ((c : Thread nD τ).loc main_arg7) : S384x128.Idx → EReal) shapeCasts_S384x128_S128x3x128) bitsLt_bf16_f32) slices_S128x3x128_S64x3x128_64_0_0) transposes_S64x3x128_S3x64x128_1_0_2 := by
  dsimp only [Gen.V, Gen.hostOps0]
  after_results
  rfl

theorem t3_V17 (c : Dev nD) : t3 (V m c main_v17 : S3x64x128.Idx → EReal) = wh1 (mat (m ((c : Thread nD τ).loc main_arg7) : S384x128.Idx → EReal)) := by
  funext mm u o
  unfold t3 wh1 mat
  rw [V17_eq]
  exact tapRows_apply 64 _ _ _ _ _ mm u o ⟨64 + u.val, by omega⟩ rfl ⟨(64 + u.val) * 3 + mm.val, by omega⟩ (by show (64 + u.val) * 3 + mm.val = (64 + u.val) * 3 + mm.val; omega)

/-- The array of `main_v21` at region entry: the host's reshape, narrowing, slice and transpose of argument 9. -/
theorem V21_eq (c : Dev nD) :
    (V m c main_v21 : S3x64x64.Idx → EReal)
      = transpose S3x64x64 [1, 0, 2] (extractStridedSlice S64x3x64 ![0, 0, 0] (truncf (F := Ideal) .bf16 (shapeCast S128x3x64 (m ((c : Thread nD τ).loc main_arg9) : S384x64.Idx → EReal) shapeCasts_S384x64_S128x3x64) bitsLt_bf16_f32) slices_S128x3x64_S64x3x64_0_0_0) transposes_S64x3x64_S3x64x64_1_0_2 := by
  dsimp only [Gen.V, Gen.hostOps0]
  after_results
  rfl

theorem t3_V21 (c : Dev nD) : t3 (V m c main_v21 : S3x64x64.Idx → EReal) = wx1 (mat (m ((c : Thread nD τ).loc main_arg9) : S384x64.Idx → EReal)) := by
  funext mm u o
  unfold t3 wx1 mat
  rw [V21_eq]
  exact tapRows_apply 0 _ _ _ _ _ mm u o ⟨0 + u.val, by omega⟩ rfl ⟨u.val * 3 + mm.val, by omega⟩ (by show u.val * 3 + mm.val = (0 + u.val) * 3 + mm.val; omega)

/-- The array of `main_v23` at region entry: the host's reshape, narrowing, slice and transpose of argument 9. -/
theorem V23_eq (c : Dev nD) :
    (V m c main_v23 : S3x64x64.Idx → EReal)
      = transpose S3x64x64 [1, 0, 2] (extractStridedSlice S64x3x64 ![64, 0, 0] (truncf (F := Ideal) .bf16 (shapeCast S128x3x64 (m ((c : Thread nD τ).loc main_arg9) : S384x64.Idx → EReal) shapeCasts_S384x64_S128x3x64) bitsLt_bf16_f32) slices_S128x3x64_S64x3x64_64_0_0) transposes_S64x3x64_S3x64x64_1_0_2 := by
  dsimp only [Gen.V, Gen.hostOps0]
  after_results
  rfl

theorem t3_V23 (c : Dev nD) : t3 (V m c main_v23 : S3x64x64.Idx → EReal) = wh1 (mat (m ((c : Thread nD τ).loc main_arg9) : S384x64.Idx → EReal)) := by
  funext mm u o
  unfold t3 wh1 mat
  rw [V23_eq]
  exact tapRows_apply 64 _ _ _ _ _ mm u o ⟨64 + u.val, by omega⟩ rfl ⟨(64 + u.val) * 3 + mm.val, by omega⟩ (by show (64 + u.val) * 3 + mm.val = (64 + u.val) * 3 + mm.val; omega)

theorem V24_apply (c : Dev nD) (u : Fin 64) :
    (V m c main_v24 : S1x64.Idx → EReal) (ix2 0 u) = (m ((c : Thread nD τ).loc main_arg11) : S64x1.Idx → EReal) (ix2 u 0) := by
  have e : (V m c main_v24 : S1x64.Idx → EReal) = transpose S1x64 [1, 0] (m ((c : Thread nD τ).loc main_arg11) : S64x1.Idx → EReal) transposes_S64x1_S1x64_1_0 := by
    dsimp only [Gen.V, Gen.hostOps0]
    after_results
  rw [e]
  refine transpose_apply _ _ _ (ix2 0 u) (ix2 u 0) (fun b => ?_)
  match b with
  | ⟨0, _⟩ => rfl
  | ⟨1, _⟩ => rfl

/-! ## The whole-array windows: the block at every point is the array -/

theorem idx_zero1 : ∀ t : Fin cfg0.N, ∀ a : Fin 2, win0_1.index t a = 0 :=
  (by decide +kernel : ∀ t : Fin grid0.N, _)

theorem iblk1_eq (c : Dev nD) (t : Fin cfg0.N) :
    (iblk m c 1 t : Vec Ideal S512x512 .f32) = (m ((c : Thread nD τ).loc main_arg1) : S512x512.Idx → EReal) := by
  have e := idx_zero1 t
  funext j
  unfold iblk
  rw [View.read_apply]
  show V m c main_arg1 _ = _
  rw [V_main_arg1]
  congr 1
  funext a
  apply Fin.ext
  match a with
  | ⟨0, _⟩ => show win0_1.index t 0 * 512 + 1 * (j 0).val = (j 0).val; rw [e 0]; omega
  | ⟨1, _⟩ => show win0_1.index t 1 * 512 + 1 * (j 1).val = (j 1).val; rw [e 1]; omega

theorem idx_zero3 : ∀ t : Fin cfg0.N, ∀ a : Fin 3, win0_3.index t a = 0 :=
  (by decide +kernel : ∀ t : Fin grid0.N, _)

theorem iblk3_eq (c : Dev nD) (t : Fin cfg0.N) :
    (iblk m c 3 t : Vec Ideal S3x1x128 .bf16) = (V m c main_v3 : S3x1x128.Idx → EReal) := by
  have e := idx_zero3 t
  funext j
  unfold iblk
  rw [View.read_apply]
  show V m c main_v3 _ = _

  congr 1
  funext a
  apply Fin.ext
  match a with
  | ⟨0, _⟩ => show win0_3.index t 0 * 3 + 1 * (j 0).val = (j 0).val; rw [e 0]; omega
  | ⟨1, _⟩ => show win0_3.index t 1 * 1 + 1 * (j 1).val = (j 1).val; rw [e 1]; omega
  | ⟨2, _⟩ => show win0_3.index t 2 * 128 + 1 * (j 2).val = (j 2).val; rw [e 2]; omega

theorem idx_zero4 : ∀ t : Fin cfg0.N, ∀ a : Fin 3, win0_4.index t a = 0 :=
  (by decide +kernel : ∀ t : Fin grid0.N, _)

theorem iblk4_eq (c : Dev nD) (t : Fin cfg0.N) :
    (iblk m c 4 t : Vec Ideal S3x64x128 .bf16) = (V m c main_v5 : S3x64x128.Idx → EReal) := by
  have e := idx_zero4 t
  funext j
  unfold iblk
  rw [View.read_apply]
  show V m c main_v5 _ = _

  congr 1
  funext a
  apply Fin.ext
  match a with
  | ⟨0, _⟩ => show win0_4.index t 0 * 3 + 1 * (j 0).val = (j 0).val; rw [e 0]; omega
  | ⟨1, _⟩ => show win0_4.index t 1 * 64 + 1 * (j 1).val = (j 1).val; rw [e 1]; omega
  | ⟨2, _⟩ => show win0_4.index t 2 * 128 + 1 * (j 2).val = (j 2).val; rw [e 2]; omega

theorem idx_zero5 : ∀ t : Fin cfg0.N, ∀ a : Fin 3, win0_5.index t a = 0 :=
  (by decide +kernel : ∀ t : Fin grid0.N, _)

theorem iblk5_eq (c : Dev nD) (t : Fin cfg0.N) :
    (iblk m c 5 t : Vec Ideal S3x1x64 .bf16) = (V m c main_v9 : S3x1x64.Idx → EReal) := by
  have e := idx_zero5 t
  funext j
  unfold iblk
  rw [View.read_apply]
  show V m c main_v9 _ = _

  congr 1
  funext a
  apply Fin.ext
  match a with
  | ⟨0, _⟩ => show win0_5.index t 0 * 3 + 1 * (j 0).val = (j 0).val; rw [e 0]; omega
  | ⟨1, _⟩ => show win0_5.index t 1 * 1 + 1 * (j 1).val = (j 1).val; rw [e 1]; omega
  | ⟨2, _⟩ => show win0_5.index t 2 * 64 + 1 * (j 2).val = (j 2).val; rw [e 2]; omega

theorem idx_zero6 : ∀ t : Fin cfg0.N, ∀ a : Fin 3, win0_6.index t a = 0 :=
  (by decide +kernel : ∀ t : Fin grid0.N, _)

theorem iblk6_eq (c : Dev nD) (t : Fin cfg0.N) :
    (iblk m c 6 t : Vec Ideal S3x64x64 .bf16) = (V m c main_v11 : S3x64x64.Idx → EReal) := by
  have e := idx_zero6 t
  funext j
  unfold iblk
  rw [View.read_apply]
  show V m c main_v11 _ = _

  congr 1
  funext a
  apply Fin.ext
  match a with
  | ⟨0, _⟩ => show win0_6.index t 0 * 3 + 1 * (j 0).val = (j 0).val; rw [e 0]; omega
  | ⟨1, _⟩ => show win0_6.index t 1 * 64 + 1 * (j 1).val = (j 1).val; rw [e 1]; omega
  | ⟨2, _⟩ => show win0_6.index t 2 * 64 + 1 * (j 2).val = (j 2).val; rw [e 2]; omega

theorem idx_zero7 : ∀ t : Fin cfg0.N, ∀ a : Fin 1, win0_7.index t a = 0 :=
  (by decide +kernel : ∀ t : Fin grid0.N, _)

theorem iblk7_eq (c : Dev nD) (t : Fin cfg0.N) :
    (iblk m c 7 t : Vec Ideal S128 .f32) = (m ((c : Thread nD τ).loc main_arg4) : S128.Idx → EReal) := by
  have e := idx_zero7 t
  funext j
  unfold iblk
  rw [View.read_apply]
  show V m c main_arg4 _ = _
  rw [V_main_arg4]
  congr 1
  funext a
  apply Fin.ext
  match a with
  | ⟨0, _⟩ => show win0_7.index t 0 * 128 + 1 * (j 0).val = (j 0).val; rw [e 0]; omega

theorem idx_zero8 : ∀ t : Fin cfg0.N, ∀ a : Fin 1, win0_8.index t a = 0 :=
  (by decide +kernel : ∀ t : Fin grid0.N, _)

theorem iblk8_eq (c : Dev nD) (t : Fin cfg0.N) :
    (iblk m c 8 t : Vec Ideal S64 .f32) = (m ((c : Thread nD τ).loc main_arg6) : S64.Idx → EReal) := by
  have e := idx_zero8 t
  funext j
  unfold iblk
  rw [View.read_apply]
  show V m c main_arg6 _ = _
  rw [V_main_arg6]
  congr 1
  funext a
  apply Fin.ext
  match a with
  | ⟨0, _⟩ => show win0_8.index t 0 * 64 + 1 * (j 0).val = (j 0).val; rw [e 0]; omega

theorem idx_zero9 : ∀ t : Fin cfg0.N, ∀ a : Fin 3, win0_9.index t a = 0 :=
  (by decide +kernel : ∀ t : Fin grid0.N, _)

theorem iblk9_eq (c : Dev nD) (t : Fin cfg0.N) :
    (iblk m c 9 t : Vec Ideal S3x64x128 .bf16) = (V m c main_v15 : S3x64x128.Idx → EReal) := by
  have e := idx_zero9 t
  funext j
  unfold iblk
  rw [View.read_apply]
  show V m c main_v15 _ = _

  congr 1
  funext a
  apply Fin.ext
  match a with
  | ⟨0, _⟩ => show win0_9.index t 0 * 3 + 1 * (j 0).val = (j 0).val; rw [e 0]; omega
  | ⟨1, _⟩ => show win0_9.index t 1 * 64 + 1 * (j 1).val = (j 1).val; rw [e 1]; omega
  | ⟨2, _⟩ => show win0_9.index t 2 * 128 + 1 * (j 2).val = (j 2).val; rw [e 2]; omega

theorem idx_zero10 : ∀ t : Fin cfg0.N, ∀ a : Fin 3, win0_10.index t a = 0 :=
  (by decide +kernel : ∀ t : Fin grid0.N, _)

theorem iblk10_eq (c : Dev nD) (t : Fin cfg0.N) :
    (iblk m c 10 t : Vec Ideal S3x64x128 .bf16) = (V m c main_v17 : S3x64x128.Idx → EReal) := by
  have e := idx_zero10 t
  funext j
  unfold iblk
  rw [View.read_apply]
  show V m c main_v17 _ = _

  congr 1
  funext a
  apply Fin.ext
  match a with
  | ⟨0, _⟩ => show win0_10.index t 0 * 3 + 1 * (j 0).val = (j 0).val; rw [e 0]; omega
  | ⟨1, _⟩ => show win0_10.index t 1 * 64 + 1 * (j 1).val = (j 1).val; rw [e 1]; omega
  | ⟨2, _⟩ => show win0_10.index t 2 * 128 + 1 * (j 2).val = (j 2).val; rw [e 2]; omega

theorem idx_zero11 : ∀ t : Fin cfg0.N, ∀ a : Fin 3, win0_11.index t a = 0 :=
  (by decide +kernel : ∀ t : Fin grid0.N, _)

theorem iblk11_eq (c : Dev nD) (t : Fin cfg0.N) :
    (iblk m c 11 t : Vec Ideal S3x64x64 .bf16) = (V m c main_v21 : S3x64x64.Idx → EReal) := by
  have e := idx_zero11 t
  funext j
  unfold iblk
  rw [View.read_apply]
  show V m c main_v21 _ = _

  congr 1
  funext a
  apply Fin.ext
  match a with
  | ⟨0, _⟩ => show win0_11.index t 0 * 3 + 1 * (j 0).val = (j 0).val; rw [e 0]; omega
  | ⟨1, _⟩ => show win0_11.index t 1 * 64 + 1 * (j 1).val = (j 1).val; rw [e 1]; omega
  | ⟨2, _⟩ => show win0_11.index t 2 * 64 + 1 * (j 2).val = (j 2).val; rw [e 2]; omega

theorem idx_zero12 : ∀ t : Fin cfg0.N, ∀ a : Fin 3, win0_12.index t a = 0 :=
  (by decide +kernel : ∀ t : Fin grid0.N, _)

theorem iblk12_eq (c : Dev nD) (t : Fin cfg0.N) :
    (iblk m c 12 t : Vec Ideal S3x64x64 .bf16) = (V m c main_v23 : S3x64x64.Idx → EReal) := by
  have e := idx_zero12 t
  funext j
  unfold iblk
  rw [View.read_apply]
  show V m c main_v23 _ = _

  congr 1
  funext a
  apply Fin.ext
  match a with
  | ⟨0, _⟩ => show win0_12.index t 0 * 3 + 1 * (j 0).val = (j 0).val; rw [e 0]; omega
  | ⟨1, _⟩ => show win0_12.index t 1 * 64 + 1 * (j 1).val = (j 1).val; rw [e 1]; omega
  | ⟨2, _⟩ => show win0_12.index t 2 * 64 + 1 * (j 2).val = (j 2).val; rw [e 2]; omega

theorem idx_zero13 : ∀ t : Fin cfg0.N, ∀ a : Fin 1, win0_13.index t a = 0 :=
  (by decide +kernel : ∀ t : Fin grid0.N, _)

theorem iblk13_eq (c : Dev nD) (t : Fin cfg0.N) :
    (iblk m c 13 t : Vec Ideal S128 .f32) = (m ((c : Thread nD τ).loc main_arg8) : S128.Idx → EReal) := by
  have e := idx_zero13 t
  funext j
  unfold iblk
  rw [View.read_apply]
  show V m c main_arg8 _ = _
  rw [V_main_arg8]
  congr 1
  funext a
  apply Fin.ext
  match a with
  | ⟨0, _⟩ => show win0_13.index t 0 * 128 + 1 * (j 0).val = (j 0).val; rw [e 0]; omega

theorem idx_zero14 : ∀ t : Fin cfg0.N, ∀ a : Fin 1, win0_14.index t a = 0 :=
  (by decide +kernel : ∀ t : Fin grid0.N, _)

theorem iblk14_eq (c : Dev nD) (t : Fin cfg0.N) :
    (iblk m c 14 t : Vec Ideal S64 .f32) = (m ((c : Thread nD τ).loc main_arg10) : S64.Idx → EReal) := by
  have e := idx_zero14 t
  funext j
  unfold iblk
  rw [View.read_apply]
  show V m c main_arg10 _ = _
  rw [V_main_arg10]
  congr 1
  funext a
  apply Fin.ext
  match a with
  | ⟨0, _⟩ => show win0_14.index t 0 * 64 + 1 * (j 0).val = (j 0).val; rw [e 0]; omega

theorem idx_zero15 : ∀ t : Fin cfg0.N, ∀ a : Fin 2, win0_15.index t a = 0 :=
  (by decide +kernel : ∀ t : Fin grid0.N, _)

theorem iblk15_eq (c : Dev nD) (t : Fin cfg0.N) :
    (iblk m c 15 t : Vec Ideal S1x64 .f32) = (V m c main_v24 : S1x64.Idx → EReal) := by
  have e := idx_zero15 t
  funext j
  unfold iblk
  rw [View.read_apply]
  show V m c main_v24 _ = _

  congr 1
  funext a
  apply Fin.ext
  match a with
  | ⟨0, _⟩ => show win0_15.index t 0 * 1 + 1 * (j 0).val = (j 0).val; rw [e 0]; omega
  | ⟨1, _⟩ => show win0_15.index t 1 * 64 + 1 * (j 1).val = (j 1).val; rw [e 1]; omega

theorem idx_zero16 : ∀ t : Fin cfg0.N, ∀ a : Fin 1, win0_16.index t a = 0 :=
  (by decide +kernel : ∀ t : Fin grid0.N, _)

theorem iblk16_eq (c : Dev nD) (t : Fin cfg0.N) :
    (iblk m c 16 t : Vec Ideal S1 .f32) = (m ((c : Thread nD τ).loc main_arg12) : S1.Idx → EReal) := by
  have e := idx_zero16 t
  funext j
  unfold iblk
  rw [View.read_apply]
  show V m c main_arg12 _ = _
  rw [V_main_arg12]
  congr 1
  funext a
  apply Fin.ext
  match a with
  | ⟨0, _⟩ => show win0_16.index t 0 * 1 + 1 * (j 0).val = (j 0).val; rw [e 0]; omega

/-! ## A chunk's cells are the model's cells of its batch elements -/

theorem bkh0_eq_of (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (a : Args) (B : Fin 32) (b : Fin 8)
    (hx : bx x0 b = xOf a.X B) (hh : bh x2 0 b = hOf a.H 0 B) (hA : x1 = a.A)
    (h3 : t1 x3 = wx0 (mat a.Wg0)) (h4 : t3 x4 = wh0 (mat a.Wg0)) (h5 : t1 x5 = wx0 (mat a.Wc0)) (h6 : t3 x6 = wh0 (mat a.Wc0))
    (h7 : x7 = a.bg0) (h8 : x8 = a.bc0) :
    bkh0 x0 x1 x2 x3 x4 x5 x6 x7 x8 b = h0K a B := by
  unfold bkh0 h0K cell0K
  rw [hx, hh, hA, h3, h4, h5, h6, h7, h8]

theorem bkh1_eq_of (x0 : Vec Ideal S8x512 .f32) (x1 : Vec Ideal S512x512 .f32) (x2 : Vec Ideal S2x8x32768 .f32) (x3 : Vec Ideal S3x1x128 .bf16) (x4 : Vec Ideal S3x64x128 .bf16) (x5 : Vec Ideal S3x1x64 .bf16) (x6 : Vec Ideal S3x64x64 .bf16) (x7 : Vec Ideal S128 .f32) (x8 : Vec Ideal S64 .f32) (x9 : Vec Ideal S3x64x128 .bf16) (x10 : Vec Ideal S3x64x128 .bf16) (x11 : Vec Ideal S3x64x64 .bf16) (x12 : Vec Ideal S3x64x64 .bf16) (x13 : Vec Ideal S128 .f32) (x14 : Vec Ideal S64 .f32) (a : Args) (B : Fin 32) (b : Fin 8)
    (h0 : bkh0 x0 x1 x2 x3 x4 x5 x6 x7 x8 b = h0K a B) (hh : bh x2 1 b = hOf a.H 1 B) (hA : x1 = a.A)
    (h9 : t3 x9 = wx1 (mat a.Wg1)) (h10 : t3 x10 = wh1 (mat a.Wg1)) (h11 : t3 x11 = wx1 (mat a.Wc1)) (h12 : t3 x12 = wh1 (mat a.Wc1))
    (h13 : x13 = a.bg1) (h14 : x14 = a.bc1) :
    bkh1 x0 x1 x2 x3 x4 x5 x6 x7 x8 x9 x10 x11 x12 x13 x14 b = h1K a B := by
  unfold bkh1 h1K cell1K
  rw [h0, hh, hA, h9, h10, h11, h12, h13, h14]

theorem bkh0_blk (c : Dev nD) (t : Fin cfg0.N) (b : Fin 8) :
    bkh0 (iblk m c 0 t) (iblk m c 1 t) (iblk m c 2 t) (iblk m c 3 t) (iblk m c 4 t) (iblk m c 5 t) (iblk m c 6 t) (iblk m c 7 t) (iblk m c 8 t) b = h0K (argsOf m c) (gbat (pt t) b) :=
  bkh0_eq_of _ _ _ _ _ _ _ _ _ (argsOf m c) (gbat (pt t) b) b
    (funext fun n => iblk0_apply m c t b n)
    (funext fun n => funext fun u => iblk2_apply m c t 0 b (flatIx n u))
    (iblk1_eq m c t)
    ((congrArg t1 (iblk3_eq m c t)).trans (t1_V3 m c))
    ((congrArg t3 (iblk4_eq m c t)).trans (t3_V5 m c))
    ((congrArg t1 (iblk5_eq m c t)).trans (t1_V9 m c))
    ((congrArg t3 (iblk6_eq m c t)).trans (t3_V11 m c))
    (iblk7_eq m c t) (iblk8_eq m c t)

theorem bkh1_blk (c : Dev nD) (t : Fin cfg0.N) (b : Fin 8) :
    bkh1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) b = h1K (argsOf m c) (gbat (pt t) b) :=
  bkh1_eq_of _ _ _ _ _ _ _ _ _ _ _ _ _ _ _ (argsOf m c) (gbat (pt t) b) b
    (bkh0_blk m c t b)
    (funext fun n => funext fun u => iblk2_apply m c t 1 b (flatIx n u))
    (iblk1_eq m c t)
    ((congrArg t3 (iblk9_eq m c t)).trans (t3_V15 m c))
    ((congrArg t3 (iblk10_eq m c t)).trans (t3_V17 m c))
    ((congrArg t3 (iblk11_eq m c t)).trans (t3_V21 m c))
    ((congrArg t3 (iblk12_eq m c t)).trans (t3_V23 m c))
    (iblk13_eq m c t) (iblk14_eq m c t)

/-! ## What a point writes back is its block of the model's results -/

/-- An element of output window 17's block at point `t` sits at batch row `8 t + b`. -/
theorem emb17 (t : Fin cfg0.N) (b : Fin 8) (n : Fin 512) :
    ((cfg0.win 17).blk t).view.emb (ix2 b n) = (ix2 (gbat (pt t) b) n : S32x512.Idx) := by
  obtain ⟨-, -, -, -, -, e0, e1, -⟩ := idx_facts t
  funext a
  apply Fin.ext
  match a with
  | ⟨0, _⟩ => show win0_17.index t 0 * 8 + 1 * b.val = t.val * 8 + b.val; rw [e0]; omega
  | ⟨1, _⟩ => show win0_17.index t 1 * 512 + 1 * n.val = n.val; rw [e1]; omega

theorem flushed17_pt (c : Dev nD) (t : Fin cfg0.N) (b : Fin 8) (n : Fin 512) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 b n)
      = outK (argsOf m c) (((cfg0.win 17).blk t).view.emb (ix2 b n)) := by
  rw [out17_apply, emb17, bkh1_blk]
  show proj _ _ _ n = proj (h1K (argsOf m c) (gbat (pt t) b)) (fun u => (argsOf m c).Wp (ix2 u 0)) ((argsOf m c).bp (ix1 0)) n
  have e15 : (fun u : Fin 64 => (iblk m c 15 t : Vec Ideal S1x64 .f32) (ix2 0 u)) = fun u => (argsOf m c).Wp (ix2 u 0) :=
    funext fun u => (congrFun (iblk15_eq m c t) (ix2 0 u)).trans (V24_apply m c u)
  have e16 : (iblk m c 16 t : Vec Ideal S1 .f32) (ix1 0) = (argsOf m c).bp (ix1 0) := congrFun (iblk16_eq m c t) (ix1 0)
  rw [e15, e16]

theorem flushed_eq17 (c : Dev nD) (t : Fin cfg0.N) :
    (dats m 0 c).flushed 17 t = ((cfg0.win 17).blk t).view.read (Elt Ideal) (outK (argsOf m c)) := by
  rw [Value.flushed17]
  funext j
  have hj : j = ix2 (j 0) (j 1) := eq_ix2 (n0 := 8) (n1 := 512) j
  rw [hj]
  exact flushed17_pt m c t (j 0) (j 1)

/-- The stacked hidden states read at a flat position `n · 64 + u`: layer 0's and layer 1's. -/
theorem hsK_apply0 (a : Args) (B : Fin 32) (n : Fin 512) (u : Fin 64) : hsK a (ix3 0 B (flatIx n u)) = h0K a B n u := by
  unfold hsK
  rw [if_pos (show ((ix3 (0 : Fin 2) B (flatIx n u)) 0).val = 0 from rfl)]
  refine congr (congrArg (h0K a B) (Fin.ext ?_)) (Fin.ext ?_)
  · show (n.val * 64 + u.val) / 64 = n.val; omega
  · show (n.val * 64 + u.val) % 64 = u.val; omega

theorem hsK_apply1 (a : Args) (B : Fin 32) (n : Fin 512) (u : Fin 64) : hsK a (ix3 1 B (flatIx n u)) = h1K a B n u := by
  unfold hsK
  rw [if_neg (show ¬ ((ix3 (1 : Fin 2) B (flatIx n u)) 0).val = 0 from by show ¬ (1 : Fin 2).val = 0; decide)]
  refine congr (congrArg (h1K a B) (Fin.ext ?_)) (Fin.ext ?_)
  · show (n.val * 64 + u.val) / 64 = n.val; omega
  · show (n.val * 64 + u.val) % 64 = u.val; omega

/-- An element of output window 18's block at point `t` sits at batch row `8 t + b` of its layer. -/
theorem emb18 (t : Fin cfg0.N) (l : Fin 2) (b : Fin 8) (f : Fin 32768) :
    ((cfg0.win 18).blk t).view.emb (ix3 l b f) = (ix3 l (gbat (pt t) b) f : S2x32x32768.Idx) := by
  obtain ⟨-, -, -, -, -, -, -, e0, e1, e2⟩ := idx_facts t
  funext a
  apply Fin.ext
  match a with
  | ⟨0, _⟩ => show win0_18.index t 0 * 2 + 1 * l.val = l.val; rw [e0]; omega
  | ⟨1, _⟩ => show win0_18.index t 1 * 8 + 1 * b.val = t.val * 8 + b.val; rw [e1]; omega
  | ⟨2, _⟩ => show win0_18.index t 2 * 32768 + 1 * f.val = f.val; rw [e2]; omega

theorem flushed18_pt (c : Dev nD) (t : Fin cfg0.N) (l : Fin 2) (b : Fin 8) (f : Fin 32768) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 l b f)
      = hsK (argsOf m c) (((cfg0.win 18).blk t).view.emb (ix3 l b f)) := by
  obtain ⟨n, u, rfl⟩ : ∃ (n : Fin 512) (u : Fin 64), f = flatIx n u :=
    ⟨⟨f.val / 64, by omega⟩, ⟨f.val % 64, Nat.mod_lt _ (by decide)⟩, Fin.ext (by show f.val = f.val / 64 * 64 + f.val % 64; omega)⟩
  rw [emb18]
  match l with
  | ⟨0, _⟩ =>
    show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 b (flatIx n u)) = hsK (argsOf m c) (ix3 0 (gbat (pt t) b) (flatIx n u))
    rw [out18_apply0, bkh0_blk, hsK_apply0]
  | ⟨1, _⟩ =>
    show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 1 b (flatIx n u)) = hsK (argsOf m c) (ix3 1 (gbat (pt t) b) (flatIx n u))
    rw [out18_apply1, bkh1_blk, hsK_apply1]

theorem flushed_eq18 (c : Dev nD) (t : Fin cfg0.N) :
    (dats m 0 c).flushed 18 t = ((cfg0.win 18).blk t).view.read (Elt Ideal) (hsK (argsOf m c)) := by
  rw [Value.flushed18]
  funext j
  have hj : j = ix3 (j 0) (j 1) (j 2) := eq_ix3 (n0 := 2) (n1 := 8) (n2 := 32768) j
  rw [hj]
  exact flushed18_pt m c t (j 0) (j 1) (j 2)

/-! ## The blocks tile the result arrays -/

theorem mem_blk17 (t : Fin cfg0.N) (i : S32x512.Idx) :
    i ∈ ((cfg0.win 17).blk t).view.set ↔ ∀ a : Fin 2, win0_17.index t a * S8x512.size a ≤ (i a).val ∧ (i a).val < win0_17.index t a * S8x512.size a + S8x512.size a := by
  show i ∈ ((View.whole main_v25_0).slice (win0_17.rect t)).set ↔ _
  rw [View.set_slice_whole, Rect.mem_set_unit]
  exact Iff.rfl

theorem mem_blk18 (t : Fin cfg0.N) (i : S2x32x32768.Idx) :
    i ∈ ((cfg0.win 18).blk t).view.set ↔ ∀ a : Fin 3, win0_18.index t a * S2x8x32768.size a ≤ (i a).val ∧ (i a).val < win0_18.index t a * S2x8x32768.size a + S2x8x32768.size a := by
  show i ∈ ((View.whole main_v25_1).slice (win0_18.rect t)).set ↔ _
  rw [View.set_slice_whole, Rect.mem_set_unit]
  exact Iff.rfl

/-- Batch row `B` of the projected output lies in the block of point `B / 8`. -/
theorem cover17 (i : S32x512.Idx) : ∃ t : Fin cfg0.N, (cfg0.win 17).flush t = true ∧ i ∈ ((cfg0.win 17).blk t).view.set := by
  have h0 : (i 0).val < 32 := (i 0).isLt
  have h1 : (i 1).val < 512 := (i 1).isLt
  let t : Fin cfg0.N := Fin.cast N_0.symm ⟨(i 0).val / 8, by omega⟩
  have ht : t.val = (i 0).val / 8 := rfl
  obtain ⟨-, -, -, -, -, e0, e1, -⟩ := idx_facts t
  refine ⟨t, flush0_17 t, ?_⟩
  rw [mem_blk17]
  intro a
  match a with
  | ⟨0, _⟩ => show win0_17.index t 0 * 8 ≤ (i 0).val ∧ (i 0).val < win0_17.index t 0 * 8 + 8; rw [e0, ht]; omega
  | ⟨1, _⟩ => show win0_17.index t 1 * 512 ≤ (i 1).val ∧ (i 1).val < win0_17.index t 1 * 512 + 512; rw [e1]; omega

theorem cover18 (i : S2x32x32768.Idx) : ∃ t : Fin cfg0.N, (cfg0.win 18).flush t = true ∧ i ∈ ((cfg0.win 18).blk t).view.set := by
  have h0 : (i 0).val < 2 := (i 0).isLt
  have h1 : (i 1).val < 32 := (i 1).isLt
  have h2 : (i 2).val < 32768 := (i 2).isLt
  let t : Fin cfg0.N := Fin.cast N_0.symm ⟨(i 1).val / 8, by omega⟩
  have ht : t.val = (i 1).val / 8 := rfl
  obtain ⟨-, -, -, -, -, -, -, e0, e1, e2⟩ := idx_facts t
  refine ⟨t, flush0_18 t, ?_⟩
  rw [mem_blk18]
  intro a
  match a with
  | ⟨0, _⟩ => show win0_18.index t 0 * 2 ≤ (i 0).val ∧ (i 0).val < win0_18.index t 0 * 2 + 2; rw [e0]; omega
  | ⟨1, _⟩ => show win0_18.index t 1 * 8 ≤ (i 1).val ∧ (i 1).val < win0_18.index t 1 * 8 + 8; rw [e1, ht]; omega
  | ⟨2, _⟩ => show win0_18.index t 2 * 32768 ≤ (i 2).val ∧ (i 2).val < win0_18.index t 2 * 32768 + 32768; rw [e2]; omega

/-- The result arrays after the run are the model's. -/
theorem final17 (c : Dev nD) : (dats m 0 c).arrAt 17 cfg0.N = outK (argsOf m c) :=
  (dats m 0 c).arrAt_eq_of_cover 17 (outK (argsOf m c)) (fun t _ => flushed_eq17 m c t) cover17

theorem final18 (c : Dev nD) : (dats m 0 c).arrAt 18 cfg0.N = hsK (argsOf m c) :=
  (dats m 0 c).arrAt_eq_of_cover 18 (hsK (argsOf m c)) (fun t _ => flushed_eq18 m c t) cover18

end Final

/-! ## The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25_0) = outK (argsOf m c)
      ∧ r.2.mem ((c : Thread nD τ).loc main_v25_1) = hsK (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (Final.final17 m c), (h c).2.1.trans (Final.final18 m c), (h c).2.2⟩)
    (Cert.KernelIdeal.Value.run_blocks m ρ)

end Cert.KernelIdeal.KV

end
-- ==== Proof.RLayer0.lean ====
/-
  Layer 0 of the reference, read at an index: in the reference's run, entry (B, n · 64 + u) of the first cell's result
  [32, 512 · 64] is the reference-form cell of batch element `B` at node `n`, unit `u`.
  The reference lays batch, node and feature out differently at every stage (features concatenated on the last axis,
  moved to [512, feature · 32 + B] for the adjacency products, the three taps stacked and moved to
  [B · 512 + n, feature · 3 + tap] for the one contraction with the weight matrix); each stage is read where the next needs it.
-/
import proofs.«103657_g44504451121623_cont_8to1_c_180_16_alg».proof.Proof.RunP
import proofs.«103657_g44504451121623_cont_8to1_c_180_16_alg».proof.Proof.Spec
import Idealize.ShloMosaic.Lib.Pipeline.Value
import Idealize.ShloMosaic.Lib.ValueLayout
import Idealize.ShloMosaic.PureOps.Ideal.Laws

noncomputable section

namespace Cert.ReferenceIdeal.RV

open Cert.ReferenceIdeal Cert.ReferenceIdeal.Gen Cert.ReferenceIdeal.ValueP Idealize.ShloMosaic Idealize.ShloMosaic.ValueIdx Idealize.ShloMosaic.StableHlo Cert.Dcgru
open Idealize.ShloMosaic.TcCoe Idealize.SL.Sem

/-- The model's arguments read off a valuation of the reference's buffers. -/
def argsV (V0 : Valuation τ sig (Elt Ideal)) : Cert.Dcgru.Args where
  X := V0 (Proc.devRef .tc main_arg0)
  A := V0 (Proc.devRef .tc main_arg1)
  H := V0 (Proc.devRef .tc main_arg2)
  Wg0 := V0 (Proc.devRef .tc main_arg3)
  bg0 := V0 (Proc.devRef .tc main_arg4)
  Wc0 := V0 (Proc.devRef .tc main_arg5)
  bc0 := V0 (Proc.devRef .tc main_arg6)
  Wg1 := V0 (Proc.devRef .tc main_arg7)
  bg1 := V0 (Proc.devRef .tc main_arg8)
  Wc1 := V0 (Proc.devRef .tc main_arg9)
  bc1 := V0 (Proc.devRef .tc main_arg10)
  Wp := V0 (Proc.devRef .tc main_arg11)
  bp := V0 (Proc.devRef .tc main_arg12)

open scoped BigOperators

namespace L0

/-- Column `f · 32 + B` of the node-major form [512, 65 · 32]: feature `f` of batch element `B`. -/
def colF (f : Fin 65) (B : Fin 32) : Fin 2080 := ⟨f.val * 32 + B.val, by omega⟩

/-- Layer 0's slice of the stacked hidden states [2, 32, 32768] as [32, 32768]: entry (B, j) is entry (0, B, j). -/
theorem hsel_apply (H : S2x32x32768.Idx → EReal) (B : Fin 32) (j : Fin 32768) :
    shapeCast S32x32768 (extractStridedSlice S1x32x32768 ![0, 0, 0] H slices_S2x32x32768_S1x32x32768_0_0_0)
      shapeCasts_S1x32x32768_S32x32768 (ix2 B j) = H (ix3 0 B j) := by
  refine (shapeCast_1ab_ab_apply _ _ B j).trans ?_
  refine extractStridedSlice_apply _ _ _ _ (ix3 0 B j) (fun a => ?_)
  match a with
  | ⟨0, _⟩ => rfl
  | ⟨1, _⟩ => exact (Nat.zero_add _).symm
  | ⟨2, _⟩ => exact (Nat.zero_add _).symm

/-- The input feature [32, 512] and a hidden state [32, 512 · 64] concatenated on the feature axis and moved to the node-major
    form [512, 65 · 32]: column (f, B) at node `k` is feature `f` of batch element `B` at node `k`. -/
theorem featL_apply (X : S32x512.Idx → EReal) (Hs : S32x32768.Idx → EReal) (k : Fin 512) (f : Fin 65) (B : Fin 32) :
    shapeCast S512x2080 (transpose S512x65x32 [1, 2, 0] (concatenate S32x512x65 2
      [⟨S32x512x1, shapeCast S32x512x1 X shapeCasts_S32x512_S32x512x1⟩,
       ⟨S32x512x64, shapeCast S32x512x64 Hs shapeCasts_S32x32768_S32x512x64⟩]
      concatenates_S32x512x1_S32x512x64_S32x512x65_d2) transposes_S32x512x65_S512x65x32_1_2_0)
      shapeCasts_S512x65x32_S512x2080 (ix2 k (colF f B))
    = feat0 (fun n => X (ix2 B n)) (fun n u => Hs (ix2 B (flatIx n u))) f k := by
  refine (shapeCast_apply _ _ _ (ix3 k f B) ?_).trans ?_
  · rw [Shape.rowMajor_val_three, Shape.rowMajor_val_two]
    show (k.val * 65 + f.val) * 32 + B.val = k.val * 2080 + (f.val * 32 + B.val)
    omega
  refine (transpose_apply _ _ _ _ (ix3 B k f) (fun b => ?_)).trans ?_
  · match b with
    | ⟨0, _⟩ => rfl
    | ⟨1, _⟩ => rfl
    | ⟨2, _⟩ => rfl
  unfold feat0
  by_cases hf : f.val = 0
  · rw [dif_pos hf]
    refine (concatenate_pair_apply_left (t := S32x512x65) (s₁ := S32x512x1) (s₂ := S32x512x64) 2 _ _ _ _ rfl (ix3 B k (0 : Fin 1)) (fun b => ?_)).trans ?_
    · match b with
      | ⟨0, _⟩ => rfl
      | ⟨1, _⟩ => rfl
      | ⟨2, _⟩ => exact hf.symm
    refine shapeCast_apply _ _ _ (ix2 B k) ?_
    rw [Shape.rowMajor_val_two, Shape.rowMajor_val_three]
    show B.val * 512 + k.val = (B.val * 512 + k.val) * 1 + 0
    omega
  · rw [dif_neg hf]
    refine (concatenate_pair_apply_right (t := S32x512x65) (s₁ := S32x512x1) (s₂ := S32x512x64) 2 _ _ _ _ rfl rfl (ix3 B k (⟨f.val - 1, by omega⟩ : Fin 64))
      (fun b hb => ?_) ?_).trans ?_
    · match b with
      | ⟨0, _⟩ => rfl
      | ⟨1, _⟩ => rfl
      | ⟨2, _⟩ => exact absurd rfl hb
    · show (f.val - 1) + 1 = f.val
      omega
    refine shapeCast_apply _ _ _ (ix2 B (flatIx k ⟨f.val - 1, by omega⟩)) ?_
    rw [Shape.rowMajor_val_two, Shape.rowMajor_val_three]
    show B.val * 32768 + (k.val * 64 + (f.val - 1)) = (B.val * 512 + k.val) * 64 + (f.val - 1)
    omega

/-! ### The adjacency product [512, 512] × [512, 2080] read at an index -/

/-- The operands' indices at result index `i` and contraction index `q`, axis by axis. -/
theorem lhsA_0 (i : S512x2080.Idx) (q : dot_S512x512_S512x2080_S512x2080_1_0_0_1_n_n.contr.Idx) :
    (dot_S512x512_S512x2080_S512x2080_1_0_0_1_n_n.lhsIdx i q 0).val = (i 0).val := by
  unfold DotDims.lhsIdx
  rw [dif_neg (show ¬(0 : Fin S512x512.rank) ∈ dot_S512x512_S512x2080_S512x2080_1_0_0_1_n_n.lhsBatch by decide),
    dif_pos (show (0 : Fin S512x512.rank) ∈ dot_S512x512_S512x2080_S512x2080_1_0_0_1_n_n.lhsNonContracting by decide)]
  rfl
theorem lhsA_1 (i : S512x2080.Idx) (q : dot_S512x512_S512x2080_S512x2080_1_0_0_1_n_n.contr.Idx) :
    (dot_S512x512_S512x2080_S512x2080_1_0_0_1_n_n.lhsIdx i q 1).val = (q ⟨0, by decide⟩).val :=
  dot_S512x512_S512x2080_S512x2080_1_0_0_1_n_n.lhsIdx_val_of_single rfl i q
theorem rhsA_0 (i : S512x2080.Idx) (q : dot_S512x512_S512x2080_S512x2080_1_0_0_1_n_n.contr.Idx) :
    (dot_S512x512_S512x2080_S512x2080_1_0_0_1_n_n.rhsIdx i q 0).val = (q ⟨0, by decide⟩).val :=
  dot_S512x512_S512x2080_S512x2080_1_0_0_1_n_n.rhsIdx_val_of_single rfl i q
theorem rhsA_1 (i : S512x2080.Idx) (q : dot_S512x512_S512x2080_S512x2080_1_0_0_1_n_n.contr.Idx) :
    (dot_S512x512_S512x2080_S512x2080_1_0_0_1_n_n.rhsIdx i q 1).val = (i 1).val := by
  unfold DotDims.rhsIdx
  rw [dif_neg (show ¬(1 : Fin S512x2080.rank) ∈ dot_S512x512_S512x2080_S512x2080_1_0_0_1_n_n.rhsBatch by decide),
    dif_pos (show (1 : Fin S512x2080.rank) ∈ dot_S512x512_S512x2080_S512x2080_1_0_0_1_n_n.rhsNonContracting by decide)]
  rfl

/-- The adjacency product at (n, c): the sum over the nodes. -/
theorem dotA_apply (A : FVec Ideal S512x512 .f32) (Z : FVec Ideal S512x2080 .f32) (n : Fin 512) (c : Fin 2080) :
    Host.dotGeneral dot_S512x512_S512x2080_S512x2080_1_0_0_1_n_n none A Z (ix2 n c)
      = ∑ k : Fin 512, A (ix2 n k) * Z (ix2 k c) := by
  simp only [Host.dotGeneral]
  rw [Ideal.dotGeneral_apply, ← Equiv.sum_comp (ValueIdx.contrEquiv1 dot_S512x512_S512x2080_S512x2080_1_0_0_1_n_n 512 rfl rfl).symm]
  refine Finset.sum_congr rfl fun k _ => ?_
  have hk := ValueIdx.contrEquiv1_symm_val dot_S512x512_S512x2080_S512x2080_1_0_0_1_n_n 512 rfl rfl k
  have el : dot_S512x512_S512x2080_S512x2080_1_0_0_1_n_n.lhsIdx (ix2 n c)
      ((ValueIdx.contrEquiv1 dot_S512x512_S512x2080_S512x2080_1_0_0_1_n_n 512 rfl rfl).symm k) = ix2 n k :=
    funext fun a => Fin.ext (by
      match a with
      | ⟨0, _⟩ => exact lhsA_0 _ _
      | ⟨1, _⟩ => exact (lhsA_1 _ _).trans hk)
  have er : dot_S512x512_S512x2080_S512x2080_1_0_0_1_n_n.rhsIdx (ix2 n c)
      ((ValueIdx.contrEquiv1 dot_S512x512_S512x2080_S512x2080_1_0_0_1_n_n 512 rfl rfl).symm k) = ix2 k c :=
    funext fun a => Fin.ext (by
      match a with
      | ⟨0, _⟩ => exact (rhsA_0 _ _).trans hk
      | ⟨1, _⟩ => exact rhsA_1 _ _)
  rw [el, er]

/-- A [512, 2080] matrix given a leading unit axis reads, at (0, n, c), the matrix at (n, c). -/
theorem lead_apply (Z : S512x2080.Idx → EReal) (n : Fin 512) (c : Fin 2080) :
    broadcastInDim S1x512x2080 ![1, 2] bcast_S512x2080_S1x512x2080_1_2 Z (ix3 (0 : Fin 1) n c) = Z (ix2 n c) := by
  refine broadcastInDim_apply _ _ _ _ (ix2 n c) (fun a => ?_)
  match a with
  | ⟨0, _⟩ => rfl
  | ⟨1, _⟩ => rfl

/-- The three stacked taps moved to the row form [B · 512 + n, feature · 3 + tap]: entry (B · 512 + n, j) is tap `j % 3`
    at node `n`, column (feature `j / 3`, batch element `B`). -/
theorem stackL_apply (Z0 Z1 Z2 : S512x2080.Idx → EReal) (B : Fin 32) (n : Fin 512) (j : Fin 195) :
    shapeCast S16384x195 (transpose S32x512x65x3 [3, 1, 2, 0] (shapeCast S3x512x65x32 (concatenate S3x512x2080 0
      [⟨S1x512x2080, broadcastInDim S1x512x2080 ![1, 2] bcast_S512x2080_S1x512x2080_1_2 Z0⟩,
       ⟨S1x512x2080, broadcastInDim S1x512x2080 ![1, 2] bcast_S512x2080_S1x512x2080_1_2 Z1⟩,
       ⟨S1x512x2080, broadcastInDim S1x512x2080 ![1, 2] bcast_S512x2080_S1x512x2080_1_2 Z2⟩]
      concatenates_S1x512x2080_S1x512x2080_S1x512x2080_S3x512x2080_d0) shapeCasts_S3x512x2080_S3x512x65x32)
      transposes_S3x512x65x32_S32x512x65x3_3_1_2_0) shapeCasts_S32x512x65x3_S16384x195 (ix2 (brow B n) j)
    = (if j.val % 3 = 0 then Z0 else if j.val % 3 = 1 then Z1 else Z2) (ix2 n (colF ⟨j.val / 3, by omega⟩ B)) := by
  have hm : j.val % 3 < 3 := Nat.mod_lt _ (by decide)
  have hf : j.val / 3 < 65 := by omega
  refine (shapeCast_apply _ _ _ (ix4 B n (⟨j.val / 3, hf⟩ : Fin 65) (⟨j.val % 3, hm⟩ : Fin 3)) ?_).trans ?_
  · rw [Shape.rowMajor_val_four, Shape.rowMajor_val_two]
    show ((B.val * 512 + n.val) * 65 + j.val / 3) * 3 + j.val % 3 = (B.val * 512 + n.val) * 195 + j.val
    omega
  refine (transpose_apply _ _ _ _ (ix4 (⟨j.val % 3, hm⟩ : Fin 3) n (⟨j.val / 3, hf⟩ : Fin 65) B) (fun b => ?_)).trans ?_
  · match b with
    | ⟨0, _⟩ => rfl
    | ⟨1, _⟩ => rfl
    | ⟨2, _⟩ => rfl
    | ⟨3, _⟩ => rfl
  refine (shapeCast_apply _ _ _ (ix3 (⟨j.val % 3, hm⟩ : Fin 3) n (colF ⟨j.val / 3, hf⟩ B)) ?_).trans ?_
  · rw [Shape.rowMajor_val_three, Shape.rowMajor_val_four]
    show (j.val % 3 * 512 + n.val) * 2080 + (j.val / 3 * 32 + B.val)
      = ((j.val % 3 * 512 + n.val) * 65 + j.val / 3) * 32 + B.val
    omega
  obtain h0 | h1 | h2 : j.val % 3 = 0 ∨ j.val % 3 = 1 ∨ j.val % 3 = 2 := by omega
  · rw [if_pos h0]
    refine (concatenate_apply_piece (t := S3x512x2080) 0 _ _ _ 0 (by show (0 : Nat) < 3; omega) S1x512x2080 _ rfl rfl 0 rfl
      (ix3 (0 : Fin 1) n (colF ⟨j.val / 3, hf⟩ B)) (fun b hb => ?_) ?_).trans (lead_apply _ _ _)
    · match b with
      | ⟨0, _⟩ => exact absurd rfl hb
      | ⟨1, _⟩ => rfl
      | ⟨2, _⟩ => rfl
    · show 0 + 0 = j.val % 3
      omega
  · rw [if_neg (by omega), if_pos h1]
    refine (concatenate_apply_piece (t := S3x512x2080) 0 _ _ _ 1 (by show (1 : Nat) < 3; omega) S1x512x2080 _ rfl rfl 1 rfl
      (ix3 (0 : Fin 1) n (colF ⟨j.val / 3, hf⟩ B)) (fun b hb => ?_) ?_).trans (lead_apply _ _ _)
    · match b with
      | ⟨0, _⟩ => exact absurd rfl hb
      | ⟨1, _⟩ => rfl
      | ⟨2, _⟩ => rfl
    · show 1 + 0 = j.val % 3
      omega
  · rw [if_neg (by omega), if_neg (by omega)]
    refine (concatenate_apply_piece (t := S3x512x2080) 0 _ _ _ 2 (by show (2 : Nat) < 3; omega) S1x512x2080 _ rfl rfl 2 rfl
      (ix3 (0 : Fin 1) n (colF ⟨j.val / 3, hf⟩ B)) (fun b hb => ?_) ?_).trans (lead_apply _ _ _)
    · match b with
      | ⟨0, _⟩ => exact absurd rfl hb
      | ⟨1, _⟩ => rfl
      | ⟨2, _⟩ => rfl
    · show 2 + 0 = j.val % 3
      omega

/-! ### The weight contraction [16384, 195] × [195, 128] read at an index -/

/-- The operands' indices at result index `i` and contraction index `q`, axis by axis. -/
theorem lhsG_0 (i : S16384x128.Idx) (q : dot_S16384x195_S195x128_S16384x128_1_0_0_1_n_n.contr.Idx) :
    (dot_S16384x195_S195x128_S16384x128_1_0_0_1_n_n.lhsIdx i q 0).val = (i 0).val := by
  unfold DotDims.lhsIdx
  rw [dif_neg (show ¬(0 : Fin S16384x195.rank) ∈ dot_S16384x195_S195x128_S16384x128_1_0_0_1_n_n.lhsBatch by decide),
    dif_pos (show (0 : Fin S16384x195.rank) ∈ dot_S16384x195_S195x128_S16384x128_1_0_0_1_n_n.lhsNonContracting by decide)]
  rfl
theorem lhsG_1 (i : S16384x128.Idx) (q : dot_S16384x195_S195x128_S16384x128_1_0_0_1_n_n.contr.Idx) :
    (dot_S16384x195_S195x128_S16384x128_1_0_0_1_n_n.lhsIdx i q 1).val = (q ⟨0, by decide⟩).val :=
  dot_S16384x195_S195x128_S16384x128_1_0_0_1_n_n.lhsIdx_val_of_single rfl i q
theorem rhsG_0 (i : S16384x128.Idx) (q : dot_S16384x195_S195x128_S16384x128_1_0_0_1_n_n.contr.Idx) :
    (dot_S16384x195_S195x128_S16384x128_1_0_0_1_n_n.rhsIdx i q 0).val = (q ⟨0, by decide⟩).val :=
  dot_S16384x195_S195x128_S16384x128_1_0_0_1_n_n.rhsIdx_val_of_single rfl i q
theorem rhsG_1 (i : S16384x128.Idx) (q : dot_S16384x195_S195x128_S16384x128_1_0_0_1_n_n.contr.Idx) :
    (dot_S16384x195_S195x128_S16384x128_1_0_0_1_n_n.rhsIdx i q 1).val = (i 1).val := by
  unfold DotDims.rhsIdx
  rw [dif_neg (show ¬(1 : Fin S195x128.rank) ∈ dot_S16384x195_S195x128_S16384x128_1_0_0_1_n_n.rhsBatch by decide),
    dif_pos (show (1 : Fin S195x128.rank) ∈ dot_S16384x195_S195x128_S16384x128_1_0_0_1_n_n.rhsNonContracting by decide)]
  rfl

/-- The weight contraction at (r, o): the sum over the 195 (feature, tap) rows. -/
theorem dotG_apply (M : FVec Ideal S16384x195 .f32) (W : FVec Ideal S195x128 .f32) (r : Fin 16384) (o : Fin 128) :
    Host.dotGeneral dot_S16384x195_S195x128_S16384x128_1_0_0_1_n_n none M W (ix2 r o)
      = ∑ j : Fin 195, M (ix2 r j) * W (ix2 j o) := by
  simp only [Host.dotGeneral]
  rw [Ideal.dotGeneral_apply, ← Equiv.sum_comp (ValueIdx.contrEquiv1 dot_S16384x195_S195x128_S16384x128_1_0_0_1_n_n 195 rfl rfl).symm]
  refine Finset.sum_congr rfl fun k _ => ?_
  have hk := ValueIdx.contrEquiv1_symm_val dot_S16384x195_S195x128_S16384x128_1_0_0_1_n_n 195 rfl rfl k
  have el : dot_S16384x195_S195x128_S16384x128_1_0_0_1_n_n.lhsIdx (ix2 r o)
      ((ValueIdx.contrEquiv1 dot_S16384x195_S195x128_S16384x128_1_0_0_1_n_n 195 rfl rfl).symm k) = ix2 r k :=
    funext fun a => Fin.ext (by
      match a with
      | ⟨0, _⟩ => exact lhsG_0 _ _
      | ⟨1, _⟩ => exact (lhsG_1 _ _).trans hk)
  have er : dot_S16384x195_S195x128_S16384x128_1_0_0_1_n_n.rhsIdx (ix2 r o)
      ((ValueIdx.contrEquiv1 dot_S16384x195_S195x128_S16384x128_1_0_0_1_n_n 195 rfl rfl).symm k) = ix2 k o :=
    funext fun a => Fin.ext (by
      match a with
      | ⟨0, _⟩ => exact (rhsG_0 _ _).trans hk
      | ⟨1, _⟩ => exact rhsG_1 _ _)
  rw [el, er]

/-! ### The weight contraction [16384, 195] × [195, 64] read at an index -/

/-- The operands' indices at result index `i` and contraction index `q`, axis by axis. -/
theorem lhsC_0 (i : S16384x64.Idx) (q : dot_S16384x195_S195x64_S16384x64_1_0_0_1_n_n.contr.Idx) :
    (dot_S16384x195_S195x64_S16384x64_1_0_0_1_n_n.lhsIdx i q 0).val = (i 0).val := by
  unfold DotDims.lhsIdx
  rw [dif_neg (show ¬(0 : Fin S16384x195.rank) ∈ dot_S16384x195_S195x64_S16384x64_1_0_0_1_n_n.lhsBatch by decide),
    dif_pos (show (0 : Fin S16384x195.rank) ∈ dot_S16384x195_S195x64_S16384x64_1_0_0_1_n_n.lhsNonContracting by decide)]
  rfl
theorem lhsC_1 (i : S16384x64.Idx) (q : dot_S16384x195_S195x64_S16384x64_1_0_0_1_n_n.contr.Idx) :
    (dot_S16384x195_S195x64_S16384x64_1_0_0_1_n_n.lhsIdx i q 1).val = (q ⟨0, by decide⟩).val :=
  dot_S16384x195_S195x64_S16384x64_1_0_0_1_n_n.lhsIdx_val_of_single rfl i q
theorem rhsC_0 (i : S16384x64.Idx) (q : dot_S16384x195_S195x64_S16384x64_1_0_0_1_n_n.contr.Idx) :
    (dot_S16384x195_S195x64_S16384x64_1_0_0_1_n_n.rhsIdx i q 0).val = (q ⟨0, by decide⟩).val :=
  dot_S16384x195_S195x64_S16384x64_1_0_0_1_n_n.rhsIdx_val_of_single rfl i q
theorem rhsC_1 (i : S16384x64.Idx) (q : dot_S16384x195_S195x64_S16384x64_1_0_0_1_n_n.contr.Idx) :
    (dot_S16384x195_S195x64_S16384x64_1_0_0_1_n_n.rhsIdx i q 1).val = (i 1).val := by
  unfold DotDims.rhsIdx
  rw [dif_neg (show ¬(1 : Fin S195x64.rank) ∈ dot_S16384x195_S195x64_S16384x64_1_0_0_1_n_n.rhsBatch by decide),
    dif_pos (show (1 : Fin S195x64.rank) ∈ dot_S16384x195_S195x64_S16384x64_1_0_0_1_n_n.rhsNonContracting by decide)]
  rfl

/-- The weight contraction at (r, o): the sum over the 195 (feature, tap) rows. -/
theorem dotC_apply (M : FVec Ideal S16384x195 .f32) (W : FVec Ideal S195x64 .f32) (r : Fin 16384) (o : Fin 64) :
    Host.dotGeneral dot_S16384x195_S195x64_S16384x64_1_0_0_1_n_n none M W (ix2 r o)
      = ∑ j : Fin 195, M (ix2 r j) * W (ix2 j o) := by
  simp only [Host.dotGeneral]
  rw [Ideal.dotGeneral_apply, ← Equiv.sum_comp (ValueIdx.contrEquiv1 dot_S16384x195_S195x64_S16384x64_1_0_0_1_n_n 195 rfl rfl).symm]
  refine Finset.sum_congr rfl fun k _ => ?_
  have hk := ValueIdx.contrEquiv1_symm_val dot_S16384x195_S195x64_S16384x64_1_0_0_1_n_n 195 rfl rfl k
  have el : dot_S16384x195_S195x64_S16384x64_1_0_0_1_n_n.lhsIdx (ix2 r o)
      ((ValueIdx.contrEquiv1 dot_S16384x195_S195x64_S16384x64_1_0_0_1_n_n 195 rfl rfl).symm k) = ix2 r k :=
    funext fun a => Fin.ext (by
      match a with
      | ⟨0, _⟩ => exact lhsC_0 _ _
      | ⟨1, _⟩ => exact (lhsC_1 _ _).trans hk)
  have er : dot_S16384x195_S195x64_S16384x64_1_0_0_1_n_n.rhsIdx (ix2 r o)
      ((ValueIdx.contrEquiv1 dot_S16384x195_S195x64_S16384x64_1_0_0_1_n_n 195 rfl rfl).symm k) = ix2 k o :=
    funext fun a => Fin.ext (by
      match a with
      | ⟨0, _⟩ => exact (rhsC_0 _ _).trans hk
      | ⟨1, _⟩ => exact rhsC_1 _ _)
  rw [el, er]

/-- The bias [128] spread over the 16384 rows reads, at (r, o), the bias at `o`. -/
theorem bias128_apply (b : S128.Idx → EReal) (r : Fin 16384) (o : Fin 128) :
    broadcastInDim S16384x128 ![0, 1] bcast_S1x128_S16384x128_0_1 (broadcastInDim S1x128 ![1] bcast_S128_S1x128_1 b) (ix2 r o)
      = b (ix1 o) := by
  refine (broadcastInDim_apply _ _ _ _ (ix2 (0 : Fin 1) o) (fun a => ?_)).trans ?_
  · match a with
    | ⟨0, _⟩ => rfl
    | ⟨1, _⟩ => rfl
  refine broadcastInDim_apply _ _ _ _ (ix1 o) (fun a => ?_)
  match a with
  | ⟨0, _⟩ => rfl

/-- The bias [64] spread over the 16384 rows reads, at (r, o), the bias at `o`. -/
theorem bias64_apply (b : S64.Idx → EReal) (r : Fin 16384) (o : Fin 64) :
    broadcastInDim S16384x64 ![0, 1] bcast_S1x64_S16384x64_0_1 (broadcastInDim S1x64 ![1] bcast_S64_S1x64_1 b) (ix2 r o)
      = b (ix1 o) := by
  refine (broadcastInDim_apply _ _ _ _ (ix2 (0 : Fin 1) o) (fun a => ?_)).trans ?_
  · match a with
    | ⟨0, _⟩ => rfl
    | ⟨1, _⟩ => rfl
  refine broadcastInDim_apply _ _ _ _ (ix1 o) (fun a => ?_)
  match a with
  | ⟨0, _⟩ => rfl

/-- A literal spread over [512, 2080] reads the literal's value everywhere. -/
theorem splat_S512x2080_apply (w : BitVec 32) (i : S512x2080.Idx) :
    broadcastInDim S512x2080 ![] bcast_S_S512x2080 (constant (F := Ideal) S_ .f32 w) i = Ideal.ofBits .f32 w := by
  refine (broadcastInDim_apply _ _ _ _ ix0 (fun a => a.elim0)).trans ?_
  rfl

/-- A literal spread over [32, 65536] reads the literal's value everywhere. -/
theorem splat_S32x65536_apply (w : BitVec 32) (i : S32x65536.Idx) :
    broadcastInDim S32x65536 ![] bcast_S_S32x65536 (constant (F := Ideal) S_ .f32 w) i = Ideal.ofBits .f32 w := by
  refine (broadcastInDim_apply _ _ _ _ ix0 (fun a => a.elim0)).trans ?_
  rfl

/-- A literal spread over [32, 32768] reads the literal's value everywhere. -/
theorem splat_S32x32768_apply (w : BitVec 32) (i : S32x32768.Idx) :
    broadcastInDim S32x32768 ![] bcast_S_S32x32768 (constant (F := Ideal) S_ .f32 w) i = Ideal.ofBits .f32 w := by
  refine (broadcastInDim_apply _ _ _ _ ix0 (fun a => a.elim0)).trans ?_
  rfl

/-! ### The elementwise host operations at an index -/

theorem hdivf_apply {s : Shape} (a b : FVec Ideal s .f32) (i : s.Idx) : Host.divf a b i = Ideal.div (a i) (b i) := rfl
theorem hexp_apply {s : Shape} (a : FVec Ideal s .f32) (i : s.Idx) : Host.exp a i = Ideal.exp (a i) := rfl
theorem hnegf_apply {s : Shape} (a : FVec Ideal s .f32) (i : s.Idx) : Host.negf a i = -(a i) := rfl
theorem htanh_apply {s : Shape} (a : FVec Ideal s .f32) (i : s.Idx) : Host.tanh a i = Ideal.tanh (a i) := rfl

/-! ### The taps of one feature signal -/

theorem tapR_zero (A : Fin 512 → Fin 512 → EReal) (m : Fin 3) (z : Fin 512 → EReal) (h : m.val = 0) : tapR A m z = z := by
  unfold tapR; rw [if_pos h]
theorem tapR_one (A : Fin 512 → Fin 512 → EReal) (m : Fin 3) (z : Fin 512 → EReal) (h : m.val = 1) : tapR A m z = d1 A z := by
  unfold tapR; rw [if_neg (by omega), if_pos h]
theorem tapR_two (A : Fin 512 → Fin 512 → EReal) (m : Fin 3) (z : Fin 512 → EReal) (h : m.val = 2) : tapR A m z = d2R A z := by
  unfold tapR; rw [if_neg (by omega), if_neg (by omega)]

/-- When column (f, B) of `Z0` is the feature signal `feat f`, the same column of the adjacency product is its first diffusion. -/
theorem d1L_apply (A : FVec Ideal S512x512 .f32) (Z0 : FVec Ideal S512x2080 .f32) (feat : Fin 65 → Fin 512 → EReal) (B : Fin 32)
    (hZ : ∀ (k : Fin 512) (f : Fin 65), Z0 (ix2 k (colF f B)) = feat f k) (n : Fin 512) (f : Fin 65) :
    Host.dotGeneral dot_S512x512_S512x2080_S512x2080_1_0_0_1_n_n none A Z0 (ix2 n (colF f B)) = d1 (mat A) (feat f) n := by
  rw [dotA_apply]
  unfold d1
  refine Finset.sum_congr rfl fun k _ => ?_
  rw [hZ k f]
  rfl

/-- … and the same column of the third stacked tap is its second diffusion, the product scaled. -/
theorem d2L_apply (A : FVec Ideal S512x512 .f32) (Z0 : FVec Ideal S512x2080 .f32) (feat : Fin 65 → Fin 512 → EReal) (B : Fin 32)
    (hZ : ∀ (k : Fin 512) (f : Fin 65), Z0 (ix2 k (colF f B)) = feat f k) (n : Fin 512) (f : Fin 65) :
    (subf (mulf (broadcastInDim S512x2080 ![] bcast_S_S512x2080 (constant (F := Ideal) S_ .f32 0x40000000#32)) (Host.dotGeneral dot_S512x512_S512x2080_S512x2080_1_0_0_1_n_n none A (Host.dotGeneral dot_S512x512_S512x2080_S512x2080_1_0_0_1_n_n none A Z0))) Z0) (ix2 n (colF f B)) = d2R (mat A) (feat f) n := by
  rw [subf_apply, mulf_apply, splat_S512x2080_apply, dotA_apply, hZ n f]
  unfold d2R
  refine congrArg (fun t => two * t - feat f n) ?_
  refine Finset.sum_congr rfl fun k _ => ?_
  rw [d1L_apply A Z0 feat B hZ k f]
  rfl

/-- The row form of the three stacked taps: entry (B · 512 + n, j) is tap `j % 3` of feature `j / 3` at node `n`. -/
theorem rowL_apply (A : FVec Ideal S512x512 .f32) (Z0 : FVec Ideal S512x2080 .f32) (feat : Fin 65 → Fin 512 → EReal) (B : Fin 32)
    (hZ : ∀ (k : Fin 512) (f : Fin 65), Z0 (ix2 k (colF f B)) = feat f k) (n : Fin 512) (j : Fin 195) :
    shapeCast S16384x195 (transpose S32x512x65x3 [3, 1, 2, 0] (shapeCast S3x512x65x32 (concatenate S3x512x2080 0
      [⟨S1x512x2080, broadcastInDim S1x512x2080 ![1, 2] bcast_S512x2080_S1x512x2080_1_2 Z0⟩,
       ⟨S1x512x2080, broadcastInDim S1x512x2080 ![1, 2] bcast_S512x2080_S1x512x2080_1_2 (Host.dotGeneral dot_S512x512_S512x2080_S512x2080_1_0_0_1_n_n none A Z0)⟩,
       ⟨S1x512x2080, broadcastInDim S1x512x2080 ![1, 2] bcast_S512x2080_S1x512x2080_1_2 (subf (mulf (broadcastInDim S512x2080 ![] bcast_S_S512x2080 (constant (F := Ideal) S_ .f32 0x40000000#32)) (Host.dotGeneral dot_S512x512_S512x2080_S512x2080_1_0_0_1_n_n none A (Host.dotGeneral dot_S512x512_S512x2080_S512x2080_1_0_0_1_n_n none A Z0))) Z0)⟩]
      concatenates_S1x512x2080_S1x512x2080_S1x512x2080_S3x512x2080_d0) shapeCasts_S3x512x2080_S3x512x65x32)
      transposes_S3x512x65x32_S32x512x65x3_3_1_2_0) shapeCasts_S32x512x65x3_S16384x195 (ix2 (brow B n) j)
    = tapR (mat A) ⟨j.val % 3, Nat.mod_lt _ (by decide)⟩ (feat ⟨j.val / 3, by omega⟩) n := by
  rw [stackL_apply]
  obtain h0 | h1 | h2 : j.val % 3 = 0 ∨ j.val % 3 = 1 ∨ j.val % 3 = 2 := by omega
  · rw [if_pos h0, tapR_zero _ _ _ h0]
    exact hZ n _
  · rw [if_neg (by omega), if_pos h1, tapR_one _ _ _ h1]
    exact d1L_apply A Z0 feat B hZ n _
  · rw [if_neg (by omega), if_neg (by omega), tapR_two _ _ _ h2]
    exact d2L_apply A Z0 feat B hZ n _

/-- The gate block's graph convolution before its activation, at row B · 512 + n. -/
theorem preG_apply (A : FVec Ideal S512x512 .f32) (Z0 : FVec Ideal S512x2080 .f32) (W : FVec Ideal S195x128 .f32) (b : FVec Ideal S128 .f32)
    (feat : Fin 65 → Fin 512 → EReal) (B : Fin 32)
    (hZ : ∀ (k : Fin 512) (f : Fin 65), Z0 (ix2 k (colF f B)) = feat f k) (n : Fin 512) (o : Fin 128) :
    addf (Host.dotGeneral dot_S16384x195_S195x128_S16384x128_1_0_0_1_n_n none (shapeCast S16384x195 (transpose S32x512x65x3 [3, 1, 2, 0] (shapeCast S3x512x65x32 (concatenate S3x512x2080 0
      [⟨S1x512x2080, broadcastInDim S1x512x2080 ![1, 2] bcast_S512x2080_S1x512x2080_1_2 Z0⟩,
       ⟨S1x512x2080, broadcastInDim S1x512x2080 ![1, 2] bcast_S512x2080_S1x512x2080_1_2 (Host.dotGeneral dot_S512x512_S512x2080_S512x2080_1_0_0_1_n_n none A Z0)⟩,
       ⟨S1x512x2080, broadcastInDim S1x512x2080 ![1, 2] bcast_S512x2080_S1x512x2080_1_2 (subf (mulf (broadcastInDim S512x2080 ![] bcast_S_S512x2080 (constant (F := Ideal) S_ .f32 0x40000000#32)) (Host.dotGeneral dot_S512x512_S512x2080_S512x2080_1_0_0_1_n_n none A (Host.dotGeneral dot_S512x512_S512x2080_S512x2080_1_0_0_1_n_n none A Z0))) Z0)⟩]
      concatenates_S1x512x2080_S1x512x2080_S1x512x2080_S3x512x2080_d0) shapeCasts_S3x512x2080_S3x512x65x32)
      transposes_S3x512x65x32_S32x512x65x3_3_1_2_0) shapeCasts_S32x512x65x3_S16384x195) W)
      (broadcastInDim S16384x128 ![0, 1] bcast_S1x128_S16384x128_0_1 (broadcastInDim S1x128 ![1] bcast_S128_S1x128_1 b)) (ix2 (brow B n) o)
    = preR0 (mat A) feat (mat W) (vec b) n o := by
  rw [addf_apply, dotG_apply, bias128_apply]
  unfold preR0
  refine congrArg (fun t => t + vec b o) ?_
  refine Finset.sum_congr rfl fun j _ => ?_
  rw [rowL_apply A Z0 feat B hZ n j]
  rfl

/-- The candidate's graph convolution before its activation, at row B · 512 + n. -/
theorem preC_apply (A : FVec Ideal S512x512 .f32) (Z0 : FVec Ideal S512x2080 .f32) (W : FVec Ideal S195x64 .f32) (b : FVec Ideal S64 .f32)
    (feat : Fin 65 → Fin 512 → EReal) (B : Fin 32)
    (hZ : ∀ (k : Fin 512) (f : Fin 65), Z0 (ix2 k (colF f B)) = feat f k) (n : Fin 512) (o : Fin 64) :
    addf (Host.dotGeneral dot_S16384x195_S195x64_S16384x64_1_0_0_1_n_n none (shapeCast S16384x195 (transpose S32x512x65x3 [3, 1, 2, 0] (shapeCast S3x512x65x32 (concatenate S3x512x2080 0
      [⟨S1x512x2080, broadcastInDim S1x512x2080 ![1, 2] bcast_S512x2080_S1x512x2080_1_2 Z0⟩,
       ⟨S1x512x2080, broadcastInDim S1x512x2080 ![1, 2] bcast_S512x2080_S1x512x2080_1_2 (Host.dotGeneral dot_S512x512_S512x2080_S512x2080_1_0_0_1_n_n none A Z0)⟩,
       ⟨S1x512x2080, broadcastInDim S1x512x2080 ![1, 2] bcast_S512x2080_S1x512x2080_1_2 (subf (mulf (broadcastInDim S512x2080 ![] bcast_S_S512x2080 (constant (F := Ideal) S_ .f32 0x40000000#32)) (Host.dotGeneral dot_S512x512_S512x2080_S512x2080_1_0_0_1_n_n none A (Host.dotGeneral dot_S512x512_S512x2080_S512x2080_1_0_0_1_n_n none A Z0))) Z0)⟩]
      concatenates_S1x512x2080_S1x512x2080_S1x512x2080_S3x512x2080_d0) shapeCasts_S3x512x2080_S3x512x65x32)
      transposes_S3x512x65x32_S32x512x65x3_3_1_2_0) shapeCasts_S32x512x65x3_S16384x195) W)
      (broadcastInDim S16384x64 ![0, 1] bcast_S1x64_S16384x64_0_1 (broadcastInDim S1x64 ![1] bcast_S64_S1x64_1 b)) (ix2 (brow B n) o)
    = preR0 (mat A) feat (mat W) (vec b) n o := by
  rw [addf_apply, dotC_apply, bias64_apply]
  unfold preR0
  refine congrArg (fun t => t + vec b o) ?_
  refine Finset.sum_congr rfl fun j _ => ?_
  rw [rowL_apply A Z0 feat B hZ n j]
  rfl

/-- The spelt-out logistic over the gate block's pre-activation, moved from rows B · 512 + n to [32, 512, 128]. -/
theorem gateL_apply (P : FVec Ideal S16384x128 .f32) (B : Fin 32) (n : Fin 512) (o : Fin 128) :
    shapeCast S32x512x128 (Host.divf (broadcastInDim S32x65536 ![] bcast_S_S32x65536 (constant (F := Ideal) S_ .f32 0x3F800000#32))
      (addf (broadcastInDim S32x65536 ![] bcast_S_S32x65536 (constant (F := Ideal) S_ .f32 0x3F800000#32))
        (Host.exp (Host.negf (shapeCast S32x65536 P shapeCasts_S16384x128_S32x65536))))) shapeCasts_S32x65536_S32x512x128 (ix3 B n o)
    = sigR (P (ix2 (brow B n) o)) := by
  refine (shapeCast_apply _ _ _ (ix2 B (⟨n.val * 128 + o.val, by omega⟩ : Fin 65536)) ?_).trans ?_
  · rw [Shape.rowMajor_val_two, Shape.rowMajor_val_three]
    show B.val * 65536 + (n.val * 128 + o.val) = (B.val * 512 + n.val) * 128 + o.val
    omega
  rw [hdivf_apply, addf_apply, hexp_apply, hnegf_apply, splat_S32x65536_apply]
  rw [shapeCast_apply P shapeCasts_S16384x128_S32x65536 _ (ix2 (brow B n) o) (by
    rw [Shape.rowMajor_val_two, Shape.rowMajor_val_two]
    show (B.val * 512 + n.val) * 128 + o.val = B.val * 65536 + (n.val * 128 + o.val)
    omega)]
  rfl

/-- The update gate's columns (64–127) of a gate block, flattened to [32, 512 · 64]. -/
theorem gHiL_apply (G : FVec Ideal S32x512x128 .f32) (B : Fin 32) (n : Fin 512) (u : Fin 64) :
    shapeCast S32x32768 (extractStridedSlice S32x512x64 ![0, 0, 64] G slices_S32x512x128_S32x512x64_0_0_64)
      shapeCasts_S32x512x64_S32x32768 (ix2 B (flatIx n u)) = G (ix3 B n (gHi u)) := by
  refine (shapeCast_apply _ _ _ (ix3 B n u) ?_).trans ?_
  · rw [Shape.rowMajor_val_three, Shape.rowMajor_val_two]
    show (B.val * 512 + n.val) * 64 + u.val = B.val * 32768 + (n.val * 64 + u.val)
    omega
  refine extractStridedSlice_apply _ _ _ _ (ix3 B n (gHi u)) (fun a => ?_)
  match a with
  | ⟨0, _⟩ => exact (Nat.zero_add _).symm
  | ⟨1, _⟩ => exact (Nat.zero_add _).symm
  | ⟨2, _⟩ => rfl

/-- The reset gate's columns (0–63) of a gate block, flattened to [32, 512 · 64]. -/
theorem gLoL_apply (G : FVec Ideal S32x512x128 .f32) (B : Fin 32) (n : Fin 512) (u : Fin 64) :
    shapeCast S32x32768 (extractStridedSlice S32x512x64 ![0, 0, 0] G slices_S32x512x128_S32x512x64_0_0_0)
      shapeCasts_S32x512x64_S32x32768 (ix2 B (flatIx n u)) = G (ix3 B n (gLo u)) := by
  refine (shapeCast_apply _ _ _ (ix3 B n u) ?_).trans ?_
  · rw [Shape.rowMajor_val_three, Shape.rowMajor_val_two]
    show (B.val * 512 + n.val) * 64 + u.val = B.val * 32768 + (n.val * 64 + u.val)
    omega
  refine extractStridedSlice_apply _ _ _ _ (ix3 B n (gLo u)) (fun a => ?_)
  match a with
  | ⟨0, _⟩ => exact (Nat.zero_add _).symm
  | ⟨1, _⟩ => exact (Nat.zero_add _).symm
  | ⟨2, _⟩ => exact (Nat.zero_add _).symm

/-- The update u ⊙ h + (1 − u) ⊙ tanh(candidate), the candidate's pre-activation moved from rows B · 512 + n to [32, 512 · 64]. -/
theorem outL_apply (Ug Hc : FVec Ideal S32x32768 .f32) (P : FVec Ideal S16384x64 .f32) (B : Fin 32) (n : Fin 512) (u : Fin 64) :
    addf (mulf Ug Hc) (mulf (subf (broadcastInDim S32x32768 ![] bcast_S_S32x32768 (constant (F := Ideal) S_ .f32 0x3F800000#32)) Ug)
      (Host.tanh (shapeCast S32x32768 P shapeCasts_S16384x64_S32x32768))) (ix2 B (flatIx n u))
    = Ug (ix2 B (flatIx n u)) * Hc (ix2 B (flatIx n u))
      + (one - Ug (ix2 B (flatIx n u))) * Ideal.tanh (P (ix2 (brow B n) u)) := by
  rw [addf_apply, mulf_apply, mulf_apply, subf_apply, htanh_apply, splat_S32x32768_apply]
  rw [shapeCast_apply P shapeCasts_S16384x64_S32x32768 _ (ix2 (brow B n) u) (by
    rw [Shape.rowMajor_val_two, Shape.rowMajor_val_two]
    show (B.val * 512 + n.val) * 64 + u.val = B.val * 32768 + (n.val * 64 + u.val)
    omega)]

/-! ## The stages of layer 0 -/

/-- The gate block of batch element `B` in the reference's form: the spelt-out logistic of the graph convolution of the
    concatenated input feature and hidden state. -/
def gate0 (a : Cert.Dcgru.Args) (B : Fin 32) (n : Fin 512) (o : Fin 128) : EReal :=
  sigR (preR0 (mat a.A) (feat0 (xOf a.X B) (hOf a.H 0 B)) (mat a.Wg0) (vec a.bg0) n o)

/-- Layer 0's hidden state as [32, 512 · 64]. -/
theorem v1_apply (V0 : Valuation τ sig (Elt Ideal)) (B : Fin 32) (j : Fin 32768) :
    res_main_v1 (F := Ideal) V0 (ix2 B j) = (argsV V0).H (ix3 0 B j) := by
  unfold res_main_v1
  exact hsel_apply _ B j

/-- The concatenated features in node-major form: column (f, B) is feature `f` of batch element `B`. -/
theorem v6_apply (V0 : Valuation τ sig (Elt Ideal)) (k : Fin 512) (f : Fin 65) (B : Fin 32) :
    res_main_v6 (F := Ideal) V0 (ix2 k (colF f B)) = feat0 (xOf (argsV V0).X B) (hOf (argsV V0).H 0 B) f k := by
  unfold res_main_v6
  refine (featL_apply _ _ k f B).trans ?_
  refine congrArg (fun s => feat0 (xOf (argsV V0).X B) s f k) ?_
  funext n u
  exact v1_apply V0 B (flatIx n u)

/-- The gate block [32, 512, 128]. -/
theorem v30_apply (V0 : Valuation τ sig (Elt Ideal)) (B : Fin 32) (n : Fin 512) (o : Fin 128) :
    res_main_v30 (F := Ideal) V0 (ix3 B n o) = gate0 (argsV V0) B n o := by
  unfold res_main_v30 res_main_v7
  refine (gateL_apply _ B n o).trans ?_
  refine congrArg sigR ?_
  exact preG_apply _ _ _ _ _ B (fun k f => v6_apply V0 k f B) n o

/-- The update gate as [32, 512 · 64]. -/
theorem v34_apply (V0 : Valuation τ sig (Elt Ideal)) (B : Fin 32) (n : Fin 512) (u : Fin 64) :
    res_main_v34 (F := Ideal) V0 (ix2 B (flatIx n u)) = gate0 (argsV V0) B n (gHi u) := by
  unfold res_main_v34
  exact (gHiL_apply _ B n u).trans (v30_apply V0 B n (gHi u))

/-- The candidate's concatenated features in node-major form: the hidden features scaled by the reset gate. -/
theorem v40_apply (V0 : Valuation τ sig (Elt Ideal)) (k : Fin 512) (f : Fin 65) (B : Fin 32) :
    res_main_v40 (F := Ideal) V0 (ix2 k (colF f B))
      = feat0 (xOf (argsV V0).X B) (fun n' u' => gate0 (argsV V0) B n' (gLo u') * hOf (argsV V0).H 0 B n' u') f k := by
  unfold res_main_v40
  refine (featL_apply _ _ k f B).trans ?_
  refine congrArg (fun s => feat0 (xOf (argsV V0).X B) s f k) ?_
  funext n u
  refine (mulf_apply _ _ _).trans ?_
  rw [gLoL_apply, v30_apply, v1_apply]
  rfl

end L0

open L0

/-- Layer 0's new hidden state [32, 512 · 64]: entry (B, n · 64 + u) is the reference-form cell of batch element `B` at node `n`,
    unit `u`. -/
theorem v63_apply (V0 : Valuation τ sig (Elt Ideal)) (B : Fin 32) (n : Fin 512) (u : Fin 64) :
    res_main_v63 (F := Ideal) V0 (ix2 B (flatIx n u)) = h0R (argsV V0) B n u := by
  unfold res_main_v63 res_main_v41
  refine (outL_apply _ _ _ B n u).trans ?_
  rw [v34_apply, v1_apply,
    preC_apply _ _ _ _ _ B (fun k f => v40_apply V0 k f B) n u]
  rfl

end Cert.ReferenceIdeal.RV

end
-- ==== Proof.RLayer1.lean ====
/-
  Layer 1, the projection and the stacked states of the reference, read at an index, and the reference's run stated at
  the reference-form model of its argument arrays.
  Each stage of the reference's second cell is read where the next stage needs it: the concatenated features
  [input features, state] in node-major form (entry (k, f · 32 + B)), their two diffusion products, the three taps
  stacked and moved to row form (entry (B · 512 + n, f · 3 + m)), the one contraction with the weight matrix plus the
  bias, the spelt-out logistic and its two halves, the candidate with the reset state, and the update.
-/
import proofs.«103657_g44504451121623_cont_8to1_c_180_16_alg».proof.Proof.RLayer0
import Idealize.ShloMosaic.Lib.StackMember

noncomputable section

namespace Cert.ReferenceIdeal.RV

open Cert.ReferenceIdeal Cert.ReferenceIdeal.Gen Cert.ReferenceIdeal.ValueP Idealize.ShloMosaic Idealize.ShloMosaic.ValueIdx Idealize.ShloMosaic.StableHlo Cert.Dcgru
open Idealize.ShloMosaic.TcCoe Idealize.SL.Sem
open scoped BigOperators

namespace L1

/-- Column `f · 32 + B` of the node-major form [512, 128 · 32]: feature `f` of batch element `B`. -/
def col (f : Fin 128) (B : Fin 32) : Fin 4096 := ⟨f.val * 32 + B.val, by omega⟩
/-- Weight row `f · 3 + m`: feature `f`, tap `m`. -/
def wcol (f : Fin 128) (m : Fin 3) : Fin 384 := ⟨f.val * 3 + m.val, by omega⟩

/-- The adjacency product read at an index. -/
theorem dotA_apply (Aarr : FVec Ideal S512x512 .f32) (Z : FVec Ideal S512x4096 .f32) (n : Fin 512) (c : Fin 4096) :
    Host.dotGeneral dot_S512x512_S512x4096_S512x4096_1_0_0_1_n_n none Aarr Z (ix2 n c)
      = ∑ k : Fin 512, Aarr (ix2 n k) * Z (ix2 k c) :=
  StackMember.dotGeneral_plain_apply none Aarr Z n c

theorem dotWg_apply (M : FVec Ideal S16384x384 .f32) (W : FVec Ideal S384x128 .f32) (r : Fin 16384) (o : Fin 128) :
    Host.dotGeneral dot_S16384x384_S384x128_S16384x128_1_0_0_1_n_n none M W (ix2 r o)
      = ∑ j : Fin 384, M (ix2 r j) * W (ix2 j o) :=
  StackMember.dotGeneral_plain_apply none M W r o

theorem dotWc_apply (M : FVec Ideal S16384x384 .f32) (W : FVec Ideal S384x64 .f32) (r : Fin 16384) (o : Fin 64) :
    Host.dotGeneral dot_S16384x384_S384x64_S16384x64_1_0_0_1_n_n none M W (ix2 r o)
      = ∑ j : Fin 384, M (ix2 r j) * W (ix2 j o) :=
  StackMember.dotGeneral_plain_apply none M W r o

theorem dotWp_apply (M : FVec Ideal S16384x64 .f32) (W : FVec Ideal S64x1 .f32) (r : Fin 16384) (o : Fin 1) :
    Host.dotGeneral dot_S16384x64_S64x1_S16384x1_1_0_0_1_n_n none M W (ix2 r o)
      = ∑ j : Fin 64, M (ix2 r j) * W (ix2 j o) :=
  StackMember.dotGeneral_plain_apply none M W r o

/-- The concatenated features moved to node-major form: entry (k, f · 32 + B) is feature `f` of batch element `B` at node
    `k`, the first 64 features from `P`, the last 64 from `Q`. -/
theorem x0_apply (P Q : FVec Ideal S32x32768 .f32) (k : Fin 512) (f : Fin 128) (B : Fin 32) :
    shapeCast S512x4096 (transpose S512x128x32 [1, 2, 0] (concatenate S32x512x128 2
      [⟨S32x512x64, shapeCast S32x512x64 P shapeCasts_S32x32768_S32x512x64⟩,
       ⟨S32x512x64, shapeCast S32x512x64 Q shapeCasts_S32x32768_S32x512x64⟩]
      concatenates_S32x512x64_S32x512x64_S32x512x128_d2) transposes_S32x512x128_S512x128x32_1_2_0)
      shapeCasts_S512x128x32_S512x4096 (ix2 k (col f B))
    = if h : f.val < 64 then P (ix2 B (flatIx k ⟨f.val, h⟩)) else Q (ix2 B (flatIx k ⟨f.val - 64, by omega⟩)) := by
  refine (shapeCast_apply _ _ (ix2 k (col f B)) (ix3 k f B) ?_).trans ?_
  · rw [Shape.rowMajor_val_three, Shape.rowMajor_val_two]
    show (k.val * 128 + f.val) * 32 + B.val = k.val * 4096 + (f.val * 32 + B.val)
    omega
  refine (transpose_apply _ _ _ (ix3 k f B) (ix3 B k f) (fun b => by
    match b with
    | ⟨0, _⟩ => rfl
    | ⟨1, _⟩ => rfl
    | ⟨2, _⟩ => rfl)).trans ?_
  by_cases h : f.val < 64
  · rw [dif_pos h]
    refine (concatenate_pair_apply_left (t := S32x512x128) (s₁ := S32x512x64) (s₂ := S32x512x64) 2 _ _
      concatenates_S32x512x64_S32x512x64_S32x512x128_d2 (ix3 B k f) rfl (ix3 B k (⟨f.val, h⟩ : Fin 64)) (fun b => by
      match b with
      | ⟨0, _⟩ => rfl
      | ⟨1, _⟩ => rfl
      | ⟨2, _⟩ => rfl)).trans ?_
    refine shapeCast_apply _ _ _ (ix2 B (flatIx k ⟨f.val, h⟩)) ?_
    rw [Shape.rowMajor_val_three, Shape.rowMajor_val_two]
    show B.val * 32768 + (k.val * 64 + f.val) = (B.val * 512 + k.val) * 64 + f.val
    omega
  · rw [dif_neg h]
    have hf : f.val < 128 := f.isLt
    refine (concatenate_pair_apply_right (t := S32x512x128) (s₁ := S32x512x64) (s₂ := S32x512x64) 2 _ _
      concatenates_S32x512x64_S32x512x64_S32x512x128_d2 (ix3 B k f) rfl rfl (ix3 B k (⟨f.val - 64, by omega⟩ : Fin 64)) (fun b hb => by
      match b with
      | ⟨0, _⟩ => rfl
      | ⟨1, _⟩ => rfl
      | ⟨2, _⟩ => exact absurd rfl hb) (by show f.val - 64 + 64 = f.val; omega)).trans ?_
    refine shapeCast_apply _ _ _ (ix2 B (flatIx k ⟨f.val - 64, by omega⟩)) ?_
    rw [Shape.rowMajor_val_three, Shape.rowMajor_val_two]
    show B.val * 32768 + (k.val * 64 + (f.val - 64)) = (B.val * 512 + k.val) * 64 + (f.val - 64)
    omega

/-- Three pieces with a unit leading axis, stacked along it, read at (m, n, c): piece `m` at (0, n, c). -/
theorem cat3_pieces (Y0 Y1 Y2 : FVec Ideal S1x512x4096 .f32) (m : Fin 3) (n : Fin 512) (c : Fin 4096) :
    concatenate S3x512x4096 0 [⟨S1x512x4096, Y0⟩, ⟨S1x512x4096, Y1⟩, ⟨S1x512x4096, Y2⟩]
      concatenates_S1x512x4096_S1x512x4096_S1x512x4096_S3x512x4096_d0 (ix3 m n c)
    = if m.val = 0 then Y0 (ix3 (0 : Fin 1) n c) else if m.val = 1 then Y1 (ix3 (0 : Fin 1) n c) else Y2 (ix3 (0 : Fin 1) n c) := by
  match m with
  | ⟨0, _⟩ =>
    rw [if_pos rfl]
    exact concatenate_apply_piece (t := S3x512x4096) 0 [⟨S1x512x4096, Y0⟩, ⟨S1x512x4096, Y1⟩, ⟨S1x512x4096, Y2⟩]
      concatenates_S1x512x4096_S1x512x4096_S1x512x4096_S3x512x4096_d0 (ix3 _ n c) 0 (by simp) S1x512x4096 Y0 rfl rfl 0 rfl
      (ix3 (0 : Fin 1) n c) (fun b hb => by
        match b with
        | ⟨0, _⟩ => exact absurd rfl hb
        | ⟨1, _⟩ => rfl
        | ⟨2, _⟩ => rfl) rfl
  | ⟨1, _⟩ =>
    rw [if_neg (by simp), if_pos rfl]
    exact concatenate_apply_piece (t := S3x512x4096) 0 [⟨S1x512x4096, Y0⟩, ⟨S1x512x4096, Y1⟩, ⟨S1x512x4096, Y2⟩]
      concatenates_S1x512x4096_S1x512x4096_S1x512x4096_S3x512x4096_d0 (ix3 _ n c) 1 (by simp) S1x512x4096 Y1 rfl rfl 1 rfl
      (ix3 (0 : Fin 1) n c) (fun b hb => by
        match b with
        | ⟨0, _⟩ => exact absurd rfl hb
        | ⟨1, _⟩ => rfl
        | ⟨2, _⟩ => rfl) rfl
  | ⟨2, _⟩ =>
    rw [if_neg (by simp), if_neg (by simp)]
    exact concatenate_apply_piece (t := S3x512x4096) 0 [⟨S1x512x4096, Y0⟩, ⟨S1x512x4096, Y1⟩, ⟨S1x512x4096, Y2⟩]
      concatenates_S1x512x4096_S1x512x4096_S1x512x4096_S3x512x4096_d0 (ix3 _ n c) 2 (by simp) S1x512x4096 Y2 rfl rfl 2 rfl
      (ix3 (0 : Fin 1) n c) (fun b hb => by
        match b with
        | ⟨0, _⟩ => exact absurd rfl hb
        | ⟨1, _⟩ => rfl
        | ⟨2, _⟩ => rfl) rfl

/-- A matrix given a leading unit axis reads itself at (0, n, c). -/
theorem lead_apply (Z : FVec Ideal S512x4096 .f32) (n : Fin 512) (c : Fin 4096) :
    broadcastInDim S1x512x4096 ![1, 2] bcast_S512x4096_S1x512x4096_1_2 Z (ix3 (0 : Fin 1) n c) = Z (ix2 n c) :=
  broadcastInDim_apply _ _ _ _ (ix2 n c) (fun a => by
    match a with
    | ⟨0, _⟩ => rfl
    | ⟨1, _⟩ => rfl)

/-- The three stacked taps read at (m, n, c). -/
theorem cat3_apply (Z0 Z1 Z2 : FVec Ideal S512x4096 .f32) (m : Fin 3) (n : Fin 512) (c : Fin 4096) :
    concatenate S3x512x4096 0
      [⟨S1x512x4096, broadcastInDim S1x512x4096 ![1, 2] bcast_S512x4096_S1x512x4096_1_2 Z0⟩,
       ⟨S1x512x4096, broadcastInDim S1x512x4096 ![1, 2] bcast_S512x4096_S1x512x4096_1_2 Z1⟩,
       ⟨S1x512x4096, broadcastInDim S1x512x4096 ![1, 2] bcast_S512x4096_S1x512x4096_1_2 Z2⟩]
      concatenates_S1x512x4096_S1x512x4096_S1x512x4096_S3x512x4096_d0 (ix3 m n c)
    = if m.val = 0 then Z0 (ix2 n c) else if m.val = 1 then Z1 (ix2 n c) else Z2 (ix2 n c) := by
  rw [cat3_pieces, lead_apply, lead_apply, lead_apply]

/-- The stacked taps moved to row form: entry (B · 512 + n, f · 3 + m) is tap `m` of feature `f` of batch element `B` at node `n`. -/
theorem stk_apply (Z0 Z1 Z2 : FVec Ideal S512x4096 .f32) (B : Fin 32) (n : Fin 512) (f : Fin 128) (m : Fin 3) (j : Fin 384)
    (hj : j.val = f.val * 3 + m.val) :
    shapeCast S16384x384 (transpose S32x512x128x3 [3, 1, 2, 0] (shapeCast S3x512x128x32 (concatenate S3x512x4096 0
      [⟨S1x512x4096, broadcastInDim S1x512x4096 ![1, 2] bcast_S512x4096_S1x512x4096_1_2 Z0⟩,
       ⟨S1x512x4096, broadcastInDim S1x512x4096 ![1, 2] bcast_S512x4096_S1x512x4096_1_2 Z1⟩,
       ⟨S1x512x4096, broadcastInDim S1x512x4096 ![1, 2] bcast_S512x4096_S1x512x4096_1_2 Z2⟩]
      concatenates_S1x512x4096_S1x512x4096_S1x512x4096_S3x512x4096_d0) shapeCasts_S3x512x4096_S3x512x128x32)
      transposes_S3x512x128x32_S32x512x128x3_3_1_2_0) shapeCasts_S32x512x128x3_S16384x384 (ix2 (brow B n) j)
    = if m.val = 0 then Z0 (ix2 n (col f B)) else if m.val = 1 then Z1 (ix2 n (col f B)) else Z2 (ix2 n (col f B)) := by
  refine (shapeCast_apply _ _ (ix2 (brow B n) j) (ix4 B n f m) ?_).trans ?_
  · rw [Shape.rowMajor_val_four, Shape.rowMajor_val_two]
    show ((B.val * 512 + n.val) * 128 + f.val) * 3 + m.val = (B.val * 512 + n.val) * 384 + j.val
    omega
  refine (transpose_apply _ _ _ (ix4 B n f m) (ix4 m n f B) (fun b => by
    match b with
    | ⟨0, _⟩ => rfl
    | ⟨1, _⟩ => rfl
    | ⟨2, _⟩ => rfl
    | ⟨3, _⟩ => rfl)).trans ?_
  refine (shapeCast_apply _ _ (ix4 m n f B) (ix3 m n (col f B)) ?_).trans ?_
  · rw [Shape.rowMajor_val_four, Shape.rowMajor_val_three]
    show (m.val * 512 + n.val) * 4096 + (f.val * 32 + B.val) = ((m.val * 512 + n.val) * 128 + f.val) * 32 + B.val
    omega
  exact cat3_apply Z0 Z1 Z2 m n (col f B)

/-- A splat of a literal reads the literal everywhere. -/
theorem splat_apply {S : Shape} (w : BitVec 32) (h : S_.BroadcastsInDim S (![] : Fin 0 → Fin S.rank)) (i : S.Idx) :
    broadcastInDim S ![] h (constant (F := Ideal) S_ .f32 w) i = Ideal.ofBits .f32 w := rfl

/-- The three taps of the node-major features `Z`, in row form: entry (B · 512 + n, j) is tap `j % 3` of feature `j / 3`. -/
theorem taps_apply (Aarr : FVec Ideal S512x512 .f32) (Z : FVec Ideal S512x4096 .f32) (B : Fin 32) (n : Fin 512) (j : Fin 384) :
    shapeCast S16384x384 (transpose S32x512x128x3 [3, 1, 2, 0] (shapeCast S3x512x128x32 (concatenate S3x512x4096 0
      [⟨S1x512x4096, broadcastInDim S1x512x4096 ![1, 2] bcast_S512x4096_S1x512x4096_1_2 Z⟩,
       ⟨S1x512x4096, broadcastInDim S1x512x4096 ![1, 2] bcast_S512x4096_S1x512x4096_1_2
          (Host.dotGeneral dot_S512x512_S512x4096_S512x4096_1_0_0_1_n_n none Aarr Z)⟩,
       ⟨S1x512x4096, broadcastInDim S1x512x4096 ![1, 2] bcast_S512x4096_S1x512x4096_1_2
          (subf (mulf (broadcastInDim S512x4096 ![] bcast_S_S512x4096 (constant S_ .f32 0x40000000#32))
            (Host.dotGeneral dot_S512x512_S512x4096_S512x4096_1_0_0_1_n_n none Aarr
              (Host.dotGeneral dot_S512x512_S512x4096_S512x4096_1_0_0_1_n_n none Aarr Z))) Z)⟩]
      concatenates_S1x512x4096_S1x512x4096_S1x512x4096_S3x512x4096_d0) shapeCasts_S3x512x4096_S3x512x128x32)
      transposes_S3x512x128x32_S32x512x128x3_3_1_2_0) shapeCasts_S32x512x128x3_S16384x384 (ix2 (brow B n) j)
    = tapR (mat Aarr) ⟨j.val % 3, Nat.mod_lt _ (by decide)⟩ (fun k => Z (ix2 k (col ⟨j.val / 3, by omega⟩ B))) n := by
  refine (stk_apply _ _ _ B n ⟨j.val / 3, by omega⟩ ⟨j.val % 3, Nat.mod_lt _ (by decide)⟩ j (by show j.val = j.val / 3 * 3 + j.val % 3; omega)).trans ?_
  generalize (⟨j.val / 3, by omega⟩ : Fin 128) = f
  generalize (⟨j.val % 3, Nat.mod_lt _ (by decide)⟩ : Fin 3) = m
  unfold tapR
  by_cases h0 : m.val = 0
  · rw [if_pos h0, if_pos h0]
  · rw [if_neg h0, if_neg h0]
    by_cases h1 : m.val = 1
    · rw [if_pos h1, if_pos h1]
      exact dotA_apply Aarr Z n (col f B)
    · rw [if_neg h1, if_neg h1]
      show Ideal.ofBits .f32 0x40000000#32 * _ - Z (ix2 n (col f B)) = _
      rw [dotA_apply]
      unfold d2R d1
      refine congrArg (fun s => two * s - Z (ix2 n (col f B))) ?_
      refine Finset.sum_congr rfl fun k _ => ?_
      rw [dotA_apply]
      rfl

/-- A bias broadcast over the rows reads its entry at the column. -/
theorem biasG_apply (b : FVec Ideal S128 .f32) (r : Fin 16384) (o : Fin 128) :
    broadcastInDim S16384x128 ![0, 1] bcast_S1x128_S16384x128_0_1 (broadcastInDim S1x128 ![1] bcast_S128_S1x128_1 b) (ix2 r o)
      = b (ix1 o) := by
  refine (broadcastInDim_apply _ _ _ _ (ix2 (0 : Fin 1) o) (fun a => by
    match a with
    | ⟨0, _⟩ => rfl
    | ⟨1, _⟩ => rfl)).trans ?_
  exact broadcastInDim_apply _ _ _ _ (ix1 o) (fun a => by
    match a with
    | ⟨0, _⟩ => rfl)

theorem biasC_apply (b : FVec Ideal S64 .f32) (r : Fin 16384) (o : Fin 64) :
    broadcastInDim S16384x64 ![0, 1] bcast_S1x64_S16384x64_0_1 (broadcastInDim S1x64 ![1] bcast_S64_S1x64_1 b) (ix2 r o)
      = b (ix1 o) := by
  refine (broadcastInDim_apply _ _ _ _ (ix2 (0 : Fin 1) o) (fun a => by
    match a with
    | ⟨0, _⟩ => rfl
    | ⟨1, _⟩ => rfl)).trans ?_
  exact broadcastInDim_apply _ _ _ _ (ix1 o) (fun a => by
    match a with
    | ⟨0, _⟩ => rfl)

/-- The gate block's pre-activation (128 columns) at row B · 512 + n. -/
theorem preG_apply (Aarr : FVec Ideal S512x512 .f32) (Z : FVec Ideal S512x4096 .f32) (W : FVec Ideal S384x128 .f32)
    (b : FVec Ideal S128 .f32) (B : Fin 32) (n : Fin 512) (o : Fin 128) :
    addf (Host.dotGeneral dot_S16384x384_S384x128_S16384x128_1_0_0_1_n_n none
      (shapeCast S16384x384 (transpose S32x512x128x3 [3, 1, 2, 0] (shapeCast S3x512x128x32 (concatenate S3x512x4096 0
      [⟨S1x512x4096, broadcastInDim S1x512x4096 ![1, 2] bcast_S512x4096_S1x512x4096_1_2 Z⟩,
       ⟨S1x512x4096, broadcastInDim S1x512x4096 ![1, 2] bcast_S512x4096_S1x512x4096_1_2
          (Host.dotGeneral dot_S512x512_S512x4096_S512x4096_1_0_0_1_n_n none Aarr Z)⟩,
       ⟨S1x512x4096, broadcastInDim S1x512x4096 ![1, 2] bcast_S512x4096_S1x512x4096_1_2
          (subf (mulf (broadcastInDim S512x4096 ![] bcast_S_S512x4096 (constant S_ .f32 0x40000000#32))
            (Host.dotGeneral dot_S512x512_S512x4096_S512x4096_1_0_0_1_n_n none Aarr
              (Host.dotGeneral dot_S512x512_S512x4096_S512x4096_1_0_0_1_n_n none Aarr Z))) Z)⟩]
      concatenates_S1x512x4096_S1x512x4096_S1x512x4096_S3x512x4096_d0) shapeCasts_S3x512x4096_S3x512x128x32)
      transposes_S3x512x128x32_S32x512x128x3_3_1_2_0) shapeCasts_S32x512x128x3_S16384x384) W)
      (broadcastInDim S16384x128 ![0, 1] bcast_S1x128_S16384x128_0_1 (broadcastInDim S1x128 ![1] bcast_S128_S1x128_1 b))
      (ix2 (brow B n) o)
    = preR1 (mat Aarr) (fun f k => Z (ix2 k (col f B))) (mat W) (vec b) n o := by
  rw [addf_apply, dotWg_apply, biasG_apply]
  unfold preR1
  refine congrArg (· + b (ix1 o)) ?_
  refine Finset.sum_congr rfl fun j _ => ?_
  rw [taps_apply]
  rfl

/-- The candidate's pre-activation (64 columns) at row B · 512 + n. -/
theorem preC_apply (Aarr : FVec Ideal S512x512 .f32) (Z : FVec Ideal S512x4096 .f32) (W : FVec Ideal S384x64 .f32)
    (b : FVec Ideal S64 .f32) (B : Fin 32) (n : Fin 512) (o : Fin 64) :
    addf (Host.dotGeneral dot_S16384x384_S384x64_S16384x64_1_0_0_1_n_n none
      (shapeCast S16384x384 (transpose S32x512x128x3 [3, 1, 2, 0] (shapeCast S3x512x128x32 (concatenate S3x512x4096 0
      [⟨S1x512x4096, broadcastInDim S1x512x4096 ![1, 2] bcast_S512x4096_S1x512x4096_1_2 Z⟩,
       ⟨S1x512x4096, broadcastInDim S1x512x4096 ![1, 2] bcast_S512x4096_S1x512x4096_1_2
          (Host.dotGeneral dot_S512x512_S512x4096_S512x4096_1_0_0_1_n_n none Aarr Z)⟩,
       ⟨S1x512x4096, broadcastInDim S1x512x4096 ![1, 2] bcast_S512x4096_S1x512x4096_1_2
          (subf (mulf (broadcastInDim S512x4096 ![] bcast_S_S512x4096 (constant S_ .f32 0x40000000#32))
            (Host.dotGeneral dot_S512x512_S512x4096_S512x4096_1_0_0_1_n_n none Aarr
              (Host.dotGeneral dot_S512x512_S512x4096_S512x4096_1_0_0_1_n_n none Aarr Z))) Z)⟩]
      concatenates_S1x512x4096_S1x512x4096_S1x512x4096_S3x512x4096_d0) shapeCasts_S3x512x4096_S3x512x128x32)
      transposes_S3x512x128x32_S32x512x128x3_3_1_2_0) shapeCasts_S32x512x128x3_S16384x384) W)
      (broadcastInDim S16384x64 ![0, 1] bcast_S1x64_S16384x64_0_1 (broadcastInDim S1x64 ![1] bcast_S64_S1x64_1 b))
      (ix2 (brow B n) o)
    = preR1 (mat Aarr) (fun f k => Z (ix2 k (col f B))) (mat W) (vec b) n o := by
  rw [addf_apply, dotWc_apply, biasC_apply]
  unfold preR1
  refine congrArg (· + b (ix1 o)) ?_
  refine Finset.sum_congr rfl fun j _ => ?_
  rw [taps_apply]
  rfl

/-- The spelt-out logistic of a [16384, 128] block, in [32, 512, 128] form. -/
theorem gate_apply (G : FVec Ideal S16384x128 .f32) (B : Fin 32) (n : Fin 512) (o : Fin 128) :
    shapeCast S32x512x128 (Host.divf (broadcastInDim S32x65536 ![] bcast_S_S32x65536 (constant (F := Ideal) S_ .f32 0x3F800000#32))
      (addf (broadcastInDim S32x65536 ![] bcast_S_S32x65536 (constant (F := Ideal) S_ .f32 0x3F800000#32))
        (Host.exp (Host.negf (shapeCast S32x65536 G shapeCasts_S16384x128_S32x65536))))) shapeCasts_S32x65536_S32x512x128 (ix3 B n o)
    = sigR (G (ix2 (brow B n) o)) := by
  refine (shapeCast_apply _ _ (ix3 B n o) (ix2 B (⟨n.val * 128 + o.val, by omega⟩ : Fin 65536)) ?_).trans ?_
  · rw [Shape.rowMajor_val_three, Shape.rowMajor_val_two]
    show B.val * 65536 + (n.val * 128 + o.val) = (B.val * 512 + n.val) * 128 + o.val
    omega
  show sigR (shapeCast S32x65536 G shapeCasts_S16384x128_S32x65536 (ix2 B (⟨n.val * 128 + o.val, by omega⟩ : Fin 65536))) = _
  refine congrArg sigR (shapeCast_apply _ _ _ (ix2 (brow B n) o) ?_)
  rw [Shape.rowMajor_val_two, Shape.rowMajor_val_two]
  show (B.val * 512 + n.val) * 128 + o.val = B.val * 65536 + (n.val * 128 + o.val)
  omega

/-- The low half of a gate block, flattened: the reset gate. -/
theorem sliceLo_apply (Y : FVec Ideal S32x512x128 .f32) (B : Fin 32) (n : Fin 512) (u : Fin 64) :
    shapeCast S32x32768 (extractStridedSlice S32x512x64 ![0, 0, 0] Y slices_S32x512x128_S32x512x64_0_0_0)
      shapeCasts_S32x512x64_S32x32768 (ix2 B (flatIx n u)) = Y (ix3 B n (gLo u)) := by
  refine (shapeCast_apply _ _ (ix2 B (flatIx n u)) (ix3 B n u) ?_).trans ?_
  · rw [Shape.rowMajor_val_three, Shape.rowMajor_val_two]
    show (B.val * 512 + n.val) * 64 + u.val = B.val * 32768 + (n.val * 64 + u.val)
    omega
  exact extractStridedSlice_apply _ _ _ (ix3 B n u) (ix3 B n (gLo u)) (fun a => by
    match a with
    | ⟨0, _⟩ => exact (Nat.zero_add _).symm
    | ⟨1, _⟩ => exact (Nat.zero_add _).symm
    | ⟨2, _⟩ => exact (Nat.zero_add _).symm)

/-- The high half of a gate block, flattened: the update gate. -/
theorem sliceHi_apply (Y : FVec Ideal S32x512x128 .f32) (B : Fin 32) (n : Fin 512) (u : Fin 64) :
    shapeCast S32x32768 (extractStridedSlice S32x512x64 ![0, 0, 64] Y slices_S32x512x128_S32x512x64_0_0_64)
      shapeCasts_S32x512x64_S32x32768 (ix2 B (flatIx n u)) = Y (ix3 B n (gHi u)) := by
  refine (shapeCast_apply _ _ (ix2 B (flatIx n u)) (ix3 B n u) ?_).trans ?_
  · rw [Shape.rowMajor_val_three, Shape.rowMajor_val_two]
    show (B.val * 512 + n.val) * 64 + u.val = B.val * 32768 + (n.val * 64 + u.val)
    omega
  exact extractStridedSlice_apply _ _ _ (ix3 B n u) (ix3 B n (gHi u)) (fun a => by
    match a with
    | ⟨0, _⟩ => exact (Nat.zero_add _).symm
    | ⟨1, _⟩ => exact (Nat.zero_add _).symm
    | ⟨2, _⟩ => rfl)

/-- The hyperbolic tangent of a [16384, 64] block, flattened per batch element. -/
theorem cand_apply (G : FVec Ideal S16384x64 .f32) (B : Fin 32) (n : Fin 512) (u : Fin 64) :
    Host.tanh (shapeCast S32x32768 G shapeCasts_S16384x64_S32x32768) (ix2 B (flatIx n u)) = Ideal.tanh (G (ix2 (brow B n) u)) := by
  show Ideal.tanh (shapeCast S32x32768 G shapeCasts_S16384x64_S32x32768 (ix2 B (flatIx n u))) = _
  refine congrArg Ideal.tanh (shapeCast_apply _ _ _ (ix2 (brow B n) u) ?_)
  rw [Shape.rowMajor_val_two, Shape.rowMajor_val_two]
  show (B.val * 512 + n.val) * 64 + u.val = B.val * 32768 + (n.val * 64 + u.val)
  omega

/-- Layer `l`'s slice of the stacked hidden states, flattened. -/
theorem state1_apply (Hs : FVec Ideal S2x32x32768 .f32) (B : Fin 32) (j : Fin 32768) :
    shapeCast S32x32768 (extractStridedSlice S1x32x32768 ![1, 0, 0] Hs slices_S2x32x32768_S1x32x32768_1_0_0)
      shapeCasts_S1x32x32768_S32x32768 (ix2 B j) = Hs (ix3 (1 : Fin 2) B j) := by
  refine (shapeCast_apply _ _ (ix2 B j) (ix3 (0 : Fin 1) B j) ?_).trans ?_
  · rw [Shape.rowMajor_val_three, Shape.rowMajor_val_two]
    show (0 * 32 + B.val) * 32768 + j.val = B.val * 32768 + j.val
    omega
  exact extractStridedSlice_apply _ _ _ (ix3 (0 : Fin 1) B j) (ix3 (1 : Fin 2) B j) (fun a => by
    match a with
    | ⟨0, _⟩ => rfl
    | ⟨1, _⟩ => exact (Nat.zero_add _).symm
    | ⟨2, _⟩ => exact (Nat.zero_add _).symm)

/-- The GRU update read at an index. -/
theorem upd_apply (U Hh T : FVec Ideal S32x32768 .f32) (i : S32x32768.Idx) :
    addf (mulf U Hh) (mulf (subf (broadcastInDim S32x32768 ![] bcast_S_S32x32768 (constant (F := Ideal) S_ .f32 0x3F800000#32)) U) T) i
      = U i * Hh i + (one - U i) * T i := rfl

/-- The GRU update with its candidate, read at (B, n · 64 + u). -/
theorem upd_cand_apply (U Hh : FVec Ideal S32x32768 .f32) (G : FVec Ideal S16384x64 .f32) (B : Fin 32) (n : Fin 512) (u : Fin 64) :
    addf (mulf U Hh) (mulf (subf (broadcastInDim S32x32768 ![] bcast_S_S32x32768 (constant (F := Ideal) S_ .f32 0x3F800000#32)) U)
      (Host.tanh (shapeCast S32x32768 G shapeCasts_S16384x64_S32x32768))) (ix2 B (flatIx n u))
      = U (ix2 B (flatIx n u)) * Hh (ix2 B (flatIx n u)) + (one - U (ix2 B (flatIx n u))) * Ideal.tanh (G (ix2 (brow B n) u)) := by
  refine (upd_apply _ _ _ _).trans ?_
  rw [cand_apply]

theorem feat1_lo (xf s : Fin 512 → Fin 64 → EReal) (f : Fin 128) (k : Fin 512) (h : f.val < 64) :
    feat1 xf s f k = xf k ⟨f.val, h⟩ := by
  unfold feat1; rw [dif_pos h]
theorem feat1_hi (xf s : Fin 512 → Fin 64 → EReal) (f : Fin 128) (k : Fin 512) (h : ¬f.val < 64) :
    feat1 xf s f k = s k ⟨f.val - 64, by omega⟩ := by
  unfold feat1; rw [dif_neg h]

/-- The projection read at (B, n): the last layer's new state of batch element `B` at node `n` against the one weight column, plus the bias. -/
theorem out_apply (Y : FVec Ideal S32x32768 .f32) (Wp : FVec Ideal S64x1 .f32) (bp : FVec Ideal S1 .f32) (B : Fin 32) (n : Fin 512) :
    shapeCast S32x512 (addf (Host.dotGeneral dot_S16384x64_S64x1_S16384x1_1_0_0_1_n_n none
        (shapeCast S16384x64 Y shapeCasts_S32x32768_S16384x64) Wp)
      (broadcastInDim S16384x1 ![0, 1] bcast_S1x1_S16384x1_0_1 (broadcastInDim S1x1 ![1] bcast_S1_S1x1_1 bp)))
      shapeCasts_S16384x1_S32x512 (ix2 B n)
    = (∑ u : Fin 64, Y (ix2 B (flatIx n u)) * Wp (ix2 u (0 : Fin 1))) + bp (ix1 (0 : Fin 1)) := by
  refine (shapeCast_apply _ _ (ix2 B n) (ix2 (brow B n) (0 : Fin 1)) ?_).trans ?_
  · rw [Shape.rowMajor_val_two, Shape.rowMajor_val_two]
    show (B.val * 512 + n.val) * 1 + 0 = B.val * 512 + n.val
    omega
  rw [addf_apply, dotWp_apply]
  refine congrArg₂ (· + ·) ?_ ?_
  · refine Finset.sum_congr rfl fun u _ => ?_
    refine congrArg (· * Wp (ix2 u (0 : Fin 1))) (shapeCast_apply _ _ _ (ix2 B (flatIx n u)) ?_)
    rw [Shape.rowMajor_val_two, Shape.rowMajor_val_two]
    show B.val * 32768 + (n.val * 64 + u.val) = (B.val * 512 + n.val) * 64 + u.val
    omega
  · refine (broadcastInDim_apply _ _ _ _ (ix2 (0 : Fin 1) (0 : Fin 1)) (fun a => by
      match a with
      | ⟨0, _⟩ => rfl
      | ⟨1, _⟩ => rfl)).trans ?_
    exact broadcastInDim_apply _ _ _ _ (ix1 (0 : Fin 1)) (fun a => by
      match a with
      | ⟨0, _⟩ => rfl)

/-- A [32, 32768] array given a leading unit axis reads itself at (0, B, j). -/
theorem lead2_apply (Y : FVec Ideal S32x32768 .f32) (B : Fin 32) (j : Fin 32768) :
    broadcastInDim S1x32x32768 ![1, 2] bcast_S32x32768_S1x32x32768_1_2 Y (ix3 (0 : Fin 1) B j) = Y (ix2 B j) :=
  broadcastInDim_apply _ _ _ _ (ix2 B j) (fun a => by
    match a with
    | ⟨0, _⟩ => rfl
    | ⟨1, _⟩ => rfl)

/-- The two stacked states read at (l, B, j). -/
theorem hs_apply (Y0 Y1 : FVec Ideal S32x32768 .f32) (l : Fin 2) (B : Fin 32) (j : Fin 32768) :
    concatenate S2x32x32768 0
      [⟨S1x32x32768, broadcastInDim S1x32x32768 ![1, 2] bcast_S32x32768_S1x32x32768_1_2 Y0⟩,
       ⟨S1x32x32768, broadcastInDim S1x32x32768 ![1, 2] bcast_S32x32768_S1x32x32768_1_2 Y1⟩]
      concatenates_S1x32x32768_S1x32x32768_S2x32x32768_d0 (ix3 l B j)
    = if l.val = 0 then Y0 (ix2 B j) else Y1 (ix2 B j) := by
  match l with
  | ⟨0, _⟩ =>
    rw [if_pos rfl]
    refine (concatenate_pair_apply_left (t := S2x32x32768) (s₁ := S1x32x32768) (s₂ := S1x32x32768) 0 _ _
      concatenates_S1x32x32768_S1x32x32768_S2x32x32768_d0 (ix3 _ B j) rfl (ix3 (0 : Fin 1) B j) (fun b => by
        match b with
        | ⟨0, _⟩ => rfl
        | ⟨1, _⟩ => rfl
        | ⟨2, _⟩ => rfl)).trans ?_
    exact lead2_apply Y0 B j
  | ⟨1, _⟩ =>
    rw [if_neg (by simp)]
    refine (concatenate_pair_apply_right (t := S2x32x32768) (s₁ := S1x32x32768) (s₂ := S1x32x32768) 0 _ _
      concatenates_S1x32x32768_S1x32x32768_S2x32x32768_d0 (ix3 _ B j) rfl rfl (ix3 (0 : Fin 1) B j) (fun b hb => by
        match b with
        | ⟨0, _⟩ => exact absurd rfl hb
        | ⟨1, _⟩ => rfl
        | ⟨2, _⟩ => rfl) rfl).trans ?_
    exact lead2_apply Y1 B j

/-- A flat position is its node and unit. -/
theorem flat_split (j : Fin 32768) :
    j = flatIx ⟨j.val / 64, by have := j.isLt; omega⟩ ⟨j.val % 64, Nat.mod_lt _ (by decide)⟩ :=
  Fin.ext (by show j.val = j.val / 64 * 64 + j.val % 64; omega)

/-- The stacked reference-form states read at (l, B, j). -/
theorem hsR_ix3 (a : Args) (l : Fin 2) (B : Fin 32) (j : Fin 32768) :
    hsR a (ix3 l B j) = if l.val = 0 then h0R a B ⟨j.val / 64, by have := j.isLt; omega⟩ ⟨j.val % 64, Nat.mod_lt _ (by decide)⟩
      else h1R a B ⟨j.val / 64, by have := j.isLt; omega⟩ ⟨j.val % 64, Nat.mod_lt _ (by decide)⟩ := rfl

/-- The reference-form output read at (B, n). -/
theorem outR_ix2 (a : Args) (B : Fin 32) (n : Fin 512) :
    outR a (ix2 B n) = (∑ u : Fin 64, h1R a B n u * a.Wp (ix2 u (0 : Fin 1))) + a.bp (ix1 (0 : Fin 1)) := rfl

/-- Layer 1's gate block of batch element `B`: the spelt-out logistic of the reference-form pre-activation. -/
def g1 (a : Cert.Dcgru.Args) (B : Fin 32) (n : Fin 512) (o : Fin 128) : EReal :=
  sigR (preR1 (mat a.A) (feat1 (h0R a B) (hOf a.H 1 B)) (mat a.Wg1) (vec a.bg1) n o)

/-- Layer 1's hidden state, flattened: entry (B, j) of the second slice of the stacked states. -/
theorem v65_apply (V0 : Valuation τ sig (Elt Ideal)) (B : Fin 32) (j : Fin 32768) :
    res_main_v65 (F := Ideal) V0 (ix2 B j) = (argsV V0).H (ix3 (1 : Fin 2) B j) := by
  unfold res_main_v65
  exact state1_apply _ B j

/-- The concatenated features of layer 1 in node-major form. -/
theorem v70_apply (V0 : Valuation τ sig (Elt Ideal)) (k : Fin 512) (f : Fin 128) (B : Fin 32) :
    res_main_v70 (F := Ideal) V0 (ix2 k (col f B)) = feat1 (h0R (argsV V0) B) (hOf (argsV V0).H 1 B) f k := by
  unfold res_main_v70
  refine (x0_apply _ _ k f B).trans ?_
  by_cases h : f.val < 64
  · rw [dif_pos h, feat1_lo _ _ _ _ h]
    exact v63_apply V0 B k ⟨f.val, h⟩
  · rw [dif_neg h, feat1_hi _ _ _ _ h]
    exact v65_apply V0 B _

/-- The gate block in [32, 512, 128] form. -/
theorem v94_apply (V0 : Valuation τ sig (Elt Ideal)) (B : Fin 32) (n : Fin 512) (o : Fin 128) :
    res_main_v94 (F := Ideal) V0 (ix3 B n o) = g1 (argsV V0) B n o := by
  unfold res_main_v94 res_main_v71
  refine (gate_apply _ B n o).trans (congrArg sigR ?_)
  refine (preG_apply _ _ _ _ B n o).trans ?_
  refine congrArg (fun ft => preR1 (mat (argsV V0).A) ft (mat (argsV V0).Wg1) (vec (argsV V0).bg1) n o) ?_
  funext f k
  exact v70_apply V0 k f B

/-- The update gate, flattened. -/
theorem v98_apply (V0 : Valuation τ sig (Elt Ideal)) (B : Fin 32) (n : Fin 512) (u : Fin 64) :
    res_main_v98 (F := Ideal) V0 (ix2 B (flatIx n u)) = g1 (argsV V0) B n (gHi u) := by
  unfold res_main_v98
  exact (sliceHi_apply _ B n u).trans (v94_apply V0 B n (gHi u))

/-- The candidate's concatenated features in node-major form: the state reset by the reset gate. -/
theorem v104_apply (V0 : Valuation τ sig (Elt Ideal)) (k : Fin 512) (f : Fin 128) (B : Fin 32) :
    res_main_v104 (F := Ideal) V0 (ix2 k (col f B))
      = feat1 (h0R (argsV V0) B) (fun n' u' => g1 (argsV V0) B n' (gLo u') * hOf (argsV V0).H 1 B n' u') f k := by
  unfold res_main_v104
  refine (x0_apply _ _ k f B).trans ?_
  by_cases h : f.val < 64
  · rw [dif_pos h, feat1_lo _ _ _ _ h]
    exact v63_apply V0 B k ⟨f.val, h⟩
  · rw [dif_neg h, feat1_hi _ _ _ _ h, mulf_apply, sliceLo_apply, v94_apply, v65_apply]
    rfl

/-- The second cell's result, flattened: entry (B, n · 64 + u) is the reference-form cell of batch element `B`. -/
theorem v127_aux (V0 : Valuation τ sig (Elt Ideal)) (B : Fin 32) (n : Fin 512) (u : Fin 64) :
    res_main_v127 (F := Ideal) V0 (ix2 B (flatIx n u)) = h1R (argsV V0) B n u := by
  unfold res_main_v127 res_main_v105
  have hft : (fun (f : Fin 128) (k : Fin 512) => res_main_v104 (F := Ideal) V0 (ix2 k (col f B)))
      = feat1 (h0R (argsV V0) B) (fun n' u' => g1 (argsV V0) B n' (gLo u') * hOf (argsV V0).H 1 B n' u') := by
    funext f k
    exact v104_apply V0 k f B
  refine (upd_cand_apply _ _ _ B n u).trans ?_
  rw [v98_apply, v65_apply]
  refine (congrArg (fun t => g1 (argsV V0) B n (gHi u) * (argsV V0).H (ix3 (1 : Fin 2) B (flatIx n u))
    + (one - g1 (argsV V0) B n (gHi u)) * Ideal.tanh t) (preC_apply _ _ _ _ B n u)).trans ?_
  refine (congrArg (fun ft => g1 (argsV V0) B n (gHi u) * (argsV V0).H (ix3 (1 : Fin 2) B (flatIx n u))
    + (one - g1 (argsV V0) B n (gHi u)) * Ideal.tanh (preR1 (mat (argsV V0).A) ft (mat (argsV V0).Wc1) (vec (argsV V0).bc1) n u)) hft).trans ?_
  rfl

end L1

theorem v127_apply (V0 : Valuation τ sig (Elt Ideal)) (B : Fin 32) (n : Fin 512) (u : Fin 64) :
    res_main_v127 (F := Ideal) V0 (ix2 B (flatIx n u)) = h1R (argsV V0) B n u :=
  L1.v127_aux V0 B n u

namespace L1

/-- The projected output of the reference's run is the reference-form output. -/
theorem v133_apply (V0 : Valuation τ sig (Elt Ideal)) (B : Fin 32) (n : Fin 512) :
    shapeCast S32x512 (addf (F := Ideal) (Host.dotGeneral (F := Ideal) (φ₁ := .f32) (φ₂ := .f32) dot_S16384x64_S64x1_S16384x1_1_0_0_1_n_n none
        (shapeCast S16384x64 (res_main_v127 (F := Ideal) V0) shapeCasts_S32x32768_S16384x64) (V0 (Proc.devRef .tc main_arg11)))
      (broadcastInDim S16384x1 ![0, 1] bcast_S1x1_S16384x1_0_1
        (broadcastInDim S1x1 ![1] bcast_S1_S1x1_1 (V0 (Proc.devRef .tc main_arg12)))))
      shapeCasts_S16384x1_S32x512 (ix2 B n) = outR (argsV V0) (ix2 B n) := by
  refine (out_apply _ _ _ B n).trans ?_
  rw [outR_ix2]
  refine congrArg (· + (argsV V0).bp (ix1 (0 : Fin 1))) (Finset.sum_congr rfl fun u _ => ?_)
  rw [v127_apply]
  rfl

/-- The stacked states of the reference's run are the reference-form states. -/
theorem v136_apply (V0 : Valuation τ sig (Elt Ideal)) (l : Fin 2) (B : Fin 32) (j : Fin 32768) :
    concatenate S2x32x32768 0
      [⟨S1x32x32768, broadcastInDim S1x32x32768 ![1, 2] bcast_S32x32768_S1x32x32768_1_2 (res_main_v63 (F := Ideal) V0)⟩,
       ⟨S1x32x32768, broadcastInDim S1x32x32768 ![1, 2] bcast_S32x32768_S1x32x32768_1_2 (res_main_v127 (F := Ideal) V0)⟩]
      concatenates_S1x32x32768_S1x32x32768_S2x32x32768_d0 (ix3 l B j) = hsR (argsV V0) (ix3 l B j) := by
  rw [hsR_ix3, hs_apply]
  by_cases hl : l.val = 0
  · rw [if_pos hl, if_pos hl]
    exact (congrArg (fun q => res_main_v63 (F := Ideal) V0 (ix2 B q)) (flat_split j)).trans (v63_apply V0 B _ _)
  · rw [if_neg hl, if_neg hl]
    exact (congrArg (fun q => res_main_v127 (F := Ideal) V0 (ix2 B q)) (flat_split j)).trans (v127_apply V0 B _ _)

end L1

/-- The model's arguments read off a memory of the reference's program. -/
def argsOf (m : (ℓ : Loc nD τ sig) → Buf (Elt Ideal) ℓ) (c : Dev nD) : Cert.Dcgru.Args where
  X := m ((c.tc : Thread nD τ).loc main_arg0)
  A := m ((c.tc : Thread nD τ).loc main_arg1)
  H := m ((c.tc : Thread nD τ).loc main_arg2)
  Wg0 := m ((c.tc : Thread nD τ).loc main_arg3)
  bg0 := m ((c.tc : Thread nD τ).loc main_arg4)
  Wc0 := m ((c.tc : Thread nD τ).loc main_arg5)
  bc0 := m ((c.tc : Thread nD τ).loc main_arg6)
  Wg1 := m ((c.tc : Thread nD τ).loc main_arg7)
  bg1 := m ((c.tc : Thread nD τ).loc main_arg8)
  Wc1 := m ((c.tc : Thread nD τ).loc main_arg9)
  bc1 := m ((c.tc : Thread nD τ).loc main_arg10)
  Wp := m ((c.tc : Thread nD τ).loc main_arg11)
  bp := m ((c.tc : Thread nD τ).loc main_arg12)

namespace L1

/-- The arguments read off the launch's valuation are the arguments read off the memory. -/
theorem argsV_launch (m : (ℓ : Loc nD τ sig) → Buf (Elt Ideal) ℓ) (c : Dev nD) :
    argsV (launchContents m c) = argsOf m c := rfl

theorem v133_eq (m : (ℓ : Loc nD τ sig) → Buf (Elt Ideal) ℓ) (c : Dev nD) :
    (shapeCast S32x512 (addf (F := Ideal) (Host.dotGeneral (F := Ideal) (φ₁ := .f32) (φ₂ := .f32) dot_S16384x64_S64x1_S16384x1_1_0_0_1_n_n none
        (shapeCast S16384x64 (res_main_v127 (F := Ideal) (launchContents m c)) shapeCasts_S32x32768_S16384x64)
        ((launchContents m c) (Proc.devRef .tc main_arg11)))
      (broadcastInDim S16384x1 ![0, 1] bcast_S1x1_S16384x1_0_1
        (broadcastInDim S1x1 ![1] bcast_S1_S1x1_1 ((launchContents m c) (Proc.devRef .tc main_arg12)))))
      shapeCasts_S16384x1_S32x512 : S32x512.Idx → EReal) = outR (argsOf m c) := by
  funext i
  obtain ⟨B, n, rfl⟩ : ∃ (B : Fin 32) (n : Fin 512), i = ix2 B n := ⟨i 0, i 1, eq_ix2 i⟩
  rw [← argsV_launch]
  exact v133_apply (launchContents m c) B n

theorem v136_eq (m : (ℓ : Loc nD τ sig) → Buf (Elt Ideal) ℓ) (c : Dev nD) :
    (concatenate S2x32x32768 0
      [⟨S1x32x32768, broadcastInDim S1x32x32768 ![1, 2] bcast_S32x32768_S1x32x32768_1_2 (res_main_v63 (F := Ideal) (launchContents m c))⟩,
       ⟨S1x32x32768, broadcastInDim S1x32x32768 ![1, 2] bcast_S32x32768_S1x32x32768_1_2 (res_main_v127 (F := Ideal) (launchContents m c))⟩]
      concatenates_S1x32x32768_S1x32x32768_S2x32x32768_d0 : S2x32x32768.Idx → EReal) = hsR (argsOf m c) := by
  funext i
  obtain ⟨l, B, j, rfl⟩ : ∃ (l : Fin 2) (B : Fin 32) (j : Fin 32768), i = ix3 l B j := ⟨i 0, i 1, i 2, eq_ix3 i⟩
  rw [← argsV_launch]
  exact v136_apply (launchContents m c) l B j

end L1

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133) = outR (argsOf m c)
      ∧ r.2.mem ((c.tc : Thread nD τ).loc main_v136) = hsR (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (L1.v133_eq m c), (h c).2.1.trans (L1.v136_eq m c), (h c).2.2⟩)
    (Cert.ReferenceIdeal.ValueP.run (F := Ideal) m ρ)

end Cert.ReferenceIdeal.RV

end
-- ==== Proof.lean ====
/-
  The proof of `Cert.Claim`: a diffusion-convolution GRU decoder (two cells and a linear projection) as one kernel
  over chunks of 8 batch elements, against the model written with whole-batch matrix products.

  The mathematics (Proof/Spec.lean). Everything acts on one batch element at a time: a node signal is diffused by the
  adjacency (taps `z`, `A z`, `2 A (A z) − z`), every feature's three taps are contracted with a weight matrix whose rows
  are ordered (feature, tap), and the gates, the candidate and the GRU update follow. The kernel diffuses the input
  features and the hidden features separately, folds the factor two into the adjacency, adds the per-tap products one
  by one, and for layer 0's single input feature uses outer products instead of a contraction; the reference
  concatenates the features and contracts all (feature, tap) pairs at once. On the extended reals these agree with no
  appeal to finiteness: a nonnegative real factor distributes over every sum, and finite sums re-index and split
  freely (Proof/Algebra.lean). Narrowing to bf16 and widening back is the identity at the ideal instance, the kernel's
  logistic is the reference's spelt-out quotient, and the hyperbolic tangent is one function on both sides.

  The kernel's side: the body's stores read at an index over a grid point's blocks (Proof/KLayer0.lean, Proof/KLayer1.lean
  over the composite terms named in Proof/KTerms.lean), then the four points' blocks cover the result arrays
  (Proof/KFinal.lean, over the generated blockwise value leg). The reference's side: its run (Proof/RunP.lean) read stage by
  stage (Proof/RLayer0.lean, Proof/RLayer1.lean). Both runs end at ONE pair of arrays, the reference-form model of the
  arguments, which is the algebraic claim; the frames are the generated ones, and the two ledger entries of the
  idealization are the rule's statement (a widening of a narrowing is the identity at `Ideal`, the rounding at `Bits`).
-/
import proofs.«103657_g44504451121623_cont_8to1_c_180_16_alg».proof.Defs
import proofs.«103657_g44504451121623_cont_8to1_c_180_16_alg».proof.Proof.Gen.Kernel
import proofs.«103657_g44504451121623_cont_8to1_c_180_16_alg».proof.Proof.Gen.Kernel.Skeleton
import proofs.«103657_g44504451121623_cont_8to1_c_180_16_alg».proof.Proof.Gen.Kernel.Launch
import proofs.«103657_g44504451121623_cont_8to1_c_180_16_alg».proof.Proof.Gen.Kernel.Points
import proofs.«103657_g44504451121623_cont_8to1_c_180_16_alg».proof.Proof.Gen.Kernel.Frame
import proofs.«103657_g44504451121623_cont_8to1_c_180_16_alg».proof.Proof.Gen.KernelIdeal
import proofs.«103657_g44504451121623_cont_8to1_c_180_16_alg».proof.Proof.Gen.KernelIdeal.Skeleton
import proofs.«103657_g44504451121623_cont_8to1_c_180_16_alg».proof.Proof.Gen.KernelIdeal.Launch
import proofs.«103657_g44504451121623_cont_8to1_c_180_16_alg».proof.Proof.Gen.KernelIdeal.Points
import proofs.«103657_g44504451121623_cont_8to1_c_180_16_alg».proof.Proof.Gen.KernelIdeal.Frame
import proofs.«103657_g44504451121623_cont_8to1_c_180_16_alg».proof.Proof.Gen.ReferenceIdeal
import proofs.«103657_g44504451121623_cont_8to1_c_180_16_alg».proof.Proof.Gen.Pre_finite_inputs
import proofs.«103657_g44504451121623_cont_8to1_c_180_16_alg».proof.Proof.Gen.KernelIdeal.Value
import proofs.«103657_g44504451121623_cont_8to1_c_180_16_alg».proof.Proof.Algebra
import proofs.«103657_g44504451121623_cont_8to1_c_180_16_alg».proof.Proof.KFinal
import proofs.«103657_g44504451121623_cont_8to1_c_180_16_alg».proof.Proof.RLayer1
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.RV.run m ρ)

/-- The idealization's two rewrites, both of the input signal's taps narrowed to bf16 and widened back: at the ideal
    instance that round trip is the identity, at the word level it is the rounding through bf16. -/
theorem preserves : Cert.preserves_Kernel_KernelIdeal :=
  ⟨IdealRules.truncf_extf.statement _ _ _, IdealRules.truncf_extf.statement _ _ _⟩

/-- Memories that agree on the thirteen arguments give the two programs one model input. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RV.argsOf m' c = Cert.KernelIdeal.KV.argsOf m c := by
  unfold Cert.ReferenceIdeal.RV.argsOf Cert.KernelIdeal.KV.argsOf
  rw [h0, h1, h2, h3, h4, h5, h6, h7, h8, h9, h10, h11, h12]

/-- At `Ideal` the kernel's run ends with the kernel-form model of its arguments (the blocks' values, covered over the
    grid) and the reference's with the reference-form model of its own (its stages read in turn); the two forms are
    one function and the arguments agree, so both runs end with the same two arrays. -/
theorem algebraic : Cert.algebraic_KernelIdeal_ReferenceIdeal := by
  intro m ρ m' ρ' _ hagree
  refine ⟨fun c => Cert.Dcgru.outR (Cert.KernelIdeal.KV.argsOf m c), fun c => Cert.Dcgru.hsR (Cert.KernelIdeal.KV.argsOf m c), ?_, ?_⟩
  · refine (θ_run Cert.KernelIdeal.defs _ _).mono (fun r h c => ?_) (Cert.KernelIdeal.KV.run m ρ)
    obtain ⟨ho, hh, hrest⟩ := h c
    exact ⟨ho.trans (Cert.Dcgru.outK_eq_outR _), hh.trans (Cert.Dcgru.hsK_eq_hsR _), hrest⟩
  · refine (θ_run Cert.ReferenceIdeal.defs _ _).mono (fun r h c => ?_) (Cert.ReferenceIdeal.RV.run m' ρ')
    obtain ⟨ho, hh, hrest⟩ := h c
    obtain ⟨h0, h1, h2, h3, h4, h5, h6, h7, h8, h9, h10, h11, h12⟩ := hagree c
    have ha := args_agree m m' c h0 h1 h2 h3 h4 h5 h6 h7 h8 h9 h10 h11 h12
    exact ⟨ho.trans (congrArg Cert.Dcgru.outR ha), hh.trans (congrArg Cert.Dcgru.hsR ha), hrest⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
